-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1 : Shape := ⟨1, ![1]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x10 .f32) (main_arg10 : FVec F S10 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg9
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg4 : FVec F S128x128 .f32) (main_arg5 : FVec F S128 .f32) (main_arg6 : FVec F S1 .f32) (main_arg7 : FVec F S128x128 .f32) (main_arg8 : FVec F S128 .f32) (main_arg9 : FVec F S128x10 .f32) (main_arg10 : FVec F S10 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x128 .f32) (main_arg2 : FVec F S128 .f32) (main_arg3 : FVec F S1 .f32) (main_arg4 : FVec F S128x128 .f32) (main_arg5 : FVec F S128 .f32) (main_arg6 : FVec F S1 .f32) (main_arg7 : FVec F S128x128 .f32) (main_arg8 : FVec F S128 .f32) (main_arg9 : FVec F S128x10 .f32) (main_arg10 : FVec F S10 .f32) (main_arg11 : IVec S2x1600000 32) (main_arg12 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x128 : Shape := ⟨2, ![128, 128]⟩
abbrev S128 : Shape := ⟨1, ![128]⟩
abbrev S1 : Shape := ⟨1, ![1]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S1x1 : Shape := ⟨2, ![1, 1]⟩
abbrev S64 : Shape := ⟨1, ![64]⟩
abbrev S1x64 : Shape := ⟨2, ![1, 64]⟩
abbrev S100000x64 : Shape := ⟨2, ![100000, 64]⟩
abbrev S64x1 : Shape := ⟨2, ![64, 1]⟩
abbrev S1x10 : Shape := ⟨2, ![1, 10]⟩
abbrev S64x10 : Shape := ⟨2, ![64, 10]⟩
abbrev S5000x64 : Shape := ⟨2, ![5000, 64]⟩
abbrev S64x128 : Shape := ⟨2, ![64, 128]⟩

abbrev nBuf : Space → Nat
  | .hbm => 96
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S1, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S2x1600000, .i32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S1x1, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S1x1, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x128, .f32⟩
  | .hbm, ⟨80, _⟩ => ⟨S100000x1, .i32⟩
  | .hbm, ⟨81, _⟩ => ⟨S64, .i32⟩
  | .hbm, ⟨82, _⟩ => ⟨S1x64, .i32⟩
  | .hbm, ⟨83, _⟩ => ⟨S100000x64, .i32⟩
  | .hbm, ⟨84, _⟩ => ⟨S100000x64, .i32⟩
  | .hbm, ⟨85, _⟩ => ⟨S100000x64, .i1⟩
  | .hbm, ⟨86, _⟩ => ⟨S100000x64, .f32⟩
  | .hbm, ⟨87, _⟩ => ⟨S_, .f32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64x1, .f32⟩
  | .hbm, ⟨93, _⟩ => ⟨S1x128, .f32⟩
  | .hbm, ⟨94, _⟩ => ⟨S1x10, .f32⟩
  | .hbm, ⟨95, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x1, .f32⟩
  | .local _ .vmem, ⟨11, _⟩ => ⟨S5000x1, .f32⟩
  | .local _ .vmem, ⟨12, _⟩ => ⟨S5000x1, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x1, .f32⟩
  | .local _ .vmem, ⟨29, _⟩ => ⟨S5000x1, .f32⟩
  | .local _ .vmem, ⟨30, _⟩ => ⟨S5000x64, .f32⟩
  | .local _ .vmem, ⟨31, _⟩ => ⟨S5000x64, .f32⟩
  | .local _ .vmem, ⟨32, _⟩ => ⟨S64x1, .f32⟩
  | .local _ .vmem, ⟨33, _⟩ => ⟨S128x10, .f32⟩
  | .local _ .vmem, ⟨34, _⟩ => ⟨S1x10, .f32⟩
  | .local _ .vmem, ⟨35, _⟩ => ⟨S64x10, .f32⟩
  | .local _ .vmem, ⟨36, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem7_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_12 : BitVec 32 := 0#32
  let v23 : BitVec 1 := Scalar.cmpi .ne v22 c0_i32_12
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S1_S1x1 : S1.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  shapeCasts_S64_S64x1 : S64.ShapeCasts S64x1
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S5000x128_S64x128_0_0_1_1_n_n_wf : DotDims.WF S5000x64 S5000x128 S64x128 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x10.size a ≤ S128x10.size a
  hwx3_5 : ∀ i : grid3.Coords, EltTy.bits .f32 = 32 ∨ (Rect.block (s := S128x10) S128x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x10.size a ≤ S64x10.size a
  hwx3_7 : ∀ i : grid3.Coords, EltTy.bits .f32 = 32 ∨ (Rect.block (s := S64x10) S64x10.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v64) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S128x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S64x10.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1 : Shape := ⟨1, ![1]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x1 : Shape := ⟨2, ![1, 1]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S1, .f32⟩
  | 4 => ⟨S128x128, .f32⟩
  | 5 => ⟨S128, .f32⟩
  | 6 => ⟨S1, .f32⟩
  | 7 => ⟨S128x128, .f32⟩
  | 8 => ⟨S128, .f32⟩
  | 9 => ⟨S128x10, .f32⟩
  | 10 => ⟨S10, .f32⟩
  | 11 => ⟨S2x1600000, .i32⟩
  | 12 => ⟨S100000, .i32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .i1⟩
  | 72 => ⟨S1x1, .f32⟩
  | 73 => ⟨S100000x128, .f32⟩
  | 74 => ⟨S100000x128, .f32⟩
  | 75 => ⟨S100000x128, .f32⟩
  | 76 => ⟨S100000x128, .f32⟩
  | 77 => ⟨S1700000x1, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .i1⟩
  | 99 => ⟨S1x1, .f32⟩
  | 100 => ⟨S100000x128, .f32⟩
  | 101 => ⟨S100000x128, .f32⟩
  | 102 => ⟨S100000x128, .f32⟩
  | 103 => ⟨S100000x128, .f32⟩
  | 104 => ⟨S1700000x1, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S64x128, .f32⟩
  | 125 => ⟨S100000x1, .i32⟩
  | 126 => ⟨S64x128, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S64x10, .f32⟩
  | 12 => ⟨S1x10, .f32⟩
  | 13 => ⟨S64x10, .f32⟩
  | 14 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_13 : Ref sig .tc := ⟨.hbm, 105, rfl⟩
abbrev main_v77 : Ref sig .tc := ⟨.hbm, 106, rfl⟩
abbrev main_v78 : Ref sig .tc := ⟨.hbm, 107, rfl⟩
abbrev main_c_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_16 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_17 : Ref sig .tc := ⟨.hbm, 127, rfl⟩
abbrev main_v95 : Ref sig .tc := ⟨.hbm, 128, rfl⟩
abbrev main_cst_18 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_19 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Region0.lean ====
/-
  Launch 0 (the scaled matrix product), the frame of its twenty grid points, generic in the float instance and stated at
  the buffer contents `V` the launch is entered from.

  Point `t` reads rows `[5000 t, 5000 (t + 1))` of the feature array and of the node-weight column, and the whole
  `[128, 128]` matrix (fetched once, at the first point; an unfetched window's buffer still holds its block, its block
  index not having moved). The body loads the three blocks, and stores ONE whole-buffer payload into the output window:
  the weight column broadcast along the rows, times the block's product with the matrix. So after the body the output
  buffer holds that payload of the three input blocks (`out0_3`), the inputs' buffers hold their blocks, and the body
  obligation at every point is the body's triple on whole staging memrefs.
-/
import proofs.«421659_j20615843021630_2_alg».proof.Proof.Gen.KernelIdeal.Launch
import proofs.«421659_j20615843021630_2_alg».proof.Proof.Gen.KernelIdeal.Skeleton
import proofs.«421659_j20615843021630_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Launch 0: the scaled matrix product `cc0__matmul_scaled_kernel` (pipeline 0), at the entry contents `V`

The grid has 20 points. Windows 0 (the rows of `x`) and 2 (the column of row weights) move one block of 5000
rows per point; window 1 (the 128 × 128 matrix) is whole and fetched once; window 3 is the output, one block of
5000 rows per point, written back at every point. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved, so the block of the point before is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved, so the block of the point before is this point's; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block
    index has not moved, so the block of the point before is this point's; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the three inputs is loaded whole, the output stored whole -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

/-! ## What the body leaves in the output window's buffer -/

/-- Window 3's staging buffer after the body, from the input windows' blocks: its one store as a piece, the
    payload the weighted product of the three loaded inputs. -/
def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

/-- The one store is of the whole buffer, so it covers it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs
    to the continuation holding the inputs' as they were and the output's at `out0_3` of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_scaled_kernel i arg1 harg1 arg2 harg2 arg3 harg3 arg4 harg4) K := by
  simp only [cc0__matmul_scaled_kernel_eq_skeleton]; unfold cc0__matmul_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  Launch 1 (finish a graph convolution, rectify, multiply by the next matrix, scale by the node weights), the frame of
  its twenty grid points, generic in the float instance and stated at the buffer contents `V` the launch is entered from.

  Point `t` reads rows `[5000 t, 5000 (t + 1))` of the aggregated array and of the node-weight column, and — fetched
  once, at the first point — the bias row, the slope and the `[128, 128]` matrix (an unfetched window's buffer still
  holds its block, its block index not having moved). The body loads the five blocks and stores ONE whole-buffer
  payload into the output window: weight · ( rectify (weight · aggregated + bias) · matrix ). So after the body the output
  buffer holds that payload of the five input blocks (`out1_5`), the inputs' buffers hold their blocks, and the body
  obligation at every point is the body's triple on whole staging memrefs.
-/
import proofs.«421659_j20615843021630_2_alg».proof.Proof.Gen.KernelIdeal.Launch
import proofs.«421659_j20615843021630_2_alg».proof.Proof.Gen.KernelIdeal.Skeleton
import proofs.«421659_j20615843021630_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The fused layer's first launch: the class-A half of the region, at the entry contents `V`

Five input windows (0 the aggregated rows, 1 the bias row, 2 the slope, 3 the weights column, 4 the dense matrix) and
one output window (5). The body reads every input block whole and overwrites the output block whole. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the block of the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the block of the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, so the block of the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, so the block of the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, so the block of the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every staging buffer whole -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S1x1 := Rect.unit (s := S1x1) ![0, 0] S1x1.size inb_S1x1_S1x1_0_0
abbrev r1_3 : Rect S5000x1 := Rect.unit (s := S5000x1) ![0, 0] S5000x1.size inb_S5000x1_S5000x1_0_0
abbrev r1_4 : Rect S128x128 := Rect.unit (s := S128x128) ![0, 0] S128x128.size inb_S128x128_S128x128_0_0
abbrev r1_5 : Rect S5000x128 := Rect.unit (s := S5000x128) ![0, 0] S5000x128.size inb_S5000x128_S5000x128_0_0

/-! ## What the body leaves in the output window's buffer -/

/-- Window 5's staging buffer after the body, from the input windows' blocks: its one store as a piece, the payload
    the skeleton's (the weights column, the aggregated rows, the bias row, the slope, the dense matrix, in that order). -/
def out1_5 (x0 : Vec F S5000x128 .f32) (x1 : Vec F S1x128 .f32) (x2 : Vec F S1x1 .f32) (x3 : Vec F S5000x1 .f32) (x4 : Vec F S128x128 .f32) : Vec F S5000x128 .f32 :=
  View.canon [⟨r1_5, k1_pay1 (View.ld x3 r1_3) (View.ld x0 r1_0) (View.ld x1 r1_1) (View.ld x2 r1_2) (View.ld x4 r1_4)⟩]

/-- The one store is the whole buffer, so it covers it. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S1x128 .f32) (x2 : Vec F S1x1 .f32) (x3 : Vec F S5000x1 .f32) (x4 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__fused_kernel i arg0 harg0 arg1 harg1 arg2 harg2 arg3 harg3 arg4 harg4 arg5 harg5) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them (`V`); after the body at
    point `t` each input's buffer at its block and the output's at `out1_5` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/-
  Launch 2 (finish a graph convolution, rectify, multiply by the next matrix, scale by the node weights), the frame of
  its twenty grid points, generic in the float instance and stated at the buffer contents `V` the launch is entered from.

  Point `t` reads rows `[5000 t, 5000 (t + 1))` of the aggregated array and of the node-weight column, and — fetched
  once, at the first point — the bias row, the slope and the `[128, 128]` matrix (an unfetched window's buffer still
  holds its block, its block index not having moved). The body loads the five blocks and stores ONE whole-buffer
  payload into the output window: weight · ( rectify (weight · aggregated + bias) · matrix ). So after the body the output
  buffer holds that payload of the five input blocks (`out2_5`), the inputs' buffers hold their blocks, and the body
  obligation at every point is the body's triple on whole staging memrefs.
-/
import proofs.«421659_j20615843021630_2_alg».proof.Proof.Gen.KernelIdeal.Launch
import proofs.«421659_j20615843021630_2_alg».proof.Proof.Gen.KernelIdeal.Skeleton
import proofs.«421659_j20615843021630_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The fused layer's first launch: the class-A half of the region, at the entry contents `V`

Five input windows (0 the aggregated rows, 1 the bias row, 2 the slope, 3 the weights column, 4 the dense matrix) and
one output window (5). The body reads every input block whole and overwrites the output block whole. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the block of the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the block of the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved, so the block of the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved, so the block of the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every staging buffer whole -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S1x1 := Rect.unit (s := S1x1) ![0, 0] S1x1.size inb_S1x1_S1x1_0_0
abbrev r2_3 : Rect S5000x1 := Rect.unit (s := S5000x1) ![0, 0] S5000x1.size inb_S5000x1_S5000x1_0_0
abbrev r2_4 : Rect S128x128 := Rect.unit (s := S128x128) ![0, 0] S128x128.size inb_S128x128_S128x128_0_0
abbrev r2_5 : Rect S5000x128 := Rect.unit (s := S5000x128) ![0, 0] S5000x128.size inb_S5000x128_S5000x128_0_0

/-! ## What the body leaves in the output window's buffer -/

/-- Window 5's staging buffer after the body, from the input windows' blocks: its one store as a piece, the payload
    the skeleton's (the weights column, the aggregated rows, the bias row, the slope, the dense matrix, in that order). -/
def out2_5 (x0 : Vec F S5000x128 .f32) (x1 : Vec F S1x128 .f32) (x2 : Vec F S1x1 .f32) (x3 : Vec F S5000x1 .f32) (x4 : Vec F S128x128 .f32) : Vec F S5000x128 .f32 :=
  View.canon [⟨r2_5, k2_pay1 (View.ld x3 r2_3) (View.ld x0 r2_0) (View.ld x1 r2_1) (View.ld x2 r2_2) (View.ld x4 r2_4)⟩]

/-- The one store is the whole buffer, so it covers it. -/
theorem cover2_5 (p0 : Vec F S5000x128 .f32) (y : S5000x128.Idx) :
    ∃ pc ∈ ([⟨r2_5, p0⟩] : List (View.Piece (Elt F) S5000x128 .f32)), y ∈ pc.1.set :=
  View.cover_of_tiled [⟨r2_5, p0⟩] S5000x128.size (by rfl) y

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg0 : Memref sig .tc .vmem S5000x128 .f32) (harg0 : arg0.IsWhole) (arg1 : Memref sig .tc .vmem S1x128 .f32) (harg1 : arg1.IsWhole) (arg2 : Memref sig .tc .vmem S1x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S1x128 .f32) (x2 : Vec F S1x1 .f32) (x3 : Vec F S5000x1 .f32) (x4 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__fused_kernel i arg0 harg0 arg1 harg1 arg2 harg2 arg3 harg3 arg4 harg4 arg5 harg5) K := by
  simp only [cc2__fused_kernel_eq_skeleton]; unfold cc2__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core `c`: the arrays as the region finds them (`V`); after the body at
    point `t` each input's buffer at its block and the output's at `out2_5` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region3Defs.lean ====
/-
  The last launch (the pooling kernel) point by point: which block of each array a grid point reads, what the
  accumulator scratch holds after each point, and what the result window's buffer holds after a point.

  The grid has 20 points; point `t` reads rows `[5000 t, 5000 (t + 1))` of the node arrays. The scratch accumulator is
  zeroed at point 0 and then, at every point, has that point's partial products added to it: after point `n` it holds
  the body's accumulation payload of point `n`'s blocks over what point `n − 1` left (over zeros at `n = 0`). The result
  window is stored only at the last point, from the accumulator as that point leaves it; at the other points nothing
  reads or writes back its buffer, and `out3` there is a value nobody consults.
-/
import proofs.«421659_j20615843021630_2_alg».proof.Proof.Gen.KernelIdeal.Launch
import proofs.«421659_j20615843021630_2_alg».proof.Proof.Gen.KernelIdeal.Skeleton
import proofs.«421659_j20615843021630_2_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator scratch after point `n`: the accumulation payload of point `n`'s blocks (weights, aggregated rows,
    bias, membership) over zeros at the first point, over what the point before left afterwards. -/
def acc3 (c : Dev nD) : (n : ℕ) → n < cfg3.N → Vec F S64x128 .f32
  | 0, h => k3_pay2 (iblk3 V c 2 ⟨0, h⟩) (iblk3 V c 0 ⟨0, h⟩) (iblk3 V c 1 ⟨0, h⟩) (iblk3 V c 3 ⟨0, h⟩) (k3_pay1 (F := F))
  | n + 1, h => k3_pay2 (iblk3 V c 2 ⟨n + 1, h⟩) (iblk3 V c 0 ⟨n + 1, h⟩) (iblk3 V c 1 ⟨n + 1, h⟩) (iblk3 V c 3 ⟨n + 1, h⟩)
      (acc3 c n (Nat.lt_of_succ_lt h))

/-- What the result window's buffer holds after point `t` when the point stores it (the last point does): the
    finishing payload of the accumulator as the point leaves it, the graph sizes, the last weights and bias. -/
def out3 (c : Dev nD) (t : Fin cfg3.N) : Vec F S64x10 .f32 :=
  k3_pay3 (acc3 V c t.val t.isLt) (iblk3 V c 4 t) (iblk3 V c 5 t) (iblk3 V c 6 t)

end Cert.KernelIdeal.Hand

end
-- ==== Proof.Region3Run.lean ====
/-
  The last launch (the pooling kernel), the body at one grid point, in each of its three control cases.

  The body zeroes the accumulator scratch where the grid coordinate is 0, then at every point adds that point's partial
  products into it (one whole-buffer store of the accumulation payload over the scratch as loaded), and where the
  coordinate is 19 stores the finishing payload of the accumulator into the result buffer. So three cases: the first
  point (zeroing taken, finishing not), a middle point (neither), the last point (finishing taken, zeroing not). Each
  case's triple is stated over whole staging memrefs owned at named contents: the inputs come back as they were, the
  scratch comes back at the accumulation payload of the inputs over zeros (first point) or over what it held, and the
  result buffer comes back untouched (first and middle points) or at the finishing payload (last point). Every store is
  through the whole-buffer rectangle, so what a buffer reads afterwards is the last payload stored, and a load of the
  scratch after a store reads that store's payload.
-/
import proofs.«421659_j20615843021630_2_alg».proof.Proof.Gen.KernelIdeal.Launch
import proofs.«421659_j20615843021630_2_alg».proof.Proof.Gen.KernelIdeal.Skeleton
import proofs.«421659_j20615843021630_2_alg».proof.Proof.Gen.KernelIdeal.Points
import proofs.«421659_j20615843021630_2_alg».proof.Proof.Region3Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The first branch of the body is taken exactly where the grid coordinate is 0: the condition as the body computes it. -/
abbrev cond3_0 (i : grid3.Coords) : Prop := (Scalar.cmpi .ne (Scalar.extui (Scalar.cmpi .eq (BitVec.ofNat 32 (i 0).val) 0#32)) 0#32) = 1#1
/-- The second branch is taken exactly where the grid coordinate is 19. -/
abbrev cond3_1 (i : grid3.Coords) : Prop := k3_cond2 i = 1#1

/-- Every access of the body is through the whole-buffer rectangle, whose offsets are all zero. -/
theorem hz2 : (![0, 0] : Fin 2 → ℕ) = fun _ => 0 := by funext a; fin_cases a <;> rfl

/-- Stores into the accumulator whose last is through the whole-buffer rectangle cover it. -/
theorem cover_acc (w : Vec F S64x128 .f32) (L : List (View.Piece (Elt F) S64x128 .f32)) (y : S64x128.Idx) :
    ∃ pc ∈ ((⟨Rect.unit ![0, 0] S64x128.size inb_S64x128_S64x128_0_0, w⟩ : View.Piece (Elt F) S64x128 .f32) :: L), y ∈ pc.1.set :=
  ⟨_, List.Mem.head _, View.mem_set_unit_zero hz2 inb_S64x128_S64x128_0_0 y⟩

/-- The one store into the result buffer, through the whole-buffer rectangle, covers it. -/
theorem cover_out (w : Vec F S64x10 .f32) (L : List (View.Piece (Elt F) S64x10 .f32)) (y : S64x10.Idx) :
    ∃ pc ∈ ((⟨Rect.unit ![0, 0] S64x10.size inb_S64x10_S64x10_0_0, w⟩ : View.Piece (Elt F) S64x10 .f32) :: L), y ∈ pc.1.set :=
  ⟨_, List.Mem.head _, View.mem_set_unit_zero hz2 inb_S64x10_S64x10_0_0 y⟩

/-! ## The body's triple, case by case

The staging memrefs are whole buffers; the inputs are owned at their read contents, and handed back as they were. -/

set_option maxHeartbeats 1000000 in
/-- FIRST POINT (first branch taken, second not): the scratch, found at anything, is zeroed and then receives the
    accumulation payload of this point's blocks over the zeros; the result buffer is not touched. -/
theorem run3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S5000x64 .f32) (harg4 : arg4.IsWhole) (arg5 : Memref sig .tc .vmem S64x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x128 .f32) (harg9 : arg9.IsWhole) (hc0 : cond3_0 i) (hc1 : ¬cond3_1 i)
    (x0 : Vec F S5000x128 .f32) (x1 : Vec F S1x128 .f32) (x2 : Vec F S5000x1 .f32) (x3 : Vec F S5000x64 .f32) (x4 : Vec F S64x1 .f32) (x5 : Vec F S128x10 .f32) (x6 : Vec F S1x10 .f32) (xi7 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare xi7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare xi7
        ∗ owns (c : Thread nD τ) arg9 fullShare (k3_pay2 x2 x0 x1 x3 (k3_pay1 (F := F)))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS
  ipureintro
  sl_unfold_run_names
  rw [View.read_writes_eq_canon _ _ _ (cover_acc _ _), View.canon_cons_unit_zero hz2]
  simp only [View.readAt_eq_ld, Memref.IsWhole.read_unread, View.ld_unit_zero (S := S5000x128) hz2, View.ld_unit_zero (S := S1x128) hz2, View.ld_unit_zero (S := S5000x1) hz2, View.ld_unit_zero (S := S5000x64) hz2, View.readCov_unit_zero (S := S64x128) _ hz2]

set_option maxHeartbeats 1000000 in
/-- A MIDDLE POINT (neither branch taken): the scratch, found at the point before's contents, receives the accumulation
    payload of this point's blocks over them; the result buffer is not touched. -/
theorem run3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S5000x64 .f32) (harg4 : arg4.IsWhole) (arg5 : Memref sig .tc .vmem S64x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x128 .f32) (harg9 : arg9.IsWhole) (hc0 : ¬cond3_0 i) (hc1 : ¬cond3_1 i)
    (x0 : Vec F S5000x128 .f32) (x1 : Vec F S1x128 .f32) (x2 : Vec F S5000x1 .f32) (x3 : Vec F S5000x64 .f32) (x4 : Vec F S64x1 .f32) (x5 : Vec F S128x10 .f32) (x6 : Vec F S1x10 .f32) (xi7 : Vec F S64x10 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare xi7
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare xi7
        ∗ owns (c : Thread nD τ) arg9 fullShare (k3_pay2 x2 x0 x1 x3 xs)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS
  ipureintro
  sl_unfold_run_names
  rw [View.read_writes_eq_canon _ _ _ (cover_acc _ _), View.canon_unit_zero hz2]
  simp only [View.readAt_eq_ld, Memref.IsWhole.read_unread, View.ld_unit_zero (S := S5000x128) hz2, View.ld_unit_zero (S := S1x128) hz2, View.ld_unit_zero (S := S5000x1) hz2, View.ld_unit_zero (S := S5000x64) hz2, View.ld_unit_zero (S := S64x128) hz2]

set_option maxHeartbeats 1000000 in
/-- THE LAST POINT (first branch not taken, second taken): the scratch receives the accumulation payload as at a middle
    point, and the result buffer, found at anything, the finishing payload of the scratch as just stored. -/
theorem run3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S5000x64 .f32) (harg4 : arg4.IsWhole) (arg5 : Memref sig .tc .vmem S64x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x128 .f32) (harg9 : arg9.IsWhole) (hc0 : ¬cond3_0 i) (hc1 : cond3_1 i)
    (x0 : Vec F S5000x128 .f32) (x1 : Vec F S1x128 .f32) (x2 : Vec F S5000x1 .f32) (x3 : Vec F S5000x64 .f32) (x4 : Vec F S64x1 .f32) (x5 : Vec F S128x10 .f32) (x6 : Vec F S1x10 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare (k3_pay3 (k3_pay2 x2 x0 x1 x3 xs) x4 x5 x6)
        ∗ owns (c : Thread nD τ) arg9 fullShare (k3_pay2 x2 x0 x1 x3 xs)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    rw [View.read_writes_eq_canon _ _ _ (cover_out _ _), View.canon_unit_zero hz2]
    simp only [View.readAt_eq_ld, Memref.IsWhole.read_unread, View.ld_unit_zero (S := S5000x128) hz2, View.ld_unit_zero (S := S1x128) hz2, View.ld_unit_zero (S := S5000x1) hz2, View.ld_unit_zero (S := S5000x64) hz2, View.ld_unit_zero (S := S64x128) hz2, View.ld_unit_zero (S := S64x1) hz2, View.ld_unit_zero (S := S128x10) hz2, View.ld_unit_zero (S := S1x10) hz2, View.readCov_unit_zero (S := S64x128) _ hz2]
  iexists _; isplitr
  swap; · iexact HS
  ipureintro
  sl_unfold_run_names
  rw [View.read_writes_eq_canon _ _ _ (cover_acc _ _), View.canon_unit_zero hz2]
  simp only [View.readAt_eq_ld, Memref.IsWhole.read_unread, View.ld_unit_zero (S := S5000x128) hz2, View.ld_unit_zero (S := S1x128) hz2, View.ld_unit_zero (S := S5000x1) hz2, View.ld_unit_zero (S := S5000x64) hz2, View.ld_unit_zero (S := S64x128) hz2]

end Cert.KernelIdeal.Hand

end
-- ==== Proof.Region3.lean ====
/-
  The last launch (the pooling kernel): the frame of its twenty grid points.

  The kernel carries a scratch accumulator from point to point, so the region invariant names what the scratch holds:
  before the first point what the launch hands over (the scratch at anything), and before point `n + 1` the accumulator
  as point `n` left it — the accumulation payload of point `n`'s blocks over zeros at `n = 0`, over the accumulator of
  point `n − 1` afterwards. The inputs' staging buffers hold their blocks at every point (fetched there or not: an
  unfetched window's block index has not moved). The result window is stored only at the last point, from the
  accumulator as that point leaves it; at every other point it is idle and not written back, and its buffer is handed
  back as found. With the three per-case triples of the body this gives the body obligation at every point, by cases
  on the closed forms of the two branch conditions; the invariant is what the launch hands over at the start, and
  gives that back at the end by forgetting the accumulator's named contents.
-/
import proofs.«421659_j20615843021630_2_alg».proof.Proof.Gen.KernelIdeal.Launch
import proofs.«421659_j20615843021630_2_alg».proof.Proof.Gen.KernelIdeal.Skeleton
import proofs.«421659_j20615843021630_2_alg».proof.Proof.Gen.KernelIdeal.Points
import proofs.«421659_j20615843021630_2_alg».proof.Proof.Region3Defs
import proofs.«421659_j20615843021630_2_alg».proof.Proof.Region3Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The conditions in closed form, and where the result window is idle -/

/-- The first branch is taken at point 0 only — decided over the grid. -/
theorem hcond3_0 : ∀ t : Fin cfg3.N, cond3_0 (grid3.coords t) ↔ t.val % 20 = 0 :=
  (by decide +kernel : ∀ t : Fin grid3.N, cond3_0 (grid3.coords t) ↔ t.val % 20 = 0)
/-- The second branch is taken at point 19 only — decided over the grid. -/
theorem hcond3_1 : ∀ t : Fin cfg3.N, cond3_1 (grid3.coords t) ↔ t.val % 20 = 19 :=
  (by decide +kernel : ∀ t : Fin grid3.N, cond3_1 (grid3.coords t) ↔ t.val % 20 = 19)

/-- Where the second branch is not taken the result window is idle, -/
theorem idleAt3_7 : ∀ t : Fin cfg3.N, ¬cond3_1 (grid3.coords t) → cfg3.idle 7 (grid3.coords t) = true := by decide +kernel
/-- and its block is not written back there; -/
theorem noFlush3_7 : ∀ t : Fin cfg3.N, ¬cond3_1 (grid3.coords t) → (cfg3.win 7).flush t = false := by decide +kernel
/-- where it is taken the window is live. -/
theorem liveAt3_7 : ∀ t : Fin cfg3.N, cond3_1 (grid3.coords t) → cfg3.idle 7 (grid3.coords t) = false := by decide +kernel
/-- Input window 0 is never idle. -/
theorem liveAt3_0 : ∀ t : Fin cfg3.N, cfg3.idle 0 (grid3.coords t) = false := fun _ => rfl
/-- Input window 1 is never idle. -/
theorem liveAt3_1 : ∀ t : Fin cfg3.N, cfg3.idle 1 (grid3.coords t) = false := fun _ => rfl
/-- Input window 2 is never idle. -/
theorem liveAt3_2 : ∀ t : Fin cfg3.N, cfg3.idle 2 (grid3.coords t) = false := fun _ => rfl
/-- Input window 3 is never idle. -/
theorem liveAt3_3 : ∀ t : Fin cfg3.N, cfg3.idle 3 (grid3.coords t) = false := fun _ => rfl
/-- Input window 4 is never idle. -/
theorem liveAt3_4 : ∀ t : Fin cfg3.N, cfg3.idle 4 (grid3.coords t) = false := fun _ => rfl
/-- Input window 5 is never idle. -/
theorem liveAt3_5 : ∀ t : Fin cfg3.N, cfg3.idle 5 (grid3.coords t) = false := fun _ => rfl
/-- Input window 6 is never idle. -/
theorem liveAt3_6 : ∀ t : Fin cfg3.N, cfg3.idle 6 (grid3.coords t) = false := fun _ => rfl

/-! ## The inputs' buffers hold their blocks -/

/-- Input window 0's current staging buffer holds its block at every point, fetched there or not (unfetched, the block
    index has not moved), for any proof data whose array is the region-entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the block
    index has not moved), for any proof data whose array is the region-entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the block
    index has not moved), for any proof data whose array is the region-entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the block
    index has not moved), for any proof data whose array is the region-entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (unfetched, the block
    index has not moved), for any proof data whose array is the region-entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (unfetched, the block
    index has not moved), for any proof data whose array is the region-entry contents and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not (unfetched, the block
    index has not moved), for any proof data whose array is the region-entry contents and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- At the first point the accumulator is that point's accumulation over zeros. -/
theorem acc3_first (c : Dev nD) (t : Fin cfg3.N) (hz : t.val = 0) :
    acc3 V c t.val t.isLt = k3_pay2 (iblk3 V c 2 t) (iblk3 V c 0 t) (iblk3 V c 1 t) (iblk3 V c 3 t) (k3_pay1 (F := F)) := by
  obtain ⟨n, hn⟩ := t
  cases n with
  | zero => rfl
  | succ n => exact absurd hz (Nat.succ_ne_zero n)

/-- At a later point it is that point's accumulation over what the point before left. -/
theorem acc3_pos (c : Dev nD) (t : Fin cfg3.N) (hz : t.val ≠ 0) :
    acc3 V c t.val t.isLt = k3_pay2 (iblk3 V c 2 t) (iblk3 V c 0 t) (iblk3 V c 1 t) (iblk3 V c 3 t)
      (acc3 V c (t.val - 1) (Nat.lt_of_le_of_lt (Nat.sub_le _ _) t.isLt)) := by
  obtain ⟨n, hn⟩ := t
  cases n with
  | zero => exact absurd rfl hz
  | succ n => rfl

/-! ## The invariant: the scratch carried between points -/

/-- The scratch accumulator as the body is handed it: the whole buffer. -/
abbrev scM3 : Memref sig .tc .vmem S64x128 .f32 := Memref.whole cc3_scratch0

/-- The core's scoped buffers that are neither a staging buffer of this launch nor its scratch: carried unopened. -/
abbrev rest3 (c : Dev nD) : sProp 𝕄 :=
  Pipeline.scopedRestBut (Ix := Unit) (Name := ℕ) (U := UR sig nD τ) (Lvl := ℕ) (Val := Elt F) spec3 c [cc3_scratch0]

/-- What the launch hands the region, with the scratch split out as a memref owned at some contents. -/
theorem PhiA3_eq (c : Dev nD) :
    (Pipeline.ΦA spec3 c : sProp 𝕄)
      = iprop(iprop((∃ d, owns (c : Thread nD τ) scM3 fullShare d) ∗ rest3 (F := F) c) ∗ (∃ r, prngReg c r)) := by
  unfold Pipeline.ΦA; rw [scopedRest3_split]; simp only [scM3, rest3, owns_whole]; try rfl

/-- The region invariant before position `n`: before the first point what the launch hands over (the scratch at
    anything); afterwards the scratch at the accumulator the point before left, the other scoped buffers unopened and
    the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n`: the scratch at that point's accumulator. -/
theorem PhiS3_succ (c : Dev nD) (n : ℕ) (hn : n < cfg3.N) :
    PhiS3 V c (n + 1) hn = iprop(iprop(owns (c : Thread nD τ) scM3 fullShare (acc3 V c n hn) ∗ rest3 (F := F) c) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(owns (c : Thread nD τ) scM3 fullShare (acc3 V c (n - 1) (by omega)) ∗ rest3 (F := F) c) ∗ (∃ r, prngReg c r)) := by
  cases n with
  | zero => exact absurd rfl hz
  | succ n => rfl

/-! ## The proof data -/

/-- The proof data of the launch on core `c`: the arrays as the region finds them; after the body at point `t` each
    input's buffer at its block and the result's at the finishing payload of that point's accumulator; the invariant
    the carried scratch's; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 V c t
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- An input's buffer is left at its block. -/
theorem leaves3_0 (c : Dev nD) (t : Fin cfg3.N) :
    (dat3 V c).leavesExact 0 t = owns (c : Thread nD τ) (st3_0 t) fullShare (iblk3 V c 0 t) := by
  rw [show (dat3 V c).leavesExact 0 t = owns (c : Thread nD τ) (st3_0 t) fullShare ((dat3 V c).after 0 t) from by
    unfold Dat.leavesExact; rw [liveAt3_0 t], after3_0]
theorem leaves3_1 (c : Dev nD) (t : Fin cfg3.N) :
    (dat3 V c).leavesExact 1 t = owns (c : Thread nD τ) (st3_1 t) fullShare (iblk3 V c 1 t) := by
  rw [show (dat3 V c).leavesExact 1 t = owns (c : Thread nD τ) (st3_1 t) fullShare ((dat3 V c).after 1 t) from by
    unfold Dat.leavesExact; rw [liveAt3_1 t], after3_1]
theorem leaves3_2 (c : Dev nD) (t : Fin cfg3.N) :
    (dat3 V c).leavesExact 2 t = owns (c : Thread nD τ) (st3_2 t) fullShare (iblk3 V c 2 t) := by
  rw [show (dat3 V c).leavesExact 2 t = owns (c : Thread nD τ) (st3_2 t) fullShare ((dat3 V c).after 2 t) from by
    unfold Dat.leavesExact; rw [liveAt3_2 t], after3_2]
theorem leaves3_3 (c : Dev nD) (t : Fin cfg3.N) :
    (dat3 V c).leavesExact 3 t = owns (c : Thread nD τ) (st3_3 t) fullShare (iblk3 V c 3 t) := by
  rw [show (dat3 V c).leavesExact 3 t = owns (c : Thread nD τ) (st3_3 t) fullShare ((dat3 V c).after 3 t) from by
    unfold Dat.leavesExact; rw [liveAt3_3 t], after3_3]
theorem leaves3_4 (c : Dev nD) (t : Fin cfg3.N) :
    (dat3 V c).leavesExact 4 t = owns (c : Thread nD τ) (st3_4 t) fullShare (iblk3 V c 4 t) := by
  rw [show (dat3 V c).leavesExact 4 t = owns (c : Thread nD τ) (st3_4 t) fullShare ((dat3 V c).after 4 t) from by
    unfold Dat.leavesExact; rw [liveAt3_4 t], after3_4]
theorem leaves3_5 (c : Dev nD) (t : Fin cfg3.N) :
    (dat3 V c).leavesExact 5 t = owns (c : Thread nD τ) (st3_5 t) fullShare (iblk3 V c 5 t) := by
  rw [show (dat3 V c).leavesExact 5 t = owns (c : Thread nD τ) (st3_5 t) fullShare ((dat3 V c).after 5 t) from by
    unfold Dat.leavesExact; rw [liveAt3_5 t], after3_5]
theorem leaves3_6 (c : Dev nD) (t : Fin cfg3.N) :
    (dat3 V c).leavesExact 6 t = owns (c : Thread nD τ) (st3_6 t) fullShare (iblk3 V c 6 t) := by
  rw [show (dat3 V c).leavesExact 6 t = owns (c : Thread nD τ) (st3_6 t) fullShare ((dat3 V c).after 6 t) from by
    unfold Dat.leavesExact; rw [liveAt3_6 t], after3_6]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point: the inputs' memrefs hold their blocks; the closed forms say which case the point is in; the
    invariant hands the body the scratch at what the point before left (at anything at the first point) and takes it back
    at this point's accumulator; the result window is handed back untouched where it is idle and at the finishing payload
    at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6]
  have hN : t.val < 20 := lt_of_lt_of_eq t.isLt (show cfg3.N = 20 from N_3)
  by_cases h1 : t.val % 20 = 19
  · have h0 : ¬t.val % 20 = 0 := by omega
    have hz : t.val ≠ 0 := by omega
    rw [show (dat3 V c).leavesExact 7 t = owns (c : Thread nD τ) (st3_7 t) fullShare ((dat3 V c).after 7 t) from by
      unfold Dat.leavesExact; rw [liveAt3_7 t ((hcond3_1 t).mpr h1)], after3_7]
    unfold out3
    rw [acc3_pos V c t hz, PhiS3_castSucc V c t, PhiS3_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hi := idleAt3_7 t (fun h => h1 ((hcond3_1 t).mp h))
    have hf := noFlush3_7 t (fun h => h1 ((hcond3_1 t).mp h))
    rw [Dat.leavesExact_idle (dat3 V c) 7 t hi hf]
    by_cases h0 : t.val % 20 = 0
    · have hz : t.val = 0 := by omega
      rw [acc3_first V c t hz, PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz : t.val ≠ 0 := by omega
      rw [acc3_pos V c t hz, PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the launch handed over: the accumulator's named contents
    are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Cert.KernelIdeal.Hand

end
-- ==== Proof.Run.lean ====
/-
  The kernel program's run, launch by launch: what every unscoped buffer of a TensorCore holds at each boundary between
  a stretch of array operations and a launch (a fold from the launch memory: a stretch applies its operations, a launch
  leaves its input arrays as entered and its output array at what its write-backs fold to), the four launches as
  segments between those boundaries, and THE RUN: every weakly fair execution of the program terminates without a
  fault, and at the end every unscoped buffer holds the last boundary's contents — from which the frame (the argument
  arrays end as launched) and the result array's value are both read.
-/
import proofs.«421659_j20615843021630_2_alg».proof.Proof.Gen.KernelIdeal.Regions
import proofs.«421659_j20615843021630_2_alg».proof.Proof.Region0
import proofs.«421659_j20615843021630_2_alg».proof.Proof.Region1
import proofs.«421659_j20615843021630_2_alg».proof.Proof.Region2
import proofs.«421659_j20615843021630_2_alg».proof.Proof.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => m (c, b)

/-- After the stretch `hostOps0` (launch 0's entry). -/
abbrev W1 : Dev nD → Valuation τ sig (Elt F) := fun c => StableHlo.after hostOps0 (W0 m c)
/-- The same read at the TensorCore's references (what launch 0's proof data take). -/
abbrev V1 : (c : Dev nD) → (b : Ref sig .tc) → Buf (Elt F) ((c : Thread nD τ).loc b) := fun c b => W1 m c b
/-- At launch 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (launch 0's exit contents). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the stretch `hostOps1` (launch 1's entry). -/
abbrev W3 : Dev nD → Valuation τ sig (Elt F) := fun c => StableHlo.after hostOps1 (W2 m c)
/-- The same read at the TensorCore's references (what launch 1's proof data take). -/
abbrev V3 : (c : Dev nD) → (b : Ref sig .tc) → Buf (Elt F) ((c : Thread nD τ).loc b) := fun c b => W3 m c b
/-- At launch 1's exit: its arrays at what the pipeline leaves (the inputs as entered, the output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (launch 1's exit contents). -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the stretch `hostOps2` (launch 2's entry). -/
abbrev W5 : Dev nD → Valuation τ sig (Elt F) := fun c => StableHlo.after hostOps2 (W4 m c)
/-- The same read at the TensorCore's references (what launch 2's proof data take). -/
abbrev V5 : (c : Dev nD) → (b : Ref sig .tc) → Buf (Elt F) ((c : Thread nD τ).loc b) := fun c b => W5 m c b
/-- At launch 2's exit: its arrays at what the pipeline leaves (the inputs as entered, the output's write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (launch 2's exit contents). -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the stretch `hostOps3` (launch 3's entry). -/
abbrev W7 : Dev nD → Valuation τ sig (Elt F) := fun c => StableHlo.after hostOps3 (W6 m c)
/-- The same read at the TensorCore's references (what launch 3's proof data take). -/
abbrev V7 : (c : Dev nD) → (b : Ref sig .tc) → Buf (Elt F) ((c : Thread nD τ).loc b) := fun c b => W7 m c b
/-- At launch 3's exit: its arrays at what the pipeline leaves (the inputs as entered, the output's write-backs folded),
    every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (launch 3's exit contents). -/
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The proof data family and the thread state -/

/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A stretch of array operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- Launch 0 over the thread state: entered from every unscoped buffer at `W1`, left at `W2`. Its arrays are
    split out of the unscoped buffers and put back at the exit contents; the generator register goes into the region
    invariant and comes out again; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are
    split out of the unscoped buffers and put back at the exit contents; the generator register goes into the region
    invariant and comes out again; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`. Its arrays are
    split out of the unscoped buffers and put back at the exit contents; the generator register goes into the region
    invariant and comes out again; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at `W7`, left at `W8`. Its arrays are
    split out of the unscoped buffers and put back at the exit contents; the generator register goes into the region
    invariant and comes out again; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (V7 m) c)
    unfold Pipeline.ΦA
    iintro ⟨Hp, -, Hr⟩
    isplitl [Hr]; · iexact Hr
    iexact Hp
  hout c := by
    rw [Pipeline.ownSems0_none]
    refine (hout3 (V7 m) c).trans (show Pipeline.ΦA spec3 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's 8 segments in order: a segment per stretch of array operations from its boundary's contents, a region per launch. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- The program IS the run of the segments. -/
theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and every final state holds, in every unscoped buffer of every core, the last
    boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## What each boundary keeps -/

/-- A stretch of array operations changes only the buffers its operations write. -/
theorem W1_step (c : Dev nD) (r : Ref sig .tc) (h : r ∉ hostOps0_W) : W1 m c (Proc.devRef .tc r) = W0 m c (Proc.devRef .tc r) :=
  StableHlo.after_of_writes_sub hostOps0 _ hostOps0_writes h
theorem W3_step (c : Dev nD) (r : Ref sig .tc) (h : r ∉ hostOps1_W) : W3 m c (Proc.devRef .tc r) = W2 m c (Proc.devRef .tc r) :=
  StableHlo.after_of_writes_sub hostOps1 _ hostOps1_writes h
theorem W5_step (c : Dev nD) (r : Ref sig .tc) (h : r ∉ hostOps2_W) : W5 m c (Proc.devRef .tc r) = W4 m c (Proc.devRef .tc r) :=
  StableHlo.after_of_writes_sub hostOps2 _ hostOps2_writes h
theorem W7_step (c : Dev nD) (r : Ref sig .tc) (h : r ∉ hostOps3_W) : W7 m c (Proc.devRef .tc r) = W6 m c (Proc.devRef .tc r) :=
  StableHlo.after_of_writes_sub hostOps3 _ hostOps3_writes h

/-- Launch 0 changes no buffer but its output array: an input array is written back as entered, and no other buffer is
    an array of the launch. -/
theorem W2_step (c : Dev nD) (r : Ref sig .tc) (h : r ≠ main_v14) : W2 m c (Proc.devRef .tc r) = W1 m c (Proc.devRef .tc r) := by
  by_cases hw : ∃ w, Pipeline.arrRef spec0 w = r
  · obtain ⟨w, rfl⟩ := hw
    match w with
    | ⟨0, _⟩ => exact (W2_arr m c 0).trans (((dat0 (V1 m) c).arrAt_in 0 rfl _).trans (A_eq0 (V1 m) c 0))
    | ⟨1, _⟩ => exact (W2_arr m c 1).trans (((dat0 (V1 m) c).arrAt_in 1 rfl _).trans (A_eq0 (V1 m) c 1))
    | ⟨2, _⟩ => exact (W2_arr m c 2).trans (((dat0 (V1 m) c).arrAt_in 2 rfl _).trans (A_eq0 (V1 m) c 2))
    | ⟨3, _⟩ => exact absurd rfl h
    | ⟨_ + 4, hlt⟩ => exact absurd hlt (Nat.not_lt.2 (Nat.le_add_left _ _))
  · exact W2_of_ne m c r fun w e => hw ⟨w, e⟩

/-- Launch 1 changes no buffer but its output array: an input array is written back as entered, and no other buffer is
    an array of the launch. -/
theorem W4_step (c : Dev nD) (r : Ref sig .tc) (h : r ≠ main_v28) : W4 m c (Proc.devRef .tc r) = W3 m c (Proc.devRef .tc r) := by
  by_cases hw : ∃ w, Pipeline.arrRef spec1 w = r
  · obtain ⟨w, rfl⟩ := hw
    match w with
    | ⟨0, _⟩ => exact (W4_arr m c 0).trans (((dat1 (V3 m) c).arrAt_in 0 rfl _).trans (A_eq1 (V3 m) c 0))
    | ⟨1, _⟩ => exact (W4_arr m c 1).trans (((dat1 (V3 m) c).arrAt_in 1 rfl _).trans (A_eq1 (V3 m) c 1))
    | ⟨2, _⟩ => exact (W4_arr m c 2).trans (((dat1 (V3 m) c).arrAt_in 2 rfl _).trans (A_eq1 (V3 m) c 2))
    | ⟨3, _⟩ => exact (W4_arr m c 3).trans (((dat1 (V3 m) c).arrAt_in 3 rfl _).trans (A_eq1 (V3 m) c 3))
    | ⟨4, _⟩ => exact (W4_arr m c 4).trans (((dat1 (V3 m) c).arrAt_in 4 rfl _).trans (A_eq1 (V3 m) c 4))
    | ⟨5, _⟩ => exact absurd rfl h
    | ⟨_ + 6, hlt⟩ => exact absurd hlt (Nat.not_lt.2 (Nat.le_add_left _ _))
  · exact W4_of_ne m c r fun w e => hw ⟨w, e⟩

/-- Launch 2 changes no buffer but its output array: an input array is written back as entered, and no other buffer is
    an array of the launch. -/
theorem W6_step (c : Dev nD) (r : Ref sig .tc) (h : r ≠ main_v42) : W6 m c (Proc.devRef .tc r) = W5 m c (Proc.devRef .tc r) := by
  by_cases hw : ∃ w, Pipeline.arrRef spec2 w = r
  · obtain ⟨w, rfl⟩ := hw
    match w with
    | ⟨0, _⟩ => exact (W6_arr m c 0).trans (((dat2 (V5 m) c).arrAt_in 0 rfl _).trans (A_eq2 (V5 m) c 0))
    | ⟨1, _⟩ => exact (W6_arr m c 1).trans (((dat2 (V5 m) c).arrAt_in 1 rfl _).trans (A_eq2 (V5 m) c 1))
    | ⟨2, _⟩ => exact (W6_arr m c 2).trans (((dat2 (V5 m) c).arrAt_in 2 rfl _).trans (A_eq2 (V5 m) c 2))
    | ⟨3, _⟩ => exact (W6_arr m c 3).trans (((dat2 (V5 m) c).arrAt_in 3 rfl _).trans (A_eq2 (V5 m) c 3))
    | ⟨4, _⟩ => exact (W6_arr m c 4).trans (((dat2 (V5 m) c).arrAt_in 4 rfl _).trans (A_eq2 (V5 m) c 4))
    | ⟨5, _⟩ => exact absurd rfl h
    | ⟨_ + 6, hlt⟩ => exact absurd hlt (Nat.not_lt.2 (Nat.le_add_left _ _))
  · exact W6_of_ne m c r fun w e => hw ⟨w, e⟩

/-- Launch 3 changes no buffer but its output array: an input array is written back as entered, and no other buffer is
    an array of the launch. -/
theorem W8_step (c : Dev nD) (r : Ref sig .tc) (h : r ≠ main_v67) : W8 m c (Proc.devRef .tc r) = W7 m c (Proc.devRef .tc r) := by
  by_cases hw : ∃ w, Pipeline.arrRef spec3 w = r
  · obtain ⟨w, rfl⟩ := hw
    match w with
    | ⟨0, _⟩ => exact (W8_arr m c 0).trans (((dat3 (V7 m) c).arrAt_in 0 rfl _).trans (A_eq3 (V7 m) c 0))
    | ⟨1, _⟩ => exact (W8_arr m c 1).trans (((dat3 (V7 m) c).arrAt_in 1 rfl _).trans (A_eq3 (V7 m) c 1))
    | ⟨2, _⟩ => exact (W8_arr m c 2).trans (((dat3 (V7 m) c).arrAt_in 2 rfl _).trans (A_eq3 (V7 m) c 2))
    | ⟨3, _⟩ => exact (W8_arr m c 3).trans (((dat3 (V7 m) c).arrAt_in 3 rfl _).trans (A_eq3 (V7 m) c 3))
    | ⟨4, _⟩ => exact (W8_arr m c 4).trans (((dat3 (V7 m) c).arrAt_in 4 rfl _).trans (A_eq3 (V7 m) c 4))
    | ⟨5, _⟩ => exact (W8_arr m c 5).trans (((dat3 (V7 m) c).arrAt_in 5 rfl _).trans (A_eq3 (V7 m) c 5))
    | ⟨6, _⟩ => exact (W8_arr m c 6).trans (((dat3 (V7 m) c).arrAt_in 6 rfl _).trans (A_eq3 (V7 m) c 6))
    | ⟨7, _⟩ => exact absurd rfl h
    | ⟨_ + 8, hlt⟩ => exact absurd hlt (Nat.not_lt.2 (Nat.le_add_left _ _))
  · exact W8_of_ne m c r fun w e => hw ⟨w, e⟩

/-- A buffer no stretch writes and no launch has for its output reaches the end as launched. -/
theorem W8_kept (c : Dev nD) (r : Ref sig .tc) (h0 : r ∉ hostOps0_W) (h1 : r ∉ hostOps1_W) (h2 : r ∉ hostOps2_W) (h3 : r ∉ hostOps3_W)
    (o0 : r ≠ main_v14) (o1 : r ≠ main_v28) (o2 : r ≠ main_v42) (o3 : r ≠ main_v67) :
    W8 m c (Proc.devRef .tc r) = m ((c : Thread nD τ).loc r) :=
  (W8_step m c r o3).trans <| (W7_step m c r h3).trans <| (W6_step m c r o2).trans <| (W5_step m c r h2).trans <|
    (W4_step m c r o1).trans <| (W3_step m c r h1).trans <| (W2_step m c r o0).trans <| (W1_step m c r h0).trans rfl

/-! ## The frame -/

/-- THE FRAME: every weakly fair execution terminates, nothing faulting, and every argument array ends as launched
    (no stretch writes an argument and no launch has one for its output). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W8_kept m c main_arg0 (by decide) (by decide) (by decide) (by decide) (by decide) (by decide) (by decide) (by decide)),
     (h c _ (mem_uc main_arg1 (by decide))).trans (W8_kept m c main_arg1 (by decide) (by decide) (by decide) (by decide) (by decide) (by decide) (by decide) (by decide)),
     (h c _ (mem_uc main_arg2 (by decide))).trans (W8_kept m c main_arg2 (by decide) (by decide) (by decide) (by decide) (by decide) (by decide) (by decide) (by decide)),
     (h c _ (mem_uc main_arg3 (by decide))).trans (W8_kept m c main_arg3 (by decide) (by decide) (by decide) (by decide) (by decide) (by decide) (by decide) (by decide)),
     (h c _ (mem_uc main_arg4 (by decide))).trans (W8_kept m c main_arg4 (by decide) (by decide) (by decide) (by decide) (by decide) (by decide) (by decide) (by decide)),
     (h c _ (mem_uc main_arg5 (by decide))).trans (W8_kept m c main_arg5 (by decide) (by decide) (by decide) (by decide) (by decide) (by decide) (by decide) (by decide)),
     (h c _ (mem_uc main_arg6 (by decide))).trans (W8_kept m c main_arg6 (by decide) (by decide) (by decide) (by decide) (by decide) (by decide) (by decide) (by decide)),
     (h c _ (mem_uc main_arg7 (by decide))).trans (W8_kept m c main_arg7 (by decide) (by decide) (by decide) (by decide) (by decide) (by decide) (by decide) (by decide)),
     (h c _ (mem_uc main_arg8 (by decide))).trans (W8_kept m c main_arg8 (by decide) (by decide) (by decide) (by decide) (by decide) (by decide) (by decide) (by decide)),
     (h c _ (mem_uc main_arg9 (by decide))).trans (W8_kept m c main_arg9 (by decide) (by decide) (by decide) (by decide) (by decide) (by decide) (by decide) (by decide)),
     (h c _ (mem_uc main_arg10 (by decide))).trans (W8_kept m c main_arg10 (by decide) (by decide) (by decide) (by decide) (by decide) (by decide) (by decide) (by decide)),
     (h c _ (mem_uc main_arg11 (by decide))).trans (W8_kept m c main_arg11 (by decide) (by decide) (by decide) (by decide) (by decide) (by decide) (by decide) (by decide)),
     (h c _ (mem_uc main_arg12 (by decide))).trans (W8_kept m c main_arg12 (by decide) (by decide) (by decide) (by decide) (by decide) (by decide) (by decide) (by decide))⟩)
    (run_all m ρ)

end Cert.KernelIdeal.Hand

end
-- ==== Proof.Bits.Region0.lean ====
/-
  Launch 0 (the scaled matrix product), the frame of its twenty grid points, generic in the float instance and stated at
  the buffer contents `V` the launch is entered from.

  Point `t` reads rows `[5000 t, 5000 (t + 1))` of the feature array and of the node-weight column, and the whole
  `[128, 128]` matrix (fetched once, at the first point; an unfetched window's buffer still holds its block, its block
  index not having moved). The body loads the three blocks, and stores ONE whole-buffer payload into the output window:
  the weight column broadcast along the rows, times the block's product with the matrix. So after the body the output
  buffer holds that payload of the three input blocks (`out0_3`), the inputs' buffers hold their blocks, and the body
  obligation at every point is the body's triple on whole staging memrefs.
-/
import proofs.«421659_j20615843021630_2_alg».proof.Proof.Gen.Kernel.Launch
import proofs.«421659_j20615843021630_2_alg».proof.Proof.Gen.Kernel.Skeleton
import proofs.«421659_j20615843021630_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Launch 0: the scaled matrix product `cc0__matmul_scaled_kernel` (pipeline 0), at the entry contents `V`

The grid has 20 points. Windows 0 (the rows of `x`) and 2 (the column of row weights) move one block of 5000
rows per point; window 1 (the 128 × 128 matrix) is whole and fetched once; window 3 is the output, one block of
5000 rows per point, written back at every point. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved, so the block of the point before is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved, so the block of the point before is this point's; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block
    index has not moved, so the block of the point before is this point's; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the three inputs is loaded whole, the output stored whole -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

/-! ## What the body leaves in the output window's buffer -/

/-- Window 3's staging buffer after the body, from the input windows' blocks: its one store as a piece, the
    payload the weighted product of the three loaded inputs. -/
def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

/-- The one store is of the whole buffer, so it covers it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs
    to the continuation holding the inputs' as they were and the output's at `out0_3` of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_scaled_kernel i arg1 harg1 arg2 harg2 arg3 harg3 arg4 harg4) K := by
  simp only [cc0__matmul_scaled_kernel_eq_skeleton]; unfold cc0__matmul_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1.lean ====
/-
  Launch 1 (finish a graph convolution, rectify, multiply by the next matrix, scale by the node weights), the frame of
  its twenty grid points, generic in the float instance and stated at the buffer contents `V` the launch is entered from.

  Point `t` reads rows `[5000 t, 5000 (t + 1))` of the aggregated array and of the node-weight column, and — fetched
  once, at the first point — the bias row, the slope and the `[128, 128]` matrix (an unfetched window's buffer still
  holds its block, its block index not having moved). The body loads the five blocks and stores ONE whole-buffer
  payload into the output window: weight · ( rectify (weight · aggregated + bias) · matrix ). So after the body the output
  buffer holds that payload of the five input blocks (`out1_5`), the inputs' buffers hold their blocks, and the body
  obligation at every point is the body's triple on whole staging memrefs.
-/
import proofs.«421659_j20615843021630_2_alg».proof.Proof.Gen.Kernel.Launch
import proofs.«421659_j20615843021630_2_alg».proof.Proof.Gen.Kernel.Skeleton
import proofs.«421659_j20615843021630_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The fused layer's first launch: the class-A half of the region, at the entry contents `V`

Five input windows (0 the aggregated rows, 1 the bias row, 2 the slope, 3 the weights column, 4 the dense matrix) and
one output window (5). The body reads every input block whole and overwrites the output block whole. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the block of the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the block of the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, so the block of the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, so the block of the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, so the block of the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every staging buffer whole -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S1x1 := Rect.unit (s := S1x1) ![0, 0] S1x1.size inb_S1x1_S1x1_0_0
abbrev r1_3 : Rect S5000x1 := Rect.unit (s := S5000x1) ![0, 0] S5000x1.size inb_S5000x1_S5000x1_0_0
abbrev r1_4 : Rect S128x128 := Rect.unit (s := S128x128) ![0, 0] S128x128.size inb_S128x128_S128x128_0_0
abbrev r1_5 : Rect S5000x128 := Rect.unit (s := S5000x128) ![0, 0] S5000x128.size inb_S5000x128_S5000x128_0_0

/-! ## What the body leaves in the output window's buffer -/

/-- Window 5's staging buffer after the body, from the input windows' blocks: its one store as a piece, the payload
    the skeleton's (the weights column, the aggregated rows, the bias row, the slope, the dense matrix, in that order). -/
def out1_5 (x0 : Vec F S5000x128 .f32) (x1 : Vec F S1x128 .f32) (x2 : Vec F S1x1 .f32) (x3 : Vec F S5000x1 .f32) (x4 : Vec F S128x128 .f32) : Vec F S5000x128 .f32 :=
  View.canon [⟨r1_5, k1_pay1 (View.ld x3 r1_3) (View.ld x0 r1_0) (View.ld x1 r1_1) (View.ld x2 r1_2) (View.ld x4 r1_4)⟩]

/-- The one store is the whole buffer, so it covers it. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S1x128 .f32) (x2 : Vec F S1x1 .f32) (x3 : Vec F S5000x1 .f32) (x4 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__fused_kernel i arg0 harg0 arg1 harg1 arg2 harg2 arg3 harg3 arg4 harg4 arg5 harg5) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them (`V`); after the body at
    point `t` each input's buffer at its block and the output's at `out1_5` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Region2.lean ====
/-
  Launch 2 (finish a graph convolution, rectify, multiply by the next matrix, scale by the node weights), the frame of
  its twenty grid points, generic in the float instance and stated at the buffer contents `V` the launch is entered from.

  Point `t` reads rows `[5000 t, 5000 (t + 1))` of the aggregated array and of the node-weight column, and — fetched
  once, at the first point — the bias row, the slope and the `[128, 128]` matrix (an unfetched window's buffer still
  holds its block, its block index not having moved). The body loads the five blocks and stores ONE whole-buffer
  payload into the output window: weight · ( rectify (weight · aggregated + bias) · matrix ). So after the body the output
  buffer holds that payload of the five input blocks (`out2_5`), the inputs' buffers hold their blocks, and the body
  obligation at every point is the body's triple on whole staging memrefs.
-/
import proofs.«421659_j20615843021630_2_alg».proof.Proof.Gen.Kernel.Launch
import proofs.«421659_j20615843021630_2_alg».proof.Proof.Gen.Kernel.Skeleton
import proofs.«421659_j20615843021630_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The fused layer's first launch: the class-A half of the region, at the entry contents `V`

Five input windows (0 the aggregated rows, 1 the bias row, 2 the slope, 3 the weights column, 4 the dense matrix) and
one output window (5). The body reads every input block whole and overwrites the output block whole. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the block of the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the block of the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved, so the block of the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved, so the block of the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every staging buffer whole -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S1x1 := Rect.unit (s := S1x1) ![0, 0] S1x1.size inb_S1x1_S1x1_0_0
abbrev r2_3 : Rect S5000x1 := Rect.unit (s := S5000x1) ![0, 0] S5000x1.size inb_S5000x1_S5000x1_0_0
abbrev r2_4 : Rect S128x128 := Rect.unit (s := S128x128) ![0, 0] S128x128.size inb_S128x128_S128x128_0_0
abbrev r2_5 : Rect S5000x128 := Rect.unit (s := S5000x128) ![0, 0] S5000x128.size inb_S5000x128_S5000x128_0_0

/-! ## What the body leaves in the output window's buffer -/

/-- Window 5's staging buffer after the body, from the input windows' blocks: its one store as a piece, the payload
    the skeleton's (the weights column, the aggregated rows, the bias row, the slope, the dense matrix, in that order). -/
def out2_5 (x0 : Vec F S5000x128 .f32) (x1 : Vec F S1x128 .f32) (x2 : Vec F S1x1 .f32) (x3 : Vec F S5000x1 .f32) (x4 : Vec F S128x128 .f32) : Vec F S5000x128 .f32 :=
  View.canon [⟨r2_5, k2_pay1 (View.ld x3 r2_3) (View.ld x0 r2_0) (View.ld x1 r2_1) (View.ld x2 r2_2) (View.ld x4 r2_4)⟩]

/-- The one store is the whole buffer, so it covers it. -/
theorem cover2_5 (p0 : Vec F S5000x128 .f32) (y : S5000x128.Idx) :
    ∃ pc ∈ ([⟨r2_5, p0⟩] : List (View.Piece (Elt F) S5000x128 .f32)), y ∈ pc.1.set :=
  View.cover_of_tiled [⟨r2_5, p0⟩] S5000x128.size (by rfl) y

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg0 : Memref sig .tc .vmem S5000x128 .f32) (harg0 : arg0.IsWhole) (arg1 : Memref sig .tc .vmem S1x128 .f32) (harg1 : arg1.IsWhole) (arg2 : Memref sig .tc .vmem S1x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S1x128 .f32) (x2 : Vec F S1x1 .f32) (x3 : Vec F S5000x1 .f32) (x4 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__fused_kernel i arg0 harg0 arg1 harg1 arg2 harg2 arg3 harg3 arg4 harg4 arg5 harg5) K := by
  simp only [cc2__fused_kernel_eq_skeleton]; unfold cc2__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core `c`: the arrays as the region finds them (`V`); after the body at
    point `t` each input's buffer at its block and the output's at `out2_5` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Region3Defs.lean ====
/-
  The last launch (the pooling kernel) point by point: which block of each array a grid point reads, what the
  accumulator scratch holds after each point, and what the result window's buffer holds after a point.

  The grid has 20 points; point `t` reads rows `[5000 t, 5000 (t + 1))` of the node arrays. The scratch accumulator is
  zeroed at point 0 and then, at every point, has that point's partial products added to it: after point `n` it holds
  the body's accumulation payload of point `n`'s blocks over what point `n − 1` left (over zeros at `n = 0`). The result
  window is stored only at the last point, from the accumulator as that point leaves it; at the other points nothing
  reads or writes back its buffer, and `out3` there is a value nobody consults.
-/
import proofs.«421659_j20615843021630_2_alg».proof.Proof.Gen.Kernel.Launch
import proofs.«421659_j20615843021630_2_alg».proof.Proof.Gen.Kernel.Skeleton
import proofs.«421659_j20615843021630_2_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem

variable {F : FTy → Type} [FloatOps F]
-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator scratch after point `n`: the accumulation payload of point `n`'s blocks (weights, aggregated rows,
    bias, membership) over zeros at the first point, over what the point before left afterwards. -/
def acc3 (c : Dev nD) : (n : ℕ) → n < cfg3.N → Vec F S64x128 .f32
  | 0, h => k3_pay2 (iblk3 V c 2 ⟨0, h⟩) (iblk3 V c 0 ⟨0, h⟩) (iblk3 V c 1 ⟨0, h⟩) (iblk3 V c 3 ⟨0, h⟩) (k3_pay1 (F := F))
  | n + 1, h => k3_pay2 (iblk3 V c 2 ⟨n + 1, h⟩) (iblk3 V c 0 ⟨n + 1, h⟩) (iblk3 V c 1 ⟨n + 1, h⟩) (iblk3 V c 3 ⟨n + 1, h⟩)
      (acc3 c n (Nat.lt_of_succ_lt h))

/-- What the result window's buffer holds after point `t` when the point stores it (the last point does): the
    finishing payload of the accumulator as the point leaves it, the graph sizes, the last weights and bias. -/
def out3 (c : Dev nD) (t : Fin cfg3.N) : Vec F S64x10 .f32 :=
  k3_pay3 (acc3 V c t.val t.isLt) (iblk3 V c 4 t) (iblk3 V c 5 t) (iblk3 V c 6 t)

end Cert.Kernel.Hand

end
-- ==== Proof.Bits.Region3Run.lean ====
/-
  The last launch (the pooling kernel), the body at one grid point, in each of its three control cases.

  The body zeroes the accumulator scratch where the grid coordinate is 0, then at every point adds that point's partial
  products into it (one whole-buffer store of the accumulation payload over the scratch as loaded), and where the
  coordinate is 19 stores the finishing payload of the accumulator into the result buffer. So three cases: the first
  point (zeroing taken, finishing not), a middle point (neither), the last point (finishing taken, zeroing not). Each
  case's triple is stated over whole staging memrefs owned at named contents: the inputs come back as they were, the
  scratch comes back at the accumulation payload of the inputs over zeros (first point) or over what it held, and the
  result buffer comes back untouched (first and middle points) or at the finishing payload (last point). Every store is
  through the whole-buffer rectangle, so what a buffer reads afterwards is the last payload stored, and a load of the
  scratch after a store reads that store's payload.
-/
import proofs.«421659_j20615843021630_2_alg».proof.Proof.Gen.Kernel.Launch
import proofs.«421659_j20615843021630_2_alg».proof.Proof.Gen.Kernel.Skeleton
import proofs.«421659_j20615843021630_2_alg».proof.Proof.Gen.Kernel.Points
import proofs.«421659_j20615843021630_2_alg».proof.Proof.Bits.Region3Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The first branch of the body is taken exactly where the grid coordinate is 0: the condition as the body computes it. -/
abbrev cond3_0 (i : grid3.Coords) : Prop := (Scalar.cmpi .ne (Scalar.extui (Scalar.cmpi .eq (BitVec.ofNat 32 (i 0).val) 0#32)) 0#32) = 1#1
/-- The second branch is taken exactly where the grid coordinate is 19. -/
abbrev cond3_1 (i : grid3.Coords) : Prop := k3_cond2 i = 1#1

/-- Every access of the body is through the whole-buffer rectangle, whose offsets are all zero. -/
theorem hz2 : (![0, 0] : Fin 2 → ℕ) = fun _ => 0 := by funext a; fin_cases a <;> rfl

/-- Stores into the accumulator whose last is through the whole-buffer rectangle cover it. -/
theorem cover_acc (w : Vec F S64x128 .f32) (L : List (View.Piece (Elt F) S64x128 .f32)) (y : S64x128.Idx) :
    ∃ pc ∈ ((⟨Rect.unit ![0, 0] S64x128.size inb_S64x128_S64x128_0_0, w⟩ : View.Piece (Elt F) S64x128 .f32) :: L), y ∈ pc.1.set :=
  ⟨_, List.Mem.head _, View.mem_set_unit_zero hz2 inb_S64x128_S64x128_0_0 y⟩

/-- The one store into the result buffer, through the whole-buffer rectangle, covers it. -/
theorem cover_out (w : Vec F S64x10 .f32) (L : List (View.Piece (Elt F) S64x10 .f32)) (y : S64x10.Idx) :
    ∃ pc ∈ ((⟨Rect.unit ![0, 0] S64x10.size inb_S64x10_S64x10_0_0, w⟩ : View.Piece (Elt F) S64x10 .f32) :: L), y ∈ pc.1.set :=
  ⟨_, List.Mem.head _, View.mem_set_unit_zero hz2 inb_S64x10_S64x10_0_0 y⟩

/-! ## The body's triple, case by case

The staging memrefs are whole buffers; the inputs are owned at their read contents, and handed back as they were. -/

set_option maxHeartbeats 1000000 in
/-- FIRST POINT (first branch taken, second not): the scratch, found at anything, is zeroed and then receives the
    accumulation payload of this point's blocks over the zeros; the result buffer is not touched. -/
theorem run3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S5000x64 .f32) (harg4 : arg4.IsWhole) (arg5 : Memref sig .tc .vmem S64x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x128 .f32) (harg9 : arg9.IsWhole) (hc0 : cond3_0 i) (hc1 : ¬cond3_1 i)
    (x0 : Vec F S5000x128 .f32) (x1 : Vec F S1x128 .f32) (x2 : Vec F S5000x1 .f32) (x3 : Vec F S5000x64 .f32) (x4 : Vec F S64x1 .f32) (x5 : Vec F S128x10 .f32) (x6 : Vec F S1x10 .f32) (xi7 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare xi7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare xi7
        ∗ owns (c : Thread nD τ) arg9 fullShare (k3_pay2 x2 x0 x1 x3 (k3_pay1 (F := F)))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS
  ipureintro
  sl_unfold_run_names
  rw [View.read_writes_eq_canon _ _ _ (cover_acc _ _), View.canon_cons_unit_zero hz2]
  simp only [View.readAt_eq_ld, Memref.IsWhole.read_unread, View.ld_unit_zero (S := S5000x128) hz2, View.ld_unit_zero (S := S1x128) hz2, View.ld_unit_zero (S := S5000x1) hz2, View.ld_unit_zero (S := S5000x64) hz2, View.readCov_unit_zero (S := S64x128) _ hz2]

set_option maxHeartbeats 1000000 in
/-- A MIDDLE POINT (neither branch taken): the scratch, found at the point before's contents, receives the accumulation
    payload of this point's blocks over them; the result buffer is not touched. -/
theorem run3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S5000x64 .f32) (harg4 : arg4.IsWhole) (arg5 : Memref sig .tc .vmem S64x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x128 .f32) (harg9 : arg9.IsWhole) (hc0 : ¬cond3_0 i) (hc1 : ¬cond3_1 i)
    (x0 : Vec F S5000x128 .f32) (x1 : Vec F S1x128 .f32) (x2 : Vec F S5000x1 .f32) (x3 : Vec F S5000x64 .f32) (x4 : Vec F S64x1 .f32) (x5 : Vec F S128x10 .f32) (x6 : Vec F S1x10 .f32) (xi7 : Vec F S64x10 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare xi7
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare xi7
        ∗ owns (c : Thread nD τ) arg9 fullShare (k3_pay2 x2 x0 x1 x3 xs)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS
  ipureintro
  sl_unfold_run_names
  rw [View.read_writes_eq_canon _ _ _ (cover_acc _ _), View.canon_unit_zero hz2]
  simp only [View.readAt_eq_ld, Memref.IsWhole.read_unread, View.ld_unit_zero (S := S5000x128) hz2, View.ld_unit_zero (S := S1x128) hz2, View.ld_unit_zero (S := S5000x1) hz2, View.ld_unit_zero (S := S5000x64) hz2, View.ld_unit_zero (S := S64x128) hz2]

set_option maxHeartbeats 1000000 in
/-- THE LAST POINT (first branch not taken, second taken): the scratch receives the accumulation payload as at a middle
    point, and the result buffer, found at anything, the finishing payload of the scratch as just stored. -/
theorem run3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S5000x64 .f32) (harg4 : arg4.IsWhole) (arg5 : Memref sig .tc .vmem S64x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x128 .f32) (harg9 : arg9.IsWhole) (hc0 : ¬cond3_0 i) (hc1 : cond3_1 i)
    (x0 : Vec F S5000x128 .f32) (x1 : Vec F S1x128 .f32) (x2 : Vec F S5000x1 .f32) (x3 : Vec F S5000x64 .f32) (x4 : Vec F S64x1 .f32) (x5 : Vec F S128x10 .f32) (x6 : Vec F S1x10 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare (k3_pay3 (k3_pay2 x2 x0 x1 x3 xs) x4 x5 x6)
        ∗ owns (c : Thread nD τ) arg9 fullShare (k3_pay2 x2 x0 x1 x3 xs)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    rw [View.read_writes_eq_canon _ _ _ (cover_out _ _), View.canon_unit_zero hz2]
    simp only [View.readAt_eq_ld, Memref.IsWhole.read_unread, View.ld_unit_zero (S := S5000x128) hz2, View.ld_unit_zero (S := S1x128) hz2, View.ld_unit_zero (S := S5000x1) hz2, View.ld_unit_zero (S := S5000x64) hz2, View.ld_unit_zero (S := S64x128) hz2, View.ld_unit_zero (S := S64x1) hz2, View.ld_unit_zero (S := S128x10) hz2, View.ld_unit_zero (S := S1x10) hz2, View.readCov_unit_zero (S := S64x128) _ hz2]
  iexists _; isplitr
  swap; · iexact HS
  ipureintro
  sl_unfold_run_names
  rw [View.read_writes_eq_canon _ _ _ (cover_acc _ _), View.canon_unit_zero hz2]
  simp only [View.readAt_eq_ld, Memref.IsWhole.read_unread, View.ld_unit_zero (S := S5000x128) hz2, View.ld_unit_zero (S := S1x128) hz2, View.ld_unit_zero (S := S5000x1) hz2, View.ld_unit_zero (S := S5000x64) hz2, View.ld_unit_zero (S := S64x128) hz2]

end Cert.Kernel.Hand

end
-- ==== Proof.Bits.Region3.lean ====
/-
  The last launch (the pooling kernel): the frame of its twenty grid points.

  The kernel carries a scratch accumulator from point to point, so the region invariant names what the scratch holds:
  before the first point what the launch hands over (the scratch at anything), and before point `n + 1` the accumulator
  as point `n` left it — the accumulation payload of point `n`'s blocks over zeros at `n = 0`, over the accumulator of
  point `n − 1` afterwards. The inputs' staging buffers hold their blocks at every point (fetched there or not: an
  unfetched window's block index has not moved). The result window is stored only at the last point, from the
  accumulator as that point leaves it; at every other point it is idle and not written back, and its buffer is handed
  back as found. With the three per-case triples of the body this gives the body obligation at every point, by cases
  on the closed forms of the two branch conditions; the invariant is what the launch hands over at the start, and
  gives that back at the end by forgetting the accumulator's named contents.
-/
import proofs.«421659_j20615843021630_2_alg».proof.Proof.Gen.Kernel.Launch
import proofs.«421659_j20615843021630_2_alg».proof.Proof.Gen.Kernel.Skeleton
import proofs.«421659_j20615843021630_2_alg».proof.Proof.Gen.Kernel.Points
import proofs.«421659_j20615843021630_2_alg».proof.Proof.Bits.Region3Defs
import proofs.«421659_j20615843021630_2_alg».proof.Proof.Bits.Region3Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The conditions in closed form, and where the result window is idle -/

/-- The first branch is taken at point 0 only — decided over the grid. -/
theorem hcond3_0 : ∀ t : Fin cfg3.N, cond3_0 (grid3.coords t) ↔ t.val % 20 = 0 :=
  (by decide +kernel : ∀ t : Fin grid3.N, cond3_0 (grid3.coords t) ↔ t.val % 20 = 0)
/-- The second branch is taken at point 19 only — decided over the grid. -/
theorem hcond3_1 : ∀ t : Fin cfg3.N, cond3_1 (grid3.coords t) ↔ t.val % 20 = 19 :=
  (by decide +kernel : ∀ t : Fin grid3.N, cond3_1 (grid3.coords t) ↔ t.val % 20 = 19)

/-- Where the second branch is not taken the result window is idle, -/
theorem idleAt3_7 : ∀ t : Fin cfg3.N, ¬cond3_1 (grid3.coords t) → cfg3.idle 7 (grid3.coords t) = true := by decide +kernel
/-- and its block is not written back there; -/
theorem noFlush3_7 : ∀ t : Fin cfg3.N, ¬cond3_1 (grid3.coords t) → (cfg3.win 7).flush t = false := by decide +kernel
/-- where it is taken the window is live. -/
theorem liveAt3_7 : ∀ t : Fin cfg3.N, cond3_1 (grid3.coords t) → cfg3.idle 7 (grid3.coords t) = false := by decide +kernel
/-- Input window 0 is never idle. -/
theorem liveAt3_0 : ∀ t : Fin cfg3.N, cfg3.idle 0 (grid3.coords t) = false := fun _ => rfl
/-- Input window 1 is never idle. -/
theorem liveAt3_1 : ∀ t : Fin cfg3.N, cfg3.idle 1 (grid3.coords t) = false := fun _ => rfl
/-- Input window 2 is never idle. -/
theorem liveAt3_2 : ∀ t : Fin cfg3.N, cfg3.idle 2 (grid3.coords t) = false := fun _ => rfl
/-- Input window 3 is never idle. -/
theorem liveAt3_3 : ∀ t : Fin cfg3.N, cfg3.idle 3 (grid3.coords t) = false := fun _ => rfl
/-- Input window 4 is never idle. -/
theorem liveAt3_4 : ∀ t : Fin cfg3.N, cfg3.idle 4 (grid3.coords t) = false := fun _ => rfl
/-- Input window 5 is never idle. -/
theorem liveAt3_5 : ∀ t : Fin cfg3.N, cfg3.idle 5 (grid3.coords t) = false := fun _ => rfl
/-- Input window 6 is never idle. -/
theorem liveAt3_6 : ∀ t : Fin cfg3.N, cfg3.idle 6 (grid3.coords t) = false := fun _ => rfl

/-! ## The inputs' buffers hold their blocks -/

/-- Input window 0's current staging buffer holds its block at every point, fetched there or not (unfetched, the block
    index has not moved), for any proof data whose array is the region-entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the block
    index has not moved), for any proof data whose array is the region-entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the block
    index has not moved), for any proof data whose array is the region-entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the block
    index has not moved), for any proof data whose array is the region-entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (unfetched, the block
    index has not moved), for any proof data whose array is the region-entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (unfetched, the block
    index has not moved), for any proof data whose array is the region-entry contents and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not (unfetched, the block
    index has not moved), for any proof data whose array is the region-entry contents and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- At the first point the accumulator is that point's accumulation over zeros. -/
theorem acc3_first (c : Dev nD) (t : Fin cfg3.N) (hz : t.val = 0) :
    acc3 V c t.val t.isLt = k3_pay2 (iblk3 V c 2 t) (iblk3 V c 0 t) (iblk3 V c 1 t) (iblk3 V c 3 t) (k3_pay1 (F := F)) := by
  obtain ⟨n, hn⟩ := t
  cases n with
  | zero => rfl
  | succ n => exact absurd hz (Nat.succ_ne_zero n)

/-- At a later point it is that point's accumulation over what the point before left. -/
theorem acc3_pos (c : Dev nD) (t : Fin cfg3.N) (hz : t.val ≠ 0) :
    acc3 V c t.val t.isLt = k3_pay2 (iblk3 V c 2 t) (iblk3 V c 0 t) (iblk3 V c 1 t) (iblk3 V c 3 t)
      (acc3 V c (t.val - 1) (Nat.lt_of_le_of_lt (Nat.sub_le _ _) t.isLt)) := by
  obtain ⟨n, hn⟩ := t
  cases n with
  | zero => exact absurd rfl hz
  | succ n => rfl

/-! ## The invariant: the scratch carried between points -/

/-- The scratch accumulator as the body is handed it: the whole buffer. -/
abbrev scM3 : Memref sig .tc .vmem S64x128 .f32 := Memref.whole cc3_scratch0

/-- The core's scoped buffers that are neither a staging buffer of this launch nor its scratch: carried unopened. -/
abbrev rest3 (c : Dev nD) : sProp 𝕄 :=
  Pipeline.scopedRestBut (Ix := Unit) (Name := ℕ) (U := UR sig nD τ) (Lvl := ℕ) (Val := Elt F) spec3 c [cc3_scratch0]

/-- What the launch hands the region, with the scratch split out as a memref owned at some contents. -/
theorem PhiA3_eq (c : Dev nD) :
    (Pipeline.ΦA spec3 c : sProp 𝕄)
      = iprop(iprop((∃ d, owns (c : Thread nD τ) scM3 fullShare d) ∗ rest3 (F := F) c) ∗ (∃ r, prngReg c r)) := by
  unfold Pipeline.ΦA; rw [scopedRest3_split]; simp only [scM3, rest3, owns_whole]; try rfl

/-- The region invariant before position `n`: before the first point what the launch hands over (the scratch at
    anything); afterwards the scratch at the accumulator the point before left, the other scoped buffers unopened and
    the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n`: the scratch at that point's accumulator. -/
theorem PhiS3_succ (c : Dev nD) (n : ℕ) (hn : n < cfg3.N) :
    PhiS3 V c (n + 1) hn = iprop(iprop(owns (c : Thread nD τ) scM3 fullShare (acc3 V c n hn) ∗ rest3 (F := F) c) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(owns (c : Thread nD τ) scM3 fullShare (acc3 V c (n - 1) (by omega)) ∗ rest3 (F := F) c) ∗ (∃ r, prngReg c r)) := by
  cases n with
  | zero => exact absurd rfl hz
  | succ n => rfl

/-! ## The proof data -/

/-- The proof data of the launch on core `c`: the arrays as the region finds them; after the body at point `t` each
    input's buffer at its block and the result's at the finishing payload of that point's accumulator; the invariant
    the carried scratch's; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 V c t
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- An input's buffer is left at its block. -/
theorem leaves3_0 (c : Dev nD) (t : Fin cfg3.N) :
    (dat3 V c).leavesExact 0 t = owns (c : Thread nD τ) (st3_0 t) fullShare (iblk3 V c 0 t) := by
  rw [show (dat3 V c).leavesExact 0 t = owns (c : Thread nD τ) (st3_0 t) fullShare ((dat3 V c).after 0 t) from by
    unfold Dat.leavesExact; rw [liveAt3_0 t], after3_0]
theorem leaves3_1 (c : Dev nD) (t : Fin cfg3.N) :
    (dat3 V c).leavesExact 1 t = owns (c : Thread nD τ) (st3_1 t) fullShare (iblk3 V c 1 t) := by
  rw [show (dat3 V c).leavesExact 1 t = owns (c : Thread nD τ) (st3_1 t) fullShare ((dat3 V c).after 1 t) from by
    unfold Dat.leavesExact; rw [liveAt3_1 t], after3_1]
theorem leaves3_2 (c : Dev nD) (t : Fin cfg3.N) :
    (dat3 V c).leavesExact 2 t = owns (c : Thread nD τ) (st3_2 t) fullShare (iblk3 V c 2 t) := by
  rw [show (dat3 V c).leavesExact 2 t = owns (c : Thread nD τ) (st3_2 t) fullShare ((dat3 V c).after 2 t) from by
    unfold Dat.leavesExact; rw [liveAt3_2 t], after3_2]
theorem leaves3_3 (c : Dev nD) (t : Fin cfg3.N) :
    (dat3 V c).leavesExact 3 t = owns (c : Thread nD τ) (st3_3 t) fullShare (iblk3 V c 3 t) := by
  rw [show (dat3 V c).leavesExact 3 t = owns (c : Thread nD τ) (st3_3 t) fullShare ((dat3 V c).after 3 t) from by
    unfold Dat.leavesExact; rw [liveAt3_3 t], after3_3]
theorem leaves3_4 (c : Dev nD) (t : Fin cfg3.N) :
    (dat3 V c).leavesExact 4 t = owns (c : Thread nD τ) (st3_4 t) fullShare (iblk3 V c 4 t) := by
  rw [show (dat3 V c).leavesExact 4 t = owns (c : Thread nD τ) (st3_4 t) fullShare ((dat3 V c).after 4 t) from by
    unfold Dat.leavesExact; rw [liveAt3_4 t], after3_4]
theorem leaves3_5 (c : Dev nD) (t : Fin cfg3.N) :
    (dat3 V c).leavesExact 5 t = owns (c : Thread nD τ) (st3_5 t) fullShare (iblk3 V c 5 t) := by
  rw [show (dat3 V c).leavesExact 5 t = owns (c : Thread nD τ) (st3_5 t) fullShare ((dat3 V c).after 5 t) from by
    unfold Dat.leavesExact; rw [liveAt3_5 t], after3_5]
theorem leaves3_6 (c : Dev nD) (t : Fin cfg3.N) :
    (dat3 V c).leavesExact 6 t = owns (c : Thread nD τ) (st3_6 t) fullShare (iblk3 V c 6 t) := by
  rw [show (dat3 V c).leavesExact 6 t = owns (c : Thread nD τ) (st3_6 t) fullShare ((dat3 V c).after 6 t) from by
    unfold Dat.leavesExact; rw [liveAt3_6 t], after3_6]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point: the inputs' memrefs hold their blocks; the closed forms say which case the point is in; the
    invariant hands the body the scratch at what the point before left (at anything at the first point) and takes it back
    at this point's accumulator; the result window is handed back untouched where it is idle and at the finishing payload
    at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6]
  have hN : t.val < 20 := lt_of_lt_of_eq t.isLt (show cfg3.N = 20 from N_3)
  by_cases h1 : t.val % 20 = 19
  · have h0 : ¬t.val % 20 = 0 := by omega
    have hz : t.val ≠ 0 := by omega
    rw [show (dat3 V c).leavesExact 7 t = owns (c : Thread nD τ) (st3_7 t) fullShare ((dat3 V c).after 7 t) from by
      unfold Dat.leavesExact; rw [liveAt3_7 t ((hcond3_1 t).mpr h1)], after3_7]
    unfold out3
    rw [acc3_pos V c t hz, PhiS3_castSucc V c t, PhiS3_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hi := idleAt3_7 t (fun h => h1 ((hcond3_1 t).mp h))
    have hf := noFlush3_7 t (fun h => h1 ((hcond3_1 t).mp h))
    rw [Dat.leavesExact_idle (dat3 V c) 7 t hi hf]
    by_cases h0 : t.val % 20 = 0
    · have hz : t.val = 0 := by omega
      rw [acc3_first V c t hz, PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz : t.val ≠ 0 := by omega
      rw [acc3_pos V c t hz, PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the launch handed over: the accumulator's named contents
    are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Cert.Kernel.Hand

end
-- ==== Proof.Bits.Run.lean ====
/-
  The kernel program's run, launch by launch: what every unscoped buffer of a TensorCore holds at each boundary between
  a stretch of array operations and a launch (a fold from the launch memory: a stretch applies its operations, a launch
  leaves its input arrays as entered and its output array at what its write-backs fold to), the four launches as
  segments between those boundaries, and THE RUN: every weakly fair execution of the program terminates without a
  fault, and at the end every unscoped buffer holds the last boundary's contents — from which the frame (the argument
  arrays end as launched) and the result array's value are both read.
-/
import proofs.«421659_j20615843021630_2_alg».proof.Proof.Gen.Kernel.Regions
import proofs.«421659_j20615843021630_2_alg».proof.Proof.Bits.Region0
import proofs.«421659_j20615843021630_2_alg».proof.Proof.Bits.Region1
import proofs.«421659_j20615843021630_2_alg».proof.Proof.Bits.Region2
import proofs.«421659_j20615843021630_2_alg».proof.Proof.Bits.Region3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => m (c, b)

/-- After the stretch `hostOps0` (launch 0's entry). -/
abbrev W1 : Dev nD → Valuation τ sig (Elt F) := fun c => StableHlo.after hostOps0 (W0 m c)
/-- The same read at the TensorCore's references (what launch 0's proof data take). -/
abbrev V1 : (c : Dev nD) → (b : Ref sig .tc) → Buf (Elt F) ((c : Thread nD τ).loc b) := fun c b => W1 m c b
/-- At launch 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (launch 0's exit contents). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the stretch `hostOps1` (launch 1's entry). -/
abbrev W3 : Dev nD → Valuation τ sig (Elt F) := fun c => StableHlo.after hostOps1 (W2 m c)
/-- The same read at the TensorCore's references (what launch 1's proof data take). -/
abbrev V3 : (c : Dev nD) → (b : Ref sig .tc) → Buf (Elt F) ((c : Thread nD τ).loc b) := fun c b => W3 m c b
/-- At launch 1's exit: its arrays at what the pipeline leaves (the inputs as entered, the output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (launch 1's exit contents). -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the stretch `hostOps2` (launch 2's entry). -/
abbrev W5 : Dev nD → Valuation τ sig (Elt F) := fun c => StableHlo.after hostOps2 (W4 m c)
/-- The same read at the TensorCore's references (what launch 2's proof data take). -/
abbrev V5 : (c : Dev nD) → (b : Ref sig .tc) → Buf (Elt F) ((c : Thread nD τ).loc b) := fun c b => W5 m c b
/-- At launch 2's exit: its arrays at what the pipeline leaves (the inputs as entered, the output's write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (launch 2's exit contents). -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the stretch `hostOps3` (launch 3's entry). -/
abbrev W7 : Dev nD → Valuation τ sig (Elt F) := fun c => StableHlo.after hostOps3 (W6 m c)
/-- The same read at the TensorCore's references (what launch 3's proof data take). -/
abbrev V7 : (c : Dev nD) → (b : Ref sig .tc) → Buf (Elt F) ((c : Thread nD τ).loc b) := fun c b => W7 m c b
/-- At launch 3's exit: its arrays at what the pipeline leaves (the inputs as entered, the output's write-backs folded),
    every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (launch 3's exit contents). -/
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The proof data family and the thread state -/

/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A stretch of array operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- Launch 0 over the thread state: entered from every unscoped buffer at `W1`, left at `W2`. Its arrays are
    split out of the unscoped buffers and put back at the exit contents; the generator register goes into the region
    invariant and comes out again; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are
    split out of the unscoped buffers and put back at the exit contents; the generator register goes into the region
    invariant and comes out again; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`. Its arrays are
    split out of the unscoped buffers and put back at the exit contents; the generator register goes into the region
    invariant and comes out again; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at `W7`, left at `W8`. Its arrays are
    split out of the unscoped buffers and put back at the exit contents; the generator register goes into the region
    invariant and comes out again; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (V7 m) c)
    unfold Pipeline.ΦA
    iintro ⟨Hp, -, Hr⟩
    isplitl [Hr]; · iexact Hr
    iexact Hp
  hout c := by
    rw [Pipeline.ownSems0_none]
    refine (hout3 (V7 m) c).trans (show Pipeline.ΦA spec3 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's 8 segments in order: a segment per stretch of array operations from its boundary's contents, a region per launch. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- The program IS the run of the segments. -/
theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and every final state holds, in every unscoped buffer of every core, the last
    boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## What each boundary keeps -/

/-- A stretch of array operations changes only the buffers its operations write. -/
theorem W1_step (c : Dev nD) (r : Ref sig .tc) (h : r ∉ hostOps0_W) : W1 m c (Proc.devRef .tc r) = W0 m c (Proc.devRef .tc r) :=
  StableHlo.after_of_writes_sub hostOps0 _ hostOps0_writes h
theorem W3_step (c : Dev nD) (r : Ref sig .tc) (h : r ∉ hostOps1_W) : W3 m c (Proc.devRef .tc r) = W2 m c (Proc.devRef .tc r) :=
  StableHlo.after_of_writes_sub hostOps1 _ hostOps1_writes h
theorem W5_step (c : Dev nD) (r : Ref sig .tc) (h : r ∉ hostOps2_W) : W5 m c (Proc.devRef .tc r) = W4 m c (Proc.devRef .tc r) :=
  StableHlo.after_of_writes_sub hostOps2 _ hostOps2_writes h
theorem W7_step (c : Dev nD) (r : Ref sig .tc) (h : r ∉ hostOps3_W) : W7 m c (Proc.devRef .tc r) = W6 m c (Proc.devRef .tc r) :=
  StableHlo.after_of_writes_sub hostOps3 _ hostOps3_writes h

/-- Launch 0 changes no buffer but its output array: an input array is written back as entered, and no other buffer is
    an array of the launch. -/
theorem W2_step (c : Dev nD) (r : Ref sig .tc) (h : r ≠ main_v14) : W2 m c (Proc.devRef .tc r) = W1 m c (Proc.devRef .tc r) := by
  by_cases hw : ∃ w, Pipeline.arrRef spec0 w = r
  · obtain ⟨w, rfl⟩ := hw
    match w with
    | ⟨0, _⟩ => exact (W2_arr m c 0).trans (((dat0 (V1 m) c).arrAt_in 0 rfl _).trans (A_eq0 (V1 m) c 0))
    | ⟨1, _⟩ => exact (W2_arr m c 1).trans (((dat0 (V1 m) c).arrAt_in 1 rfl _).trans (A_eq0 (V1 m) c 1))
    | ⟨2, _⟩ => exact (W2_arr m c 2).trans (((dat0 (V1 m) c).arrAt_in 2 rfl _).trans (A_eq0 (V1 m) c 2))
    | ⟨3, _⟩ => exact absurd rfl h
    | ⟨_ + 4, hlt⟩ => exact absurd hlt (Nat.not_lt.2 (Nat.le_add_left _ _))
  · exact W2_of_ne m c r fun w e => hw ⟨w, e⟩

/-- Launch 1 changes no buffer but its output array: an input array is written back as entered, and no other buffer is
    an array of the launch. -/
theorem W4_step (c : Dev nD) (r : Ref sig .tc) (h : r ≠ main_v28) : W4 m c (Proc.devRef .tc r) = W3 m c (Proc.devRef .tc r) := by
  by_cases hw : ∃ w, Pipeline.arrRef spec1 w = r
  · obtain ⟨w, rfl⟩ := hw
    match w with
    | ⟨0, _⟩ => exact (W4_arr m c 0).trans (((dat1 (V3 m) c).arrAt_in 0 rfl _).trans (A_eq1 (V3 m) c 0))
    | ⟨1, _⟩ => exact (W4_arr m c 1).trans (((dat1 (V3 m) c).arrAt_in 1 rfl _).trans (A_eq1 (V3 m) c 1))
    | ⟨2, _⟩ => exact (W4_arr m c 2).trans (((dat1 (V3 m) c).arrAt_in 2 rfl _).trans (A_eq1 (V3 m) c 2))
    | ⟨3, _⟩ => exact (W4_arr m c 3).trans (((dat1 (V3 m) c).arrAt_in 3 rfl _).trans (A_eq1 (V3 m) c 3))
    | ⟨4, _⟩ => exact (W4_arr m c 4).trans (((dat1 (V3 m) c).arrAt_in 4 rfl _).trans (A_eq1 (V3 m) c 4))
    | ⟨5, _⟩ => exact absurd rfl h
    | ⟨_ + 6, hlt⟩ => exact absurd hlt (Nat.not_lt.2 (Nat.le_add_left _ _))
  · exact W4_of_ne m c r fun w e => hw ⟨w, e⟩

/-- Launch 2 changes no buffer but its output array: an input array is written back as entered, and no other buffer is
    an array of the launch. -/
theorem W6_step (c : Dev nD) (r : Ref sig .tc) (h : r ≠ main_v42) : W6 m c (Proc.devRef .tc r) = W5 m c (Proc.devRef .tc r) := by
  by_cases hw : ∃ w, Pipeline.arrRef spec2 w = r
  · obtain ⟨w, rfl⟩ := hw
    match w with
    | ⟨0, _⟩ => exact (W6_arr m c 0).trans (((dat2 (V5 m) c).arrAt_in 0 rfl _).trans (A_eq2 (V5 m) c 0))
    | ⟨1, _⟩ => exact (W6_arr m c 1).trans (((dat2 (V5 m) c).arrAt_in 1 rfl _).trans (A_eq2 (V5 m) c 1))
    | ⟨2, _⟩ => exact (W6_arr m c 2).trans (((dat2 (V5 m) c).arrAt_in 2 rfl _).trans (A_eq2 (V5 m) c 2))
    | ⟨3, _⟩ => exact (W6_arr m c 3).trans (((dat2 (V5 m) c).arrAt_in 3 rfl _).trans (A_eq2 (V5 m) c 3))
    | ⟨4, _⟩ => exact (W6_arr m c 4).trans (((dat2 (V5 m) c).arrAt_in 4 rfl _).trans (A_eq2 (V5 m) c 4))
    | ⟨5, _⟩ => exact absurd rfl h
    | ⟨_ + 6, hlt⟩ => exact absurd hlt (Nat.not_lt.2 (Nat.le_add_left _ _))
  · exact W6_of_ne m c r fun w e => hw ⟨w, e⟩

/-- Launch 3 changes no buffer but its output array: an input array is written back as entered, and no other buffer is
    an array of the launch. -/
theorem W8_step (c : Dev nD) (r : Ref sig .tc) (h : r ≠ main_v67) : W8 m c (Proc.devRef .tc r) = W7 m c (Proc.devRef .tc r) := by
  by_cases hw : ∃ w, Pipeline.arrRef spec3 w = r
  · obtain ⟨w, rfl⟩ := hw
    match w with
    | ⟨0, _⟩ => exact (W8_arr m c 0).trans (((dat3 (V7 m) c).arrAt_in 0 rfl _).trans (A_eq3 (V7 m) c 0))
    | ⟨1, _⟩ => exact (W8_arr m c 1).trans (((dat3 (V7 m) c).arrAt_in 1 rfl _).trans (A_eq3 (V7 m) c 1))
    | ⟨2, _⟩ => exact (W8_arr m c 2).trans (((dat3 (V7 m) c).arrAt_in 2 rfl _).trans (A_eq3 (V7 m) c 2))
    | ⟨3, _⟩ => exact (W8_arr m c 3).trans (((dat3 (V7 m) c).arrAt_in 3 rfl _).trans (A_eq3 (V7 m) c 3))
    | ⟨4, _⟩ => exact (W8_arr m c 4).trans (((dat3 (V7 m) c).arrAt_in 4 rfl _).trans (A_eq3 (V7 m) c 4))
    | ⟨5, _⟩ => exact (W8_arr m c 5).trans (((dat3 (V7 m) c).arrAt_in 5 rfl _).trans (A_eq3 (V7 m) c 5))
    | ⟨6, _⟩ => exact (W8_arr m c 6).trans (((dat3 (V7 m) c).arrAt_in 6 rfl _).trans (A_eq3 (V7 m) c 6))
    | ⟨7, _⟩ => exact absurd rfl h
    | ⟨_ + 8, hlt⟩ => exact absurd hlt (Nat.not_lt.2 (Nat.le_add_left _ _))
  · exact W8_of_ne m c r fun w e => hw ⟨w, e⟩

/-- A buffer no stretch writes and no launch has for its output reaches the end as launched. -/
theorem W8_kept (c : Dev nD) (r : Ref sig .tc) (h0 : r ∉ hostOps0_W) (h1 : r ∉ hostOps1_W) (h2 : r ∉ hostOps2_W) (h3 : r ∉ hostOps3_W)
    (o0 : r ≠ main_v14) (o1 : r ≠ main_v28) (o2 : r ≠ main_v42) (o3 : r ≠ main_v67) :
    W8 m c (Proc.devRef .tc r) = m ((c : Thread nD τ).loc r) :=
  (W8_step m c r o3).trans <| (W7_step m c r h3).trans <| (W6_step m c r o2).trans <| (W5_step m c r h2).trans <|
    (W4_step m c r o1).trans <| (W3_step m c r h1).trans <| (W2_step m c r o0).trans <| (W1_step m c r h0).trans rfl

/-! ## The frame -/

/-- THE FRAME: every weakly fair execution terminates, nothing faulting, and every argument array ends as launched
    (no stretch writes an argument and no launch has one for its output). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W8_kept m c main_arg0 (by decide) (by decide) (by decide) (by decide) (by decide) (by decide) (by decide) (by decide)),
     (h c _ (mem_uc main_arg1 (by decide))).trans (W8_kept m c main_arg1 (by decide) (by decide) (by decide) (by decide) (by decide) (by decide) (by decide) (by decide)),
     (h c _ (mem_uc main_arg2 (by decide))).trans (W8_kept m c main_arg2 (by decide) (by decide) (by decide) (by decide) (by decide) (by decide) (by decide) (by decide)),
     (h c _ (mem_uc main_arg3 (by decide))).trans (W8_kept m c main_arg3 (by decide) (by decide) (by decide) (by decide) (by decide) (by decide) (by decide) (by decide)),
     (h c _ (mem_uc main_arg4 (by decide))).trans (W8_kept m c main_arg4 (by decide) (by decide) (by decide) (by decide) (by decide) (by decide) (by decide) (by decide)),
     (h c _ (mem_uc main_arg5 (by decide))).trans (W8_kept m c main_arg5 (by decide) (by decide) (by decide) (by decide) (by decide) (by decide) (by decide) (by decide)),
     (h c _ (mem_uc main_arg6 (by decide))).trans (W8_kept m c main_arg6 (by decide) (by decide) (by decide) (by decide) (by decide) (by decide) (by decide) (by decide)),
     (h c _ (mem_uc main_arg7 (by decide))).trans (W8_kept m c main_arg7 (by decide) (by decide) (by decide) (by decide) (by decide) (by decide) (by decide) (by decide)),
     (h c _ (mem_uc main_arg8 (by decide))).trans (W8_kept m c main_arg8 (by decide) (by decide) (by decide) (by decide) (by decide) (by decide) (by decide) (by decide)),
     (h c _ (mem_uc main_arg9 (by decide))).trans (W8_kept m c main_arg9 (by decide) (by decide) (by decide) (by decide) (by decide) (by decide) (by decide) (by decide)),
     (h c _ (mem_uc main_arg10 (by decide))).trans (W8_kept m c main_arg10 (by decide) (by decide) (by decide) (by decide) (by decide) (by decide) (by decide) (by decide)),
     (h c _ (mem_uc main_arg11 (by decide))).trans (W8_kept m c main_arg11 (by decide) (by decide) (by decide) (by decide) (by decide) (by decide) (by decide) (by decide)),
     (h c _ (mem_uc main_arg12 (by decide))).trans (W8_kept m c main_arg12 (by decide) (by decide) (by decide) (by decide) (by decide) (by decide) (by decide) (by decide))⟩)
    (run_all m ρ)

end Cert.Kernel.Hand

end
-- ==== Proof.Spec.lean ====
/-
  The mathematics both programs compute, with no program in sight: three graph-convolution layers with a
  leaky rectifier between them, a mean over each graph's nodes, and a final affine map, on the extended reals.

  A node `n` has in-degree `deg n` = (number of edges whose destination word names `n`) + 1 (its own loop), and the
  weight `r n = (max (deg n) 1)^(-1/2)`. One convolution of a feature array `H` is, at node `n` and feature `f`,
      ∑ over edges e into n of (r (row e) · r n) · H (row e) f  +  (r n · r n) · H n f  +  b f,
  where `row e` is the source word of edge `e` read as Python reads an index (a negative word wraps once by the
  number of nodes, then the row is clamped into range) and an edge whose destination word is out of range contributes
  to no node.  `out` composes the layers in this normal form.  The kernel-shaped stage functions (`scaleMM`, `fused`,
  `pool`, `aggK`, `dinvK`, `onehotK`, `cntK`) say what each launch and each stretch of array operations between
  launches computes from the arrays it finds; `kernelForm_eq_out` is the one law that joins them to the normal form:
  a nonnegative REAL factor distributes over any sum of extended reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx
open scoped Classical

/-- A rank-2 array of extended reals of literal extents. -/
abbrev Arr2 (n k : Nat) : Type := (⟨2, ![n, k]⟩ : Shape).Idx → EReal
/-- A rank-1 array of extended reals. -/
abbrev Arr1 (n : Nat) : Type := (⟨1, ![n]⟩ : Shape).Idx → EReal
/-- A rank-2 array of 32-bit words. -/
abbrev Words2 (n k : Nat) : Type := (⟨2, ![n, k]⟩ : Shape).Idx → BitVec 32
/-- A rank-1 array of 32-bit words. -/
abbrev Words1 (n : Nat) : Type := (⟨1, ![n]⟩ : Shape).Idx → BitVec 32

/-! ## The index data: which row an edge reads, which row it adds into, which graph a node belongs to -/

/-- The source word of edge `e` after Python's wrap of a negative index: `w + 100000` when `w` is negative as a signed
    word, else `w`. -/
def srcWord (ei : Words2 2 1600000) (e : Fin 1600000) : BitVec 32 :=
  Scalar.select (IntOp.cmpi .slt (ei (ix2 0 e)) 0#32) (IntOp.addi (ei (ix2 0 e)) 100000#32) (ei (ix2 0 e))

/-- A word read as a signed integer and clamped into the rows `[0, 99999]`: the row a clamped row-gather reads. -/
def clampRow (w : BitVec 32) : Fin 100000 := ⟨min w.toInt.toNat 99999, by omega⟩

/-- The row edge `e`'s message is read from. -/
def srcRow (ei : Words2 2 1600000) (e : Fin 1600000) : Fin 100000 := clampRow (srcWord ei e)

/-- A word read as a signed integer names a row of `n` when it is in `[0, n)`; otherwise no row (a scatter drops it). -/
def rowOf? (n : Nat) (w : BitVec 32) : Option (Fin n) :=
  if h : 0 ≤ w.toInt ∧ w.toInt < (n : Int) then some ⟨w.toInt.toNat, by omega⟩ else none

/-- A word names row `i` of `n` exactly when its signed value is `i`. -/
theorem rowOf?_eq_some {n : Nat} (w : BitVec 32) (i : Fin n) : rowOf? n w = some i ↔ w.toInt = (i.val : Int) := by
  have hi := i.isLt
  unfold rowOf?
  split
  · rename_i h
    rw [Option.some.injEq, Fin.ext_iff]
    show w.toInt.toNat = i.val ↔ w.toInt = (i.val : Int)
    omega
  · rename_i h
    constructor
    · intro e
      cases e
    · intro e
      exact absurd ⟨by omega, by omega⟩ h

/-- The node edge `e` adds into, if its destination word names one. -/
def dstTo (ei : Words2 2 1600000) (e : Fin 1600000) : Option (Fin 100000) := rowOf? 100000 (ei (ix2 1 e))

/-- The graph node `n` belongs to, if its word names one of the 64. -/
def batTo (bt : Words1 100000) (n : Fin 100000) : Option (Fin 64) := rowOf? 64 (bt (ix1 n))

/-! ## The normal form -/

/-- The weight of node `n`: the inverse square root of its in-degree (edges into it, plus its own loop), never below 1. -/
def rOf (ei : Words2 2 1600000) (n : Fin 100000) : EReal :=
  Ideal.rsqrt (max ((∑ _e ∈ Finset.univ.filter (fun e => dstTo ei e = some n), (1 : EReal)) + 1) 1)

/-- A product of a `[100000, 128]` array with a `[128, 128]` matrix. -/
def mm (X : Arr2 100000 128) (W : Arr2 128 128) : Arr2 100000 128 :=
  fun i => ∑ k : Fin 128, X (ix2 (i 0) k) * W (ix2 k (i 1))

/-- The leaky rectifier with slope `a` on the nonpositive side. -/
def prelu (a v : EReal) : EReal := Scalar.select (Ideal.cmp .ogt v 0) v (a * v)

/-- One graph convolution of `H` with bias `b`, in normal form. -/
def conv (ei : Words2 2 1600000) (H : Arr2 100000 128) (b : Arr1 128) : Arr2 100000 128 :=
  fun i => ((∑ e ∈ Finset.univ.filter (fun e => dstTo ei e = some (i 0)),
                (rOf ei (srcRow ei e) * rOf ei (i 0)) * H (ix2 (srcRow ei e) (i 1)))
            + (rOf ei (i 0) * rOf ei (i 0)) * H i) + b (ix1 (i 1))

/-- The number of nodes of graph `g`, never below 1. -/
def cntOf (bt : Words1 100000) (g : Fin 64) : EReal :=
  max (∑ _n ∈ Finset.univ.filter (fun n => batTo bt n = some g), (1 : EReal)) 1

/-- THE RESULT in normal form: three convolutions (rectified after the first two), the mean over each graph, the last
    affine map. -/
def out (x : Arr2 100000 128) (W0 : Arr2 128 128) (b0 : Arr1 128) (a0 : Arr1 1) (W1 : Arr2 128 128) (b1 : Arr1 128)
    (a1 : Arr1 1) (W2 : Arr2 128 128) (b2 : Arr1 128) (linW : Arr2 128 10) (linb : Arr1 10)
    (ei : Words2 2 1600000) (bt : Words1 100000) : Arr2 64 10 :=
  let c0 : Arr2 100000 128 := conv ei (mm x W0) b0
  let a0' : Arr2 100000 128 := fun i => prelu (a0 (ix1 0)) (c0 i)
  let c1 : Arr2 100000 128 := conv ei (mm a0' W1) b1
  let a1' : Arr2 100000 128 := fun i => prelu (a1 (ix1 0)) (c1 i)
  let c2 : Arr2 100000 128 := conv ei (mm a1' W2) b2
  fun i => (∑ k : Fin 128,
      Ideal.div (∑ n ∈ Finset.univ.filter (fun n => batTo bt n = some (i 0)), c2 (ix2 n k)) (cntOf bt (i 0))
        * linW (ix2 k (i 1))) + linb (ix1 (i 1))

/-! ## What each launch computes from the arrays it finds (kernel-shaped stage functions) -/

/-- Launch 0: every row of `x · W` scaled by that row's weight. -/
def scaleMM (d : Arr2 100000 1) (x : Arr2 100000 128) (W : Arr2 128 128) : Arr2 100000 128 :=
  fun i => d (ix2 (i 0) 0) * ∑ k : Fin 128, x (ix2 (i 0) k) * W (ix2 k (i 1))

/-- Launches 1 and 2: finish a convolution (`d · agg + b`), rectify, multiply by `W`, and scale every row by its weight. -/
def fused (agg : Arr2 100000 128) (b : Arr2 1 128) (a : Arr2 1 1) (d : Arr2 100000 1) (W : Arr2 128 128) : Arr2 100000 128 :=
  fun i => d (ix2 (i 0) 0) * ∑ k : Fin 128,
    prelu (a (ix2 0 0)) (d (ix2 (i 0) 0) * agg (ix2 (i 0) k) + b (ix2 0 k)) * W (ix2 k (i 1))

/-- Launch 3: finish the last convolution, sum each graph's nodes through the one-hot membership array, divide by the
    graph's size, and apply the last affine map. -/
def pool (agg : Arr2 100000 128) (b : Arr2 1 128) (d : Arr2 100000 1) (oh : Arr2 100000 64) (cnt : Arr2 64 1)
    (lw : Arr2 128 10) (lb : Arr2 1 10) : Arr2 64 10 :=
  fun i => (∑ k : Fin 128,
      Ideal.div (∑ n : Fin 100000, oh (ix2 n (i 0)) * (d (ix2 n 0) * agg (ix2 n k) + b (ix2 0 k))) (cnt (ix2 (i 0) 0))
        * lw (ix2 k (i 1))) + lb (ix2 0 (i 1))

/-! ## What the array operations between the launches compute -/

/-- The weights as the `[100000, 1]` column the launches read. -/
def dinvK (ei : Words2 2 1600000) : Arr2 100000 1 := fun i => rOf ei (i 0)

/-- Between two launches: for each node, the sum of the scaled rows its in-edges read, plus its own scaled row. -/
def aggK (ei : Words2 2 1600000) (Hs : Arr2 100000 128) : Arr2 100000 128 :=
  fun i => (∑ e ∈ Finset.univ.filter (fun e => dstTo ei e = some (i 0)), Hs (ix2 (srcRow ei e) (i 1))) + Hs i

/-- The one-hot membership array: `1` where node `n`'s word names graph `g`, else `0`. -/
def onehotK (bt : Words1 100000) : Arr2 100000 64 :=
  fun i => if batTo bt (i 0) = some (i 1) then 1 else 0

/-- The graphs' sizes (never below 1) as the `[64, 1]` column the last launch reads. -/
def cntK (bt : Words1 100000) : Arr2 64 1 := fun i => cntOf bt (i 0)

/-- A `[n]` array as the `[1, n]` row a launch reads. -/
def rowOf {n : Nat} (b : Arr1 n) : Arr2 1 n := fun i => b (ix1 (i 1))

/-! ## Facts about the weights -/

/-- The inverse square root of an extended real that is at least `1` is a nonnegative real: at `⊤` it is `0`, and at
    a real `r ≥ 1` it is `(√r)⁻¹`. -/
theorem rsqrt_coe_of_one_le (x : EReal) (hx : 1 ≤ x) : ∃ q : ℝ, 0 ≤ q ∧ Ideal.rsqrt x = (q : EReal) := by
  induction x using EReal.rec with
  | bot => exact absurd (lt_of_lt_of_le (EReal.bot_lt_zero.trans one_pos) hx) (lt_irrefl _)
  | top => exact ⟨0, le_rfl, by rw [Ideal.rsqrt_top, EReal.coe_zero]⟩
  | coe r =>
    have hr : (1 : ℝ) ≤ r := by exact_mod_cast hx
    refine ⟨(Real.sqrt r)⁻¹, inv_nonneg.mpr (Real.sqrt_nonneg r), ?_⟩
    rw [Ideal.rsqrt_coe, if_neg (by linarith), if_neg (by linarith)]

/-- A weight is a nonnegative REAL (the degree is at least 1, so its inverse square root is finite and positive). -/
theorem rOf_coe (ei : Words2 2 1600000) (n : Fin 100000) : ∃ q : ℝ, 0 ≤ q ∧ rOf ei n = (q : EReal) := by
  unfold rOf
  exact rsqrt_coe_of_one_le _ (le_max_right _ _)

/-- The f32 word of `1.0` denotes the real `1`. -/
theorem ofBits_one_f32 : Ideal.ofBits .f32 0x3F800000#32 = 1 := by
  simp [Ideal.ofBits, Ideal.ieee]
  rw [← EReal.coe_mul]
  norm_num

/-! ## The law: the kernel-shaped composition IS the normal form -/

/-- A nonnegative real factor distributes over a sum of two extended reals, whatever they are. -/
theorem coe_mul_add (q : ℝ) (hq : 0 ≤ q) (x y : EReal) :
    (q : EReal) * (x + y) = (q : EReal) * x + (q : EReal) * y :=
  EReal.left_distrib_of_nonneg_of_ne_top (EReal.coe_nonneg.mpr hq) (EReal.coe_ne_top q) x y

/-- A nonnegative real factor distributes over any finite sum of extended reals. -/
theorem coe_mul_sum {ι : Type} (s : Finset ι) (q : ℝ) (hq : 0 ≤ q) (f : ι → EReal) :
    (q : EReal) * ∑ i ∈ s, f i = ∑ i ∈ s, (q : EReal) * f i := by
  induction s using Finset.induction_on with
  | empty => rw [Finset.sum_empty, Finset.sum_empty, mul_zero]
  | insert a s ha ih => rw [Finset.sum_insert ha, Finset.sum_insert ha, coe_mul_add q hq, ih]

/-- The algebra of one layer, over any finite set of edges: a nonnegative real weight `w` moves inside the sum of the
    already-weighted rows `r e * g e` and onto the node's own weighted row `w * y`. -/
theorem layer_core {ι : Type} (s : Finset ι) (w : EReal) (hw : ∃ q : ℝ, 0 ≤ q ∧ w = (q : EReal))
    (r g : ι → EReal) (y c : EReal) :
    w * ((∑ e ∈ s, r e * g e) + w * y) + c = ((∑ e ∈ s, (r e * w) * g e) + (w * w) * y) + c := by
  obtain ⟨q, hq, rfl⟩ := hw
  have hs : ∀ e ∈ s, (q : EReal) * (r e * g e) = (r e * (q : EReal)) * g e :=
    fun e _ => by rw [← mul_assoc, mul_comm (q : EReal) (r e)]
  rw [coe_mul_add q hq, coe_mul_sum s q hq, mul_assoc (q : EReal) (q : EReal) y, Finset.sum_congr rfl hs]

/-- The gathered sum at an index, spelt out. -/
theorem aggK_eq (ei : Words2 2 1600000) (Hs : Arr2 100000 128) (i : (⟨2, ![100000, 128]⟩ : Shape).Idx) :
    aggK ei Hs i
      = (∑ e ∈ Finset.univ.filter (fun e => dstTo ei e = some (i 0)), Hs (ix2 (srcRow ei e) (i 1))) + Hs i := rfl

/-- The convolution at an index, spelt out. -/
theorem conv_eq (ei : Words2 2 1600000) (H : Arr2 100000 128) (b : Arr1 128) (i : (⟨2, ![100000, 128]⟩ : Shape).Idx) :
    conv ei H b i
      = ((∑ e ∈ Finset.univ.filter (fun e => dstTo ei e = some (i 0)),
            (rOf ei (srcRow ei e) * rOf ei (i 0)) * H (ix2 (srcRow ei e) (i 1)))
          + (rOf ei (i 0) * rOf ei (i 0)) * H i) + b (ix1 (i 1)) := rfl

/-- ONE LAYER. If every row of `Hs` is the row of `H` scaled by that row's weight, then the node's weight times the
    gathered sum, plus the bias, is the convolution of `H` in normal form: the weight moves inside the sum over the
    in-edges and onto the node's own row. -/
theorem layer (ei : Words2 2 1600000) (Hs H : Arr2 100000 128) (b : Arr1 128)
    (h : ∀ i, Hs i = rOf ei (i 0) * H i) (n : Fin 100000) (k : Fin 128) :
    dinvK ei (ix2 n 0) * aggK ei Hs (ix2 n k) + rowOf b (ix2 0 k) = conv ei H b (ix2 n k) := by
  rw [aggK_eq, conv_eq]
  simp only [h]
  exact layer_core _ (rOf ei n) (rOf_coe ei n) (fun e => rOf ei (srcRow ei e))
    (fun e => H (ix2 (srcRow ei e) k)) (H (ix2 n k)) (b (ix1 k))

/-- Launch 0 leaves the rows of `x · W` scaled by their weights. -/
theorem scaleMM_scaled (ei : Words2 2 1600000) (x : Arr2 100000 128) (W : Arr2 128 128)
    (i : (⟨2, ![100000, 128]⟩ : Shape).Idx) :
    scaleMM (dinvK ei) x W i = rOf ei (i 0) * mm x W i := rfl

/-- Launches 1 and 2: from scaled rows of `H` they leave the scaled rows of the next layer's product, the rectified
    convolution of `H` times `W`. -/
theorem fused_scaled (ei : Words2 2 1600000) (Hs H : Arr2 100000 128) (b : Arr1 128) (a : Arr1 1) (W : Arr2 128 128)
    (h : ∀ i, Hs i = rOf ei (i 0) * H i) (i : (⟨2, ![100000, 128]⟩ : Shape).Idx) :
    fused (aggK ei Hs) (rowOf b) (fun _ => a (ix1 0)) (dinvK ei) W i
      = rOf ei (i 0) * mm (fun j => prelu (a (ix1 0)) (conv ei H b j)) W i := by
  obtain ⟨p, q, rfl⟩ : ∃ (p : Fin 100000) (q : Fin 128), i = ix2 p q := ⟨i 0, i 1, eq_ix2 i⟩
  have hl : ∀ k : Fin 128,
      dinvK ei (ix2 p 0) * aggK ei Hs (ix2 p k) + rowOf b (ix2 0 k) = conv ei H b (ix2 p k) :=
    fun k => layer ei Hs H b h p k
  show dinvK ei (ix2 p 0) * ∑ k : Fin 128,
        prelu (a (ix1 0)) (dinvK ei (ix2 p 0) * aggK ei Hs (ix2 p k) + rowOf b (ix2 0 k)) * W (ix2 k q)
     = rOf ei p * ∑ k : Fin 128, prelu (a (ix1 0)) (conv ei H b (ix2 p k)) * W (ix2 k q)
  simp only [hl]
  rfl

/-- Summing against the one-hot membership column of graph `g` is summing over the nodes of `g`, however that set of
    nodes is presented. -/
theorem onehot_sum (bt : Words1 100000) (g : Fin 64) (v : Fin 100000 → EReal) (S : Finset (Fin 100000))
    (hS : ∀ n, n ∈ S ↔ batTo bt n = some g) :
    ∑ n : Fin 100000, onehotK bt (ix2 n g) * v n = ∑ n ∈ S, v n := by
  have e : ∑ n ∈ S, v n = ∑ n : Fin 100000, if n ∈ S then v n else 0 := by
    rw [Finset.sum_ite_mem, Finset.univ_inter]
  rw [e]
  refine Finset.sum_congr rfl fun n _ => ?_
  by_cases hn : n ∈ S
  · have h1 : onehotK bt (ix2 n g) = 1 := if_pos ((hS n).mp hn)
    rw [h1, one_mul, if_pos hn]
  · have h0 : onehotK bt (ix2 n g) = 0 := if_neg (fun hc => hn ((hS n).mpr hc))
    rw [h0, zero_mul, if_neg hn]

/-- Launch 3, from scaled rows of `H`: the mean over each graph of the convolution of `H`, then the affine map. -/
theorem pool_eq (ei : Words2 2 1600000) (bt : Words1 100000) (Hs H : Arr2 100000 128) (b : Arr1 128)
    (lw : Arr2 128 10) (lb : Arr1 10) (h : ∀ i, Hs i = rOf ei (i 0) * H i) (i : (⟨2, ![64, 10]⟩ : Shape).Idx) :
    pool (aggK ei Hs) (rowOf b) (dinvK ei) (onehotK bt) (cntK bt) lw (rowOf lb) i
      = (∑ k : Fin 128,
          Ideal.div (∑ n ∈ Finset.univ.filter (fun n => batTo bt n = some (i 0)), conv ei H b (ix2 n k)) (cntOf bt (i 0))
            * lw (ix2 k (i 1))) + lb (ix1 (i 1)) := by
  have hk : ∀ k : Fin 128,
      (∑ n : Fin 100000, onehotK bt (ix2 n (i 0)) * (dinvK ei (ix2 n 0) * aggK ei Hs (ix2 n k) + rowOf b (ix2 0 k)))
        = ∑ n ∈ Finset.univ.filter (fun n => batTo bt n = some (i 0)), conv ei H b (ix2 n k) := by
    intro k
    rw [← onehot_sum bt (i 0) (fun n => conv ei H b (ix2 n k)) _
      (fun n => by simp only [Finset.mem_filter, Finset.mem_univ, true_and]; exact Iff.rfl)]
    exact Finset.sum_congr rfl fun n _ => by rw [layer ei Hs H b h n k]
  unfold pool
  simp only [hk]
  rfl

/-- The launches and the array operations between them, composed as the kernel's program composes them, compute `out`:
    in each layer the node's weight, a nonnegative real, is moved inside the sum over its in-edges. -/
theorem kernelForm_eq_out (x : Arr2 100000 128) (W0 : Arr2 128 128) (b0 : Arr1 128) (a0 : Arr1 1) (W1 : Arr2 128 128)
    (b1 : Arr1 128) (a1 : Arr1 1) (W2 : Arr2 128 128) (b2 : Arr1 128) (linW : Arr2 128 10) (linb : Arr1 10)
    (ei : Words2 2 1600000) (bt : Words1 100000) :
    pool (aggK ei (fused (aggK ei (fused (aggK ei (scaleMM (dinvK ei) x W0)) (rowOf b0) (fun _ => a0 (ix1 0)) (dinvK ei) W1))
        (rowOf b1) (fun _ => a1 (ix1 0)) (dinvK ei) W2))
      (rowOf b2) (dinvK ei) (onehotK bt) (cntK bt) linW (rowOf linb)
    = out x W0 b0 a0 W1 b1 a1 W2 b2 linW linb ei bt := by
  funext i
  refine (pool_eq ei bt _ _ b2 linW linb
    (fused_scaled ei _ _ b1 a1 W2 (fused_scaled ei _ _ b0 a0 W1 (scaleMM_scaled ei x W0))) i).trans ?_
  rfl

end Cert.Spec

end
-- ==== Proof.Region0Value.lean ====
import proofs.«421659_j20615843021630_2_alg».proof.Proof.Region0
import proofs.«421659_j20615843021630_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! # Launch 0, the value: the output array after the launch is the row-weighted product of the arrays at entry

Every row `r` of the output is written once, by grid point `r / 5000`, whose block of the output is the weight
of each of its rows times that row of `x` against the columns of `W`. -/

-- the TensorCore's buffer contents when the region is entered, at the extended reals
variable (V : (c : Dev nD) → (b : Ref sig .tc) → Buf (Elt Ideal) ((c : Thread nD τ).loc b))

/-! ## The body's payload at an index -/

/-- The product's left operand index on axis 0 is the output's row. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On axis 1 it is the contracted coordinate. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand index on axis 0 is the contracted coordinate. -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On axis 1 it is the output's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product with a zero accumulator, at row `p` and column `q`: the sum over the 128 contracted
    coordinates of the row's entries times the column's. -/
theorem mm_apply (x : FVec Ideal S5000x128 .f32) (W : FVec Ideal S128x128 .f32) (p : Fin 5000) (q : Fin 128) :
    matmul dot_S5000x128_S128x128_S5000x128_1_0_0_1_n_n none x W (constant (F := Ideal) S5000x128 .f32 0x00000000#32) (ix2 p q)
      = ∑ k : Fin 128, x (ix2 p k) * W (ix2 k q) := by
  refine (Ideal.matmul_constant_zero_apply dot_S5000x128_S128x128_S5000x128_1_0_0_1_n_n none x W (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The column of row weights broadcast along the 128 columns, at row `p`: the weight of row `p`. -/
theorem bcast_apply (d : FVec Ideal S5000x1 .f32) (p : Fin 5000) (q : Fin 128) :
    broadcastTo S5000x128 (shapeCast S5000x1 d shapeCasts_S5000x1_S5000x1) broadcasts_S5000x1_S5000x128 (ix2 p q) = d (ix2 p 0) := by
  rw [shapeCast_self]
  exact broadcastTo_apply d broadcasts_S5000x1_S5000x128 (ix2 p q) (ix2 p 0) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- THE PAYLOAD at row `p` and column `q` of a block: the row's weight times the row of `x` against the
    column of `W`. -/
theorem pay_apply (x : Vec Ideal S5000x128 .f32) (W : Vec Ideal S128x128 .f32) (d : Vec Ideal S5000x1 .f32) (p : Fin 5000) (q : Fin 128) :
    k0_pay1 x W d (ix2 p q) = d (ix2 p 0) * ∑ k : Fin 128, x (ix2 p k) * W (ix2 k q) := by
  unfold k0_pay1
  refine (ValueIdx.mulf_apply _ _ (ix2 p q)).trans ?_
  exact congrArg₂ (· * ·) (bcast_apply d p q) (mm_apply x W p q)

/-! ## From blocks to the array -/

theorem hz0 : (![0, 0] : Fin 2 → Nat) = fun _ => 0 := funext fun a => by fin_cases a <;> rfl

/-- The printed index maps, decided over the grid: the blocks of `x`, of the weights and of the output are block
    `t` of their rows at point `t`; the matrix is its one block throughout. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

/-- A grid point is one of twenty. -/
theorem pt_lt (t : Fin cfg0.N) : t.val < 20 := Nat.lt_of_lt_of_eq t.isLt N_0

/-- Row `p` of block `t` is row `5000 t + p` of the array. -/
abbrev rowAt (t : Fin cfg0.N) (p : Fin 5000) : Fin 100000 := ⟨t.val * 5000 + p.val, by have := pt_lt t; have := p.isLt; omega⟩

/-- The block of `x` at point `t`, the matrix's block and the block of the weights, at their literal types. -/
abbrev xblk (c : Dev nD) (t : Fin cfg0.N) : FVec Ideal S5000x128 .f32 := iblk0 V c 0 t
abbrev wblk (c : Dev nD) (t : Fin cfg0.N) : FVec Ideal S128x128 .f32 := iblk0 V c 1 t
abbrev dblk (c : Dev nD) (t : Fin cfg0.N) : FVec Ideal S5000x1 .f32 := iblk0 V c 2 t
/-- The three arrays the launch reads, as the region finds them. -/
abbrev xarr (c : Dev nD) : Cert.Spec.Arr2 100000 128 := V c main_arg0
abbrev warr (c : Dev nD) : Cert.Spec.Arr2 128 128 := V c main_arg1
abbrev darr (c : Dev nD) : Cert.Spec.Arr2 100000 1 := V c main_v13

/-- The block of `x` at point `t` holds rows `5000 t … 5000 t + 4999` of `x`. -/
theorem xblk_apply (c : Dev nD) (t : Fin cfg0.N) (p : Fin 5000) (k : Fin 128) :
    xblk V c t (ix2 p k) = xarr V c (ix2 (rowAt t p) k) := by
  obtain ⟨e0, e1, -, -, -, -, -, -⟩ := idx_facts0 t
  show V c main_arg0 (((cfg0.win 0).blk t).view.emb (ix2 p k)) = V c main_arg0 (ix2 (rowAt t p) k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The matrix's block is the matrix, at every point. -/
theorem wblk_apply (c : Dev nD) (t : Fin cfg0.N) (k : Fin 128) (q : Fin 128) :
    wblk V c t (ix2 k q) = warr V c (ix2 k q) := by
  obtain ⟨-, -, e0, e1, -, -, -, -⟩ := idx_facts0 t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The block of the weights at point `t` holds the weights of rows `5000 t … 5000 t + 4999`. -/
theorem dblk_apply (c : Dev nD) (t : Fin cfg0.N) (p : Fin 5000) :
    dblk V c t (ix2 p 0) = darr V c (ix2 (rowAt t p) 0) := by
  obtain ⟨-, -, -, -, e0, e1, -, -⟩ := idx_facts0 t
  show V c main_v13 (((cfg0.win 2).blk t).view.emb (ix2 p 0)) = V c main_v13 (ix2 (rowAt t p) 0)
  refine congrArg (V c main_v13) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- Row `p`, column `q` of the output's block `t` is row `5000 t + p`, column `q` of the array. -/
theorem oblk_emb (t : Fin cfg0.N) (p : Fin 5000) (q : Fin 128) :
    (((cfg0.win 3).blk t).view.emb (ix2 p q) : S100000x128.Idx) = ix2 (rowAt t p) q := by
  obtain ⟨-, -, -, -, -, -, e0, e1⟩ := idx_facts0 t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- The payload of point `t` at row `p` and column `q` is the weighted product at row `5000 t + p`, column `q`. -/
theorem pay_block (c : Dev nD) (t : Fin cfg0.N) (p : Fin 5000) (q : Fin 128) :
    k0_pay1 (F := Ideal) (xblk V c t) (wblk V c t) (dblk V c t) (ix2 p q)
      = Cert.Spec.scaleMM (darr V c) (xarr V c) (warr V c) (ix2 (rowAt t p) q) := by
  refine (pay_apply (xblk V c t) (wblk V c t) (dblk V c t) p q).trans ?_
  show _ = darr V c (ix2 (rowAt t p) 0) * ∑ k : Fin 128, xarr V c (ix2 (rowAt t p) k) * warr V c (ix2 k q)
  rw [dblk_apply V c t p]
  refine congrArg (darr V c (ix2 (rowAt t p) 0) * ·) (Finset.sum_congr rfl fun k _ => ?_)
  rw [xblk_apply V c t p k, wblk_apply V c t k q]

/-- WHAT POINT `t` WRITES BACK is block `t` of the weighted product of the arrays as the region finds them. -/
theorem flushed0_eq (c : Dev nD) (t : Fin cfg0.N) :
    (dat0 V c).flushed 3 t = ((cfg0.win 3).blk t).view.read (Elt Ideal) (Cert.Spec.scaleMM (V c main_v13) (V c main_arg0) (V c main_arg1)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  funext j
  obtain ⟨p, q, rfl⟩ : ∃ (p : Fin 5000) (q : Fin 128), j = ix2 p q := ⟨j 0, j 1, eq_ix2 j⟩
  show k0_pay1 (F := Ideal) (xblk V c t) (wblk V c t) (dblk V c t) (ix2 p q)
    = Cert.Spec.scaleMM (darr V c) (xarr V c) (warr V c) (((cfg0.win 3).blk t).view.emb (ix2 p q))
  rw [oblk_emb t p q]
  exact pay_block V c t p q

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every index of the array is in the block of the point that holds its row: row `r` is point `r / 5000`'s. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, Nat.lt_of_lt_of_eq (by omega : (i 0).val / 5000 < 20) N_0.symm⟩
  have ht : t.val = (i 0).val / 5000 := rfl
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the launch: the weighted product of the arrays at entry, everywhere. -/
theorem final0 (c : Dev nD) : (dat0 V c).arrAt 3 cfg0.N = Cert.Spec.scaleMM (V c main_v13) (V c main_arg0) (V c main_arg1) :=
  (dat0 V c).arrAt_eq_of_cover 3 (Cert.Spec.scaleMM (V c main_v13) (V c main_arg0) (V c main_arg1))
    (fun t _ => flushed0_eq V c t) covered0

end Cert.KernelIdeal.Hand

end
-- ==== Proof.Region1Value.lean ====
import proofs.«421659_j20615843021630_2_alg».proof.Proof.Region1
import proofs.«421659_j20615843021630_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! # The fused layer's first launch on the extended reals: what its output array ends holding

The body's payload read at an index; the one whole-buffer store; each input block read off its array where the output
block's rows lie; the twenty row blocks cover the array. -/

/-! ## The body's payload at an index -/

/-- A `[a, 1]` column broadcast to `[a, b]` reads, at `(p, q)`, the column's entry of row `p`. -/
theorem r1_colBroadcast_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The product's operand indices, axis by axis: the left operand is read at (row of the output, contraction index), -/
theorem r1_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem r1_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and the right operand at (contraction index, column of the output). -/
theorem r1_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem r1_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product onto the zero accumulator, read at `(p, q)`: the sum over the 128 contraction indices. -/
theorem r1_matmul_apply (l : FVec Ideal S5000x128 .f32) (r : FVec Ideal S128x128 .f32) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact r1_lhs_0 _ _
    | ⟨1, _⟩ => exact (r1_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (r1_rhs_0 _ _).trans hk
    | ⟨1, _⟩ => exact r1_rhs_1 _ _)
  rw [el, er]

/-- The rectifier as the body writes it — keep `v` where it is positive, else the slope times `v` — read at an index. -/
theorem r1_prelu_apply (v : FVec Ideal S5000x128 .f32) (a : Ideal .f32) (j : S5000x128.Idx) :
    select (cmpf .ogt v (broadcast S5000x128 (Scalar.ofBits .f32 0x00000000#32))) v (mulf (broadcast S5000x128 a) v) j
      = Cert.Spec.prelu a (v j) := by
  show Scalar.select (Ideal.cmp .ogt (v j) (Ideal.ofBits .f32 0x00000000#32)) (v j) (a * v j) = _
  rw [Ideal.ofBits_zero_f32]
  rfl

/-- What is rectified, read at `(p, k)`: row `p`'s weight times the aggregated entry, plus the bias of column `k`. -/
theorem r1_pre_apply (x3 : FVec Ideal S5000x1 .f32) (x0 : FVec Ideal S5000x128 .f32) (x1 : FVec Ideal S1x128 .f32) (p : Fin 5000) (k : Fin 128) :
    addf (F := Ideal) (mulf (F := Ideal) (broadcastTo S5000x128 x3 broadcasts_S5000x1_S5000x128) x0) (broadcastTo S5000x128 x1 broadcasts_S1x128_S5000x128) (ix2 p k)
      = x3 (ix2 p 0) * x0 (ix2 p k) + x1 (ix2 0 k) :=
  (addf_apply _ _ _).trans (congrArg₂ (· + ·)
    ((mulf_apply _ _ _).trans (congrArg (· * x0 (ix2 p k)) (r1_colBroadcast_apply x3 _ p k)))
    (broadcastTo_1b_ab_apply x1 _ p k))

/-- THE PAYLOAD AT AN INDEX: row `p`'s weight times the sum over `k` of the rectified (weight · aggregated + bias) entry
    times the matrix entry. -/
theorem r1_pay_apply (x3 : Vec Ideal S5000x1 .f32) (x0 : Vec Ideal S5000x128 .f32) (x1 : Vec Ideal S1x128 .f32) (x2 : Vec Ideal S1x1 .f32)
    (x4 : Vec Ideal S128x128 .f32) (p : Fin 5000) (q : Fin 128) :
    k1_pay1 (F := Ideal) x3 x0 x1 x2 x4 (ix2 p q)
      = x3 (ix2 p 0) * ∑ k : Fin 128, Cert.Spec.prelu (x2 (ix2 0 0)) (x3 (ix2 p 0) * x0 (ix2 p k) + x1 (ix2 0 k)) * x4 (ix2 k q) := by
  unfold k1_pay1
  simp only [shapeCast_self]
  refine (mulf_apply _ _ _).trans ?_
  refine congrArg₂ (· * ·) (r1_colBroadcast_apply x3 _ p q) ?_
  refine (r1_matmul_apply _ _ p q).trans ?_
  refine Finset.sum_congr rfl fun k _ => ?_
  refine congrArg (· * x4 (ix2 k q)) ?_
  refine (r1_prelu_apply _ _ (ix2 p k)).trans ?_
  refine congrArg₂ Cert.Spec.prelu ?_ (r1_pre_apply x3 x0 x1 p k)
  show x2 (fun a => ⟨![0, 0] a, inpos_S1x1_p0_0 a⟩) = x2 (ix2 0 0)
  exact congrArg x2 (funext fun a => Fin.ext (by match a with | ⟨0, _⟩ => rfl | ⟨1, _⟩ => rfl))

/-! ## From the blocks to the array -/

-- the TensorCore's buffer contents when the region is entered
variable (V : (c : Dev nD) → (b : Ref sig .tc) → Buf (Elt Ideal) ((c : Thread nD τ).loc b))

theorem r1_hz : (![0, 0] : Fin 2 → Nat) = fun _ => 0 := funext fun a => by fin_cases a <;> rfl

/-- The output block the body leaves, at an index, over any five input blocks: the one store is the whole buffer and the
    five loads are whole buffers, so it is the payload of the blocks. -/
theorem r1_out_apply (x0 : Vec Ideal S5000x128 .f32) (x1 : Vec Ideal S1x128 .f32) (x2 : Vec Ideal S1x1 .f32) (x3 : Vec Ideal S5000x1 .f32)
    (x4 : Vec Ideal S128x128 .f32) (p : Fin 5000) (q : Fin 128) :
    out1_5 x0 x1 x2 x3 x4 (ix2 p q)
      = x3 (ix2 p 0) * ∑ k : Fin 128, Cert.Spec.prelu (x2 (ix2 0 0)) (x3 (ix2 p 0) * x0 (ix2 p k) + x1 (ix2 0 k)) * x4 (ix2 k q) := by
  unfold out1_5
  rw [View.canon_unit_zero r1_hz]
  simp only [View.ld_unit_zero (S := S5000x128) r1_hz, View.ld_unit_zero (S := S1x128) r1_hz, View.ld_unit_zero (S := S1x1) r1_hz,
    View.ld_unit_zero (S := S5000x1) r1_hz, View.ld_unit_zero (S := S128x128) r1_hz]
  exact r1_pay_apply x3 x0 x1 x2 x4 p q

/-- The printed index maps, decided over the twenty points: the row-blocked windows (aggregated rows, weights column,
    output) are at row block `t`, column block 0; the three whole windows at block (0, 0). -/
theorem r1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer's array at an index from its ingredients there: one weight, one slope and three rows of 128 entries. -/
theorem r1_fused_of (agg : Cert.Spec.Arr2 100000 128) (b : Cert.Spec.Arr2 1 128) (a : Cert.Spec.Arr2 1 1) (d : Cert.Spec.Arr2 100000 1)
    (W : Cert.Spec.Arr2 128 128) (i : S100000x128.Idx) {d0 a0 : EReal} {g0 b0 w0 : Fin 128 → EReal}
    (hd : d0 = d (ix2 (i 0) 0)) (ha : a0 = a (ix2 0 0)) (hg : ∀ k, g0 k = agg (ix2 (i 0) k)) (hb : ∀ k, b0 k = b (ix2 0 k))
    (hw : ∀ k, w0 k = W (ix2 k (i 1))) :
    d0 * ∑ k : Fin 128, Cert.Spec.prelu a0 (d0 * g0 k + b0 k) * w0 k = Cert.Spec.fused agg b a d W i := by
  subst hd ha
  unfold Cert.Spec.fused
  exact congrArg (d (ix2 (i 0) 0) * ·) (Finset.sum_congr rfl fun k _ => by rw [hg k, hb k, hw k])

/-- Each input window's block at a point, read at an index, is its array (as the region finds it) at the block's offset
    plus the index: a block's coordinate is the block index times the block's extent plus the coordinate inside it. -/
theorem r1_blk0 (c : Dev nD) (t : Fin cfg1.N) (x : S5000x128.Idx) (i : S100000x128.Idx)
    (h0 : (i 0).val = win1_0.index t (0 : Fin 2) * 5000 + (x 0).val) (h1 : (i 1).val = win1_0.index t (1 : Fin 2) * 128 + (x 1).val) :
    (iblk1 V c 0 t : Vec Ideal S5000x128 .f32) x = (V c main_v25 : S100000x128.Idx → EReal) i := by
  unfold iblk1
  rw [View.read_apply]
  show V c main_v25 _ = V c main_v25 _
  congr 1
  funext a
  apply Fin.ext
  match a with
  | ⟨0, _⟩ => show win1_0.index t (0 : Fin 2) * 5000 + 1 * (x 0).val = (i 0).val; omega
  | ⟨1, _⟩ => show win1_0.index t (1 : Fin 2) * 128 + 1 * (x 1).val = (i 1).val; omega

theorem r1_blk1 (c : Dev nD) (t : Fin cfg1.N) (x : S1x128.Idx) (i : S1x128.Idx)
    (h0 : (i 0).val = win1_1.index t (0 : Fin 2) * 1 + (x 0).val) (h1 : (i 1).val = win1_1.index t (1 : Fin 2) * 128 + (x 1).val) :
    (iblk1 V c 1 t : Vec Ideal S1x128 .f32) x = (V c main_v26 : S1x128.Idx → EReal) i := by
  unfold iblk1
  rw [View.read_apply]
  show V c main_v26 _ = V c main_v26 _
  congr 1
  funext a
  apply Fin.ext
  match a with
  | ⟨0, _⟩ => show win1_1.index t (0 : Fin 2) * 1 + 1 * (x 0).val = (i 0).val; omega
  | ⟨1, _⟩ => show win1_1.index t (1 : Fin 2) * 128 + 1 * (x 1).val = (i 1).val; omega

theorem r1_blk2 (c : Dev nD) (t : Fin cfg1.N) (x : S1x1.Idx) (i : S1x1.Idx)
    (h0 : (i 0).val = win1_2.index t (0 : Fin 2) * 1 + (x 0).val) (h1 : (i 1).val = win1_2.index t (1 : Fin 2) * 1 + (x 1).val) :
    (iblk1 V c 2 t : Vec Ideal S1x1 .f32) x = (V c main_v27 : S1x1.Idx → EReal) i := by
  unfold iblk1
  rw [View.read_apply]
  show V c main_v27 _ = V c main_v27 _
  congr 1
  funext a
  apply Fin.ext
  match a with
  | ⟨0, _⟩ => show win1_2.index t (0 : Fin 2) * 1 + 1 * (x 0).val = (i 0).val; omega
  | ⟨1, _⟩ => show win1_2.index t (1 : Fin 2) * 1 + 1 * (x 1).val = (i 1).val; omega

theorem r1_blk3 (c : Dev nD) (t : Fin cfg1.N) (x : S5000x1.Idx) (i : S100000x1.Idx)
    (h0 : (i 0).val = win1_3.index t (0 : Fin 2) * 5000 + (x 0).val) (h1 : (i 1).val = win1_3.index t (1 : Fin 2) * 1 + (x 1).val) :
    (iblk1 V c 3 t : Vec Ideal S5000x1 .f32) x = (V c main_v13 : S100000x1.Idx → EReal) i := by
  unfold iblk1
  rw [View.read_apply]
  show V c main_v13 _ = V c main_v13 _
  congr 1
  funext a
  apply Fin.ext
  match a with
  | ⟨0, _⟩ => show win1_3.index t (0 : Fin 2) * 5000 + 1 * (x 0).val = (i 0).val; omega
  | ⟨1, _⟩ => show win1_3.index t (1 : Fin 2) * 1 + 1 * (x 1).val = (i 1).val; omega

theorem r1_blk4 (c : Dev nD) (t : Fin cfg1.N) (x : S128x128.Idx) (i : S128x128.Idx)
    (h0 : (i 0).val = win1_4.index t (0 : Fin 2) * 128 + (x 0).val) (h1 : (i 1).val = win1_4.index t (1 : Fin 2) * 128 + (x 1).val) :
    (iblk1 V c 4 t : Vec Ideal S128x128 .f32) x = (V c main_arg4 : S128x128.Idx → EReal) i := by
  unfold iblk1
  rw [View.read_apply]
  show V c main_arg4 _ = V c main_arg4 _
  congr 1
  funext a
  apply Fin.ext
  match a with
  | ⟨0, _⟩ => show win1_4.index t (0 : Fin 2) * 128 + 1 * (x 0).val = (i 0).val; omega
  | ⟨1, _⟩ => show win1_4.index t (1 : Fin 2) * 128 + 1 * (x 1).val = (i 1).val; omega

/-- WHAT POINT `t` WRITES BACK is block `t` of the layer's array, computed from the arrays as the region finds them. -/
theorem r1_flushed_eq (c : Dev nD) (t : Fin cfg1.N) :
    (dat1 V c).flushed 5 t = ((cfg1.win 5).blk t).view.read (Elt Ideal)
      (Cert.Spec.fused (V c main_v25) (V c main_v26) (V c main_v27) (V c main_v13) (V c main_arg4)) := by
  show (cfg1.win 5).cut (grid1.coords t) ((dat1 V c).after 5 t) = _
  rw [after1_5]
  obtain ⟨e00, e01, e10, e11, e20, e21, e30, e31, e40, e41, e50, e51⟩ := r1_idx_facts t
  funext j
  obtain ⟨p, q, rfl⟩ : ∃ (p : Fin 5000) (q : Fin 128), j = ix2 p q := ⟨j 0, j 1, eq_ix2 j⟩
  refine (r1_out_apply (iblk1 V c 0 t) (iblk1 V c 1 t) (iblk1 V c 2 t) (iblk1 V c 3 t) (iblk1 V c 4 t) p q).trans ?_
  rw [View.read_apply]
  refine r1_fused_of _ _ _ _ _ _ (r1_blk3 V c t _ _ ?_ ?_) (r1_blk2 V c t _ _ ?_ ?_) (fun k => r1_blk0 V c t _ _ ?_ ?_)
    (fun k => r1_blk1 V c t _ _ ?_ ?_) (fun k => r1_blk4 V c t _ _ ?_ ?_)
  · show win1_5.index t (0 : Fin 2) * 5000 + 1 * p.val = win1_3.index t (0 : Fin 2) * 5000 + p.val; omega
  · show (0 : Nat) = win1_3.index t (1 : Fin 2) * 1 + 0; omega
  · show (0 : Nat) = win1_2.index t (0 : Fin 2) * 1 + 0; omega
  · show (0 : Nat) = win1_2.index t (1 : Fin 2) * 1 + 0; omega
  · show win1_5.index t (0 : Fin 2) * 5000 + 1 * p.val = win1_0.index t (0 : Fin 2) * 5000 + p.val; omega
  · show k.val = win1_0.index t (1 : Fin 2) * 128 + k.val; omega
  · show (0 : Nat) = win1_1.index t (0 : Fin 2) * 1 + 0; omega
  · show k.val = win1_1.index t (1 : Fin 2) * 128 + k.val; omega
  · show k.val = win1_4.index t (0 : Fin 2) * 128 + k.val; omega
  · show win1_5.index t (1 : Fin 2) * 128 + 1 * q.val = win1_4.index t (1 : Fin 2) * 128 + q.val; omega

/-- An index of the array is in point `t`'s block iff each coordinate is in the block's range on its axis. -/
theorem r1_mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

/-- The twenty row blocks cover the array: row `r` lies in the block of point `r / 5000`, which is written back. -/
theorem r1_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, e50, e51⟩ := r1_idx_facts t
  refine ⟨t, flush1_5 t, ?_⟩
  rw [r1_mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the launch: the layer's array of the five arrays as the region finds them. -/
theorem final1 (c : Dev nD) : (dat1 V c).arrAt 5 cfg1.N
    = Cert.Spec.fused (V c main_v25) (V c main_v26) (V c main_v27) (V c main_v13) (V c main_arg4) :=
  (dat1 V c).arrAt_eq_of_cover 5 (Cert.Spec.fused (V c main_v25) (V c main_v26) (V c main_v27) (V c main_v13) (V c main_arg4))
    (fun t _ => r1_flushed_eq V c t) r1_cover

end Cert.KernelIdeal.Hand

end
-- ==== Proof.Region2Value.lean ====
import proofs.«421659_j20615843021630_2_alg».proof.Proof.Region2
import proofs.«421659_j20615843021630_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! # The fused layer's first launch on the extended reals: what its output array ends holding

The body's payload read at an index; the one whole-buffer store; each input block read off its array where the output
block's rows lie; the twenty row blocks cover the array. -/

/-! ## The body's payload at an index -/

/-- A `[a, 1]` column broadcast to `[a, b]` reads, at `(p, q)`, the column's entry of row `p`. -/
theorem r2_colBroadcast_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The product's operand indices, axis by axis: the left operand is read at (row of the output, contraction index), -/
theorem r2_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem r2_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and the right operand at (contraction index, column of the output). -/
theorem r2_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem r2_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product onto the zero accumulator, read at `(p, q)`: the sum over the 128 contraction indices. -/
theorem r2_matmul_apply (l : FVec Ideal S5000x128 .f32) (r : FVec Ideal S128x128 .f32) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact r2_lhs_0 _ _
    | ⟨1, _⟩ => exact (r2_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (r2_rhs_0 _ _).trans hk
    | ⟨1, _⟩ => exact r2_rhs_1 _ _)
  rw [el, er]

/-- The rectifier as the body writes it — keep `v` where it is positive, else the slope times `v` — read at an index. -/
theorem r2_prelu_apply (v : FVec Ideal S5000x128 .f32) (a : Ideal .f32) (j : S5000x128.Idx) :
    select (cmpf .ogt v (broadcast S5000x128 (Scalar.ofBits .f32 0x00000000#32))) v (mulf (broadcast S5000x128 a) v) j
      = Cert.Spec.prelu a (v j) := by
  show Scalar.select (Ideal.cmp .ogt (v j) (Ideal.ofBits .f32 0x00000000#32)) (v j) (a * v j) = _
  rw [Ideal.ofBits_zero_f32]
  rfl

/-- What is rectified, read at `(p, k)`: row `p`'s weight times the aggregated entry, plus the bias of column `k`. -/
theorem r2_pre_apply (x3 : FVec Ideal S5000x1 .f32) (x0 : FVec Ideal S5000x128 .f32) (x1 : FVec Ideal S1x128 .f32) (p : Fin 5000) (k : Fin 128) :
    addf (F := Ideal) (mulf (F := Ideal) (broadcastTo S5000x128 x3 broadcasts_S5000x1_S5000x128) x0) (broadcastTo S5000x128 x1 broadcasts_S1x128_S5000x128) (ix2 p k)
      = x3 (ix2 p 0) * x0 (ix2 p k) + x1 (ix2 0 k) :=
  (addf_apply _ _ _).trans (congrArg₂ (· + ·)
    ((mulf_apply _ _ _).trans (congrArg (· * x0 (ix2 p k)) (r2_colBroadcast_apply x3 _ p k)))
    (broadcastTo_1b_ab_apply x1 _ p k))

/-- THE PAYLOAD AT AN INDEX: row `p`'s weight times the sum over `k` of the rectified (weight · aggregated + bias) entry
    times the matrix entry. -/
theorem r2_pay_apply (x3 : Vec Ideal S5000x1 .f32) (x0 : Vec Ideal S5000x128 .f32) (x1 : Vec Ideal S1x128 .f32) (x2 : Vec Ideal S1x1 .f32)
    (x4 : Vec Ideal S128x128 .f32) (p : Fin 5000) (q : Fin 128) :
    k2_pay1 (F := Ideal) x3 x0 x1 x2 x4 (ix2 p q)
      = x3 (ix2 p 0) * ∑ k : Fin 128, Cert.Spec.prelu (x2 (ix2 0 0)) (x3 (ix2 p 0) * x0 (ix2 p k) + x1 (ix2 0 k)) * x4 (ix2 k q) := by
  unfold k2_pay1
  simp only [shapeCast_self]
  refine (mulf_apply _ _ _).trans ?_
  refine congrArg₂ (· * ·) (r2_colBroadcast_apply x3 _ p q) ?_
  refine (r2_matmul_apply _ _ p q).trans ?_
  refine Finset.sum_congr rfl fun k _ => ?_
  refine congrArg (· * x4 (ix2 k q)) ?_
  refine (r2_prelu_apply _ _ (ix2 p k)).trans ?_
  refine congrArg₂ Cert.Spec.prelu ?_ (r2_pre_apply x3 x0 x1 p k)
  show x2 (fun a => ⟨![0, 0] a, inpos_S1x1_p0_0 a⟩) = x2 (ix2 0 0)
  exact congrArg x2 (funext fun a => Fin.ext (by match a with | ⟨0, _⟩ => rfl | ⟨1, _⟩ => rfl))

/-! ## From the blocks to the array -/

-- the TensorCore's buffer contents when the region is entered
variable (V : (c : Dev nD) → (b : Ref sig .tc) → Buf (Elt Ideal) ((c : Thread nD τ).loc b))

theorem r2_hz : (![0, 0] : Fin 2 → Nat) = fun _ => 0 := funext fun a => by fin_cases a <;> rfl

/-- The output block the body leaves, at an index, over any five input blocks: the one store is the whole buffer and the
    five loads are whole buffers, so it is the payload of the blocks. -/
theorem r2_out_apply (x0 : Vec Ideal S5000x128 .f32) (x1 : Vec Ideal S1x128 .f32) (x2 : Vec Ideal S1x1 .f32) (x3 : Vec Ideal S5000x1 .f32)
    (x4 : Vec Ideal S128x128 .f32) (p : Fin 5000) (q : Fin 128) :
    out2_5 x0 x1 x2 x3 x4 (ix2 p q)
      = x3 (ix2 p 0) * ∑ k : Fin 128, Cert.Spec.prelu (x2 (ix2 0 0)) (x3 (ix2 p 0) * x0 (ix2 p k) + x1 (ix2 0 k)) * x4 (ix2 k q) := by
  unfold out2_5
  rw [View.canon_unit_zero r2_hz]
  simp only [View.ld_unit_zero (S := S5000x128) r2_hz, View.ld_unit_zero (S := S1x128) r2_hz, View.ld_unit_zero (S := S1x1) r2_hz,
    View.ld_unit_zero (S := S5000x1) r2_hz, View.ld_unit_zero (S := S128x128) r2_hz]
  exact r2_pay_apply x3 x0 x1 x2 x4 p q

/-- The printed index maps, decided over the twenty points: the row-blocked windows (aggregated rows, weights column,
    output) are at row block `t`, column block 0; the three whole windows at block (0, 0). -/
theorem r2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer's array at an index from its ingredients there: one weight, one slope and three rows of 128 entries. -/
theorem r2_fused_of (agg : Cert.Spec.Arr2 100000 128) (b : Cert.Spec.Arr2 1 128) (a : Cert.Spec.Arr2 1 1) (d : Cert.Spec.Arr2 100000 1)
    (W : Cert.Spec.Arr2 128 128) (i : S100000x128.Idx) {d0 a0 : EReal} {g0 b0 w0 : Fin 128 → EReal}
    (hd : d0 = d (ix2 (i 0) 0)) (ha : a0 = a (ix2 0 0)) (hg : ∀ k, g0 k = agg (ix2 (i 0) k)) (hb : ∀ k, b0 k = b (ix2 0 k))
    (hw : ∀ k, w0 k = W (ix2 k (i 1))) :
    d0 * ∑ k : Fin 128, Cert.Spec.prelu a0 (d0 * g0 k + b0 k) * w0 k = Cert.Spec.fused agg b a d W i := by
  subst hd ha
  unfold Cert.Spec.fused
  exact congrArg (d (ix2 (i 0) 0) * ·) (Finset.sum_congr rfl fun k _ => by rw [hg k, hb k, hw k])

/-- Each input window's block at a point, read at an index, is its array (as the region finds it) at the block's offset
    plus the index: a block's coordinate is the block index times the block's extent plus the coordinate inside it. -/
theorem r2_blk0 (c : Dev nD) (t : Fin cfg2.N) (x : S5000x128.Idx) (i : S100000x128.Idx)
    (h0 : (i 0).val = win2_0.index t (0 : Fin 2) * 5000 + (x 0).val) (h1 : (i 1).val = win2_0.index t (1 : Fin 2) * 128 + (x 1).val) :
    (iblk2 V c 0 t : Vec Ideal S5000x128 .f32) x = (V c main_v39 : S100000x128.Idx → EReal) i := by
  unfold iblk2
  rw [View.read_apply]
  show V c main_v39 _ = V c main_v39 _
  congr 1
  funext a
  apply Fin.ext
  match a with
  | ⟨0, _⟩ => show win2_0.index t (0 : Fin 2) * 5000 + 1 * (x 0).val = (i 0).val; omega
  | ⟨1, _⟩ => show win2_0.index t (1 : Fin 2) * 128 + 1 * (x 1).val = (i 1).val; omega

theorem r2_blk1 (c : Dev nD) (t : Fin cfg2.N) (x : S1x128.Idx) (i : S1x128.Idx)
    (h0 : (i 0).val = win2_1.index t (0 : Fin 2) * 1 + (x 0).val) (h1 : (i 1).val = win2_1.index t (1 : Fin 2) * 128 + (x 1).val) :
    (iblk2 V c 1 t : Vec Ideal S1x128 .f32) x = (V c main_v40 : S1x128.Idx → EReal) i := by
  unfold iblk2
  rw [View.read_apply]
  show V c main_v40 _ = V c main_v40 _
  congr 1
  funext a
  apply Fin.ext
  match a with
  | ⟨0, _⟩ => show win2_1.index t (0 : Fin 2) * 1 + 1 * (x 0).val = (i 0).val; omega
  | ⟨1, _⟩ => show win2_1.index t (1 : Fin 2) * 128 + 1 * (x 1).val = (i 1).val; omega

theorem r2_blk2 (c : Dev nD) (t : Fin cfg2.N) (x : S1x1.Idx) (i : S1x1.Idx)
    (h0 : (i 0).val = win2_2.index t (0 : Fin 2) * 1 + (x 0).val) (h1 : (i 1).val = win2_2.index t (1 : Fin 2) * 1 + (x 1).val) :
    (iblk2 V c 2 t : Vec Ideal S1x1 .f32) x = (V c main_v41 : S1x1.Idx → EReal) i := by
  unfold iblk2
  rw [View.read_apply]
  show V c main_v41 _ = V c main_v41 _
  congr 1
  funext a
  apply Fin.ext
  match a with
  | ⟨0, _⟩ => show win2_2.index t (0 : Fin 2) * 1 + 1 * (x 0).val = (i 0).val; omega
  | ⟨1, _⟩ => show win2_2.index t (1 : Fin 2) * 1 + 1 * (x 1).val = (i 1).val; omega

theorem r2_blk3 (c : Dev nD) (t : Fin cfg2.N) (x : S5000x1.Idx) (i : S100000x1.Idx)
    (h0 : (i 0).val = win2_3.index t (0 : Fin 2) * 5000 + (x 0).val) (h1 : (i 1).val = win2_3.index t (1 : Fin 2) * 1 + (x 1).val) :
    (iblk2 V c 3 t : Vec Ideal S5000x1 .f32) x = (V c main_v13 : S100000x1.Idx → EReal) i := by
  unfold iblk2
  rw [View.read_apply]
  show V c main_v13 _ = V c main_v13 _
  congr 1
  funext a
  apply Fin.ext
  match a with
  | ⟨0, _⟩ => show win2_3.index t (0 : Fin 2) * 5000 + 1 * (x 0).val = (i 0).val; omega
  | ⟨1, _⟩ => show win2_3.index t (1 : Fin 2) * 1 + 1 * (x 1).val = (i 1).val; omega

theorem r2_blk4 (c : Dev nD) (t : Fin cfg2.N) (x : S128x128.Idx) (i : S128x128.Idx)
    (h0 : (i 0).val = win2_4.index t (0 : Fin 2) * 128 + (x 0).val) (h1 : (i 1).val = win2_4.index t (1 : Fin 2) * 128 + (x 1).val) :
    (iblk2 V c 4 t : Vec Ideal S128x128 .f32) x = (V c main_arg7 : S128x128.Idx → EReal) i := by
  unfold iblk2
  rw [View.read_apply]
  show V c main_arg7 _ = V c main_arg7 _
  congr 1
  funext a
  apply Fin.ext
  match a with
  | ⟨0, _⟩ => show win2_4.index t (0 : Fin 2) * 128 + 1 * (x 0).val = (i 0).val; omega
  | ⟨1, _⟩ => show win2_4.index t (1 : Fin 2) * 128 + 1 * (x 1).val = (i 1).val; omega

/-- WHAT POINT `t` WRITES BACK is block `t` of the layer's array, computed from the arrays as the region finds them. -/
theorem r2_flushed_eq (c : Dev nD) (t : Fin cfg2.N) :
    (dat2 V c).flushed 5 t = ((cfg2.win 5).blk t).view.read (Elt Ideal)
      (Cert.Spec.fused (V c main_v39) (V c main_v40) (V c main_v41) (V c main_v13) (V c main_arg7)) := by
  show (cfg2.win 5).cut (grid2.coords t) ((dat2 V c).after 5 t) = _
  rw [after2_5]
  obtain ⟨e00, e01, e10, e11, e20, e21, e30, e31, e40, e41, e50, e51⟩ := r2_idx_facts t
  funext j
  obtain ⟨p, q, rfl⟩ : ∃ (p : Fin 5000) (q : Fin 128), j = ix2 p q := ⟨j 0, j 1, eq_ix2 j⟩
  refine (r2_out_apply (iblk2 V c 0 t) (iblk2 V c 1 t) (iblk2 V c 2 t) (iblk2 V c 3 t) (iblk2 V c 4 t) p q).trans ?_
  rw [View.read_apply]
  refine r2_fused_of _ _ _ _ _ _ (r2_blk3 V c t _ _ ?_ ?_) (r2_blk2 V c t _ _ ?_ ?_) (fun k => r2_blk0 V c t _ _ ?_ ?_)
    (fun k => r2_blk1 V c t _ _ ?_ ?_) (fun k => r2_blk4 V c t _ _ ?_ ?_)
  · show win2_5.index t (0 : Fin 2) * 5000 + 1 * p.val = win2_3.index t (0 : Fin 2) * 5000 + p.val; omega
  · show (0 : Nat) = win2_3.index t (1 : Fin 2) * 1 + 0; omega
  · show (0 : Nat) = win2_2.index t (0 : Fin 2) * 1 + 0; omega
  · show (0 : Nat) = win2_2.index t (1 : Fin 2) * 1 + 0; omega
  · show win2_5.index t (0 : Fin 2) * 5000 + 1 * p.val = win2_0.index t (0 : Fin 2) * 5000 + p.val; omega
  · show k.val = win2_0.index t (1 : Fin 2) * 128 + k.val; omega
  · show (0 : Nat) = win2_1.index t (0 : Fin 2) * 1 + 0; omega
  · show k.val = win2_1.index t (1 : Fin 2) * 128 + k.val; omega
  · show k.val = win2_4.index t (0 : Fin 2) * 128 + k.val; omega
  · show win2_5.index t (1 : Fin 2) * 128 + 1 * q.val = win2_4.index t (1 : Fin 2) * 128 + q.val; omega

/-- An index of the array is in point `t`'s block iff each coordinate is in the block's range on its axis. -/
theorem r2_mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v42).slice (win2_5.rect t)).set ↔ _
  rw [View.set_slice_whole, Rect.mem_set_unit]
  exact Iff.rfl

/-- The twenty row blocks cover the array: row `r` lies in the block of point `r / 5000`, which is written back. -/
theorem r2_cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, e50, e51⟩ := r2_idx_facts t
  refine ⟨t, flush2_5 t, ?_⟩
  rw [r2_mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY after the launch: the layer's array of the five arrays as the region finds them. -/
theorem final2 (c : Dev nD) : (dat2 V c).arrAt 5 cfg2.N
    = Cert.Spec.fused (V c main_v39) (V c main_v40) (V c main_v41) (V c main_v13) (V c main_arg7) :=
  (dat2 V c).arrAt_eq_of_cover 5 (Cert.Spec.fused (V c main_v39) (V c main_v40) (V c main_v41) (V c main_v13) (V c main_arg7))
    (fun t _ => r2_flushed_eq V c t) r2_cover

end Cert.KernelIdeal.Hand

end
-- ==== Proof.Region3ValuePay.lean ====
/-
  The pooling kernel's three pure payloads read at an index, on the extended reals.

  The accumulation payload adds to the accumulator, at graph `g` and feature `k`, the sum over the block's 5000 rows
  `r` of membership(r, g) · (weight(r) · aggregated(r, k) + bias(k)): a product contracting the ROW axis of both
  operands, into a zero accumulator. The initial payload is zero everywhere. The finishing payload divides the
  accumulator's row `g` by graph `g`'s size, multiplies by the last weights and adds the last bias.
-/
import proofs.«421659_j20615843021630_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## The row-contracting product: which operand element each term reads -/

theorem lhs_poolAcc_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_poolAcc_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_poolAcc_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_poolAcc_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The membership block's transpose times the finished rows, into zeros: at `(g, k)` the sum over the rows. -/
theorem poolAcc_matmul_apply (a : FVec Ideal S5000x64 .f32) (b : FVec Ideal S5000x128 .f32) (g : Fin 64) (k : Fin 128) :
    matmul dot_S5000x64_S5000x128_S64x128_0_0_1_1_n_n none a b (constant (F := Ideal) S64x128 .f32 0x00000000#32) (ix2 g k)
      = ∑ r : Fin 5000, a (ix2 r g) * b (ix2 r k) := by
  simp only [matmul]
  rw [Ideal.matmul_constant_zero_apply, ← Equiv.sum_comp (ValueIdx.contrEquiv1 dot_S5000x64_S5000x128_S64x128_0_0_1_1_n_n 5000 rfl rfl).symm]
  refine Finset.sum_congr rfl fun r _ => ?_
  have hk := ValueIdx.contrEquiv1_symm_val dot_S5000x64_S5000x128_S64x128_0_0_1_1_n_n 5000 rfl rfl r
  have el : dot_S5000x64_S5000x128_S64x128_0_0_1_1_n_n.lhsIdx (ix2 g k) ((ValueIdx.contrEquiv1 dot_S5000x64_S5000x128_S64x128_0_0_1_1_n_n 5000 rfl rfl).symm r) = ix2 r g := funext fun a => Fin.ext (by
    match a with
    | ⟨0, _⟩ => exact (lhs_poolAcc_0 _ _).trans hk
    | ⟨1, _⟩ => exact lhs_poolAcc_1 _ _)
  have er : dot_S5000x64_S5000x128_S64x128_0_0_1_1_n_n.rhsIdx (ix2 g k) ((ValueIdx.contrEquiv1 dot_S5000x64_S5000x128_S64x128_0_0_1_1_n_n 5000 rfl rfl).symm r) = ix2 r k := funext fun a => Fin.ext (by
    match a with
    | ⟨0, _⟩ => exact (rhs_poolAcc_0 _ _).trans hk
    | ⟨1, _⟩ => exact rhs_poolAcc_1 _ _)
  rw [el, er]

/-! ## The two column/row broadcasts of the accumulation payload -/

/-- A `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The initial payload is zero everywhere. -/
theorem k3_pay1_apply (j : S64x128.Idx) : k3_pay1 (F := Ideal) j = 0 := by
  unfold k3_pay1
  rw [shapeCast_self]
  exact Ideal.ofBits_zero_f32

/-- The accumulation payload at graph `g`, feature `k`. -/
theorem k3_pay2_apply (v3 : Vec Ideal S5000x1 .f32) (v5 : Vec Ideal S5000x128 .f32) (v9 : Vec Ideal S1x128 .f32)
    (v13 : Vec Ideal S5000x64 .f32) (v15 : Vec Ideal S64x128 .f32) (g : Fin 64) (k : Fin 128) :
    k3_pay2 v3 v5 v9 v13 v15 (ix2 g k)
      = v15 (ix2 g k) + ∑ r : Fin 5000, v13 (ix2 r g) * (v3 (ix2 r 0) * v5 (ix2 r k) + v9 (ix2 0 k)) := by
  unfold k3_pay2
  simp only [shapeCast_self]
  rw [addf_apply, poolAcc_matmul_apply]
  refine congrArg (v15 (ix2 g k) + ·) (Finset.sum_congr rfl fun r _ => ?_)
  rw [addf_apply, mulf_apply, broadcastTo_a1_ab_apply, broadcastTo_1b_ab_apply]

/-! ## The finishing product: which operand element each term reads -/

theorem lhs_poolFin_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem lhs_poolFin_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem rhs_poolFin_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem rhs_poolFin_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The per-graph means times the last weights, into zeros: at `(g, o)` the sum over the features. -/
theorem poolFin_matmul_apply (a : FVec Ideal S64x128 .f32) (b : FVec Ideal S128x10 .f32) (g : Fin 64) (o : Fin 10) :
    matmul dot_S64x128_S128x10_S64x10_1_0_0_1_n_n none a b (constant (F := Ideal) S64x10 .f32 0x00000000#32) (ix2 g o)
      = ∑ k : Fin 128, a (ix2 g k) * b (ix2 k o) := by
  simp only [matmul]
  rw [Ideal.matmul_constant_zero_apply, ← Equiv.sum_comp (ValueIdx.contrEquiv1 dot_S64x128_S128x10_S64x10_1_0_0_1_n_n 128 rfl rfl).symm]
  refine Finset.sum_congr rfl fun k _ => ?_
  have hk := ValueIdx.contrEquiv1_symm_val dot_S64x128_S128x10_S64x10_1_0_0_1_n_n 128 rfl rfl k
  have el : dot_S64x128_S128x10_S64x10_1_0_0_1_n_n.lhsIdx (ix2 g o) ((ValueIdx.contrEquiv1 dot_S64x128_S128x10_S64x10_1_0_0_1_n_n 128 rfl rfl).symm k) = ix2 g k := funext fun a => Fin.ext (by
    match a with
    | ⟨0, _⟩ => exact lhs_poolFin_0 _ _
    | ⟨1, _⟩ => exact (lhs_poolFin_1 _ _).trans hk)
  have er : dot_S64x128_S128x10_S64x10_1_0_0_1_n_n.rhsIdx (ix2 g o) ((ValueIdx.contrEquiv1 dot_S64x128_S128x10_S64x10_1_0_0_1_n_n 128 rfl rfl).symm k) = ix2 k o := funext fun a => Fin.ext (by
    match a with
    | ⟨0, _⟩ => exact (rhs_poolFin_0 _ _).trans hk
    | ⟨1, _⟩ => exact rhs_poolFin_1 _ _)
  rw [el, er]

/-- The finishing payload at graph `g`, output column `o`. -/
theorem k3_pay3_apply (v24 : Vec Ideal S64x128 .f32) (v25 : Vec Ideal S64x1 .f32) (v29 : Vec Ideal S128x10 .f32)
    (v31 : Vec Ideal S1x10 .f32) (g : Fin 64) (o : Fin 10) :
    k3_pay3 v24 v25 v29 v31 (ix2 g o)
      = (∑ k : Fin 128, Ideal.div (v24 (ix2 g k)) (v25 (ix2 g 0)) * v29 (ix2 k o)) + v31 (ix2 0 o) := by
  unfold k3_pay3
  simp only [shapeCast_self]
  rw [addf_apply, poolFin_matmul_apply, broadcastTo_1b_ab_apply]
  refine congrArg (· + v31 (ix2 0 o)) (Finset.sum_congr rfl fun k _ => ?_)
  rw [divf_apply, broadcastTo_a1_ab_apply]

end Cert.KernelIdeal.Hand

end
-- ==== Proof.Region3ValueBlocks.lean ====
/-
  The pooling kernel's blocks read at an index: at point `t` the three row-blocked windows (aggregated rows, weights
  column, membership) read rows `5000 t + r` of their arrays, and the four whole windows (bias row, graph sizes, last
  weights, last bias) read their arrays unchanged.
-/
import proofs.«421659_j20615843021630_2_alg».proof.Proof.Gen.KernelIdeal.Launch
import proofs.«421659_j20615843021630_2_alg».proof.Proof.Gen.KernelIdeal.Skeleton
import proofs.«421659_j20615843021630_2_alg».proof.Proof.Gen.KernelIdeal.Points
import proofs.«421659_j20615843021630_2_alg».proof.Proof.Region3Defs
import Idealize.ShloMosaic.Lib.Pipeline.FrameBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-! ## The block index of each window at each point -/

theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_2 : ∀ t : Fin cfg3.N, win3_2.index t 0 = t.val ∧ win3_2.index t 1 = 0 :=
  (by decide +kernel : ∀ t : Fin grid3.N, win3_2.index t 0 = t.val ∧ win3_2.index t 1 = 0)
theorem idx3_3 : ∀ t : Fin cfg3.N, win3_3.index t 0 = t.val ∧ win3_3.index t 1 = 0 :=
  (by decide +kernel : ∀ t : Fin grid3.N, win3_3.index t 0 = t.val ∧ win3_3.index t 1 = 0)
theorem idx3_1 : ∀ t : Fin cfg3.N, win3_1.index t 0 = 0 ∧ win3_1.index t 1 = 0 :=
  (by decide +kernel : ∀ t : Fin grid3.N, win3_1.index t 0 = 0 ∧ win3_1.index t 1 = 0)
theorem idx3_4 : ∀ t : Fin cfg3.N, win3_4.index t 0 = 0 ∧ win3_4.index t 1 = 0 :=
  (by decide +kernel : ∀ t : Fin grid3.N, win3_4.index t 0 = 0 ∧ win3_4.index t 1 = 0)
theorem idx3_5 : ∀ t : Fin cfg3.N, win3_5.index t 0 = 0 ∧ win3_5.index t 1 = 0 :=
  (by decide +kernel : ∀ t : Fin grid3.N, win3_5.index t 0 = 0 ∧ win3_5.index t 1 = 0)
theorem idx3_6 : ∀ t : Fin cfg3.N, win3_6.index t 0 = 0 ∧ win3_6.index t 1 = 0 :=
  (by decide +kernel : ∀ t : Fin grid3.N, win3_6.index t 0 = 0 ∧ win3_6.index t 1 = 0)

/-! ## The row-blocked windows -/

/-- The aggregated rows' block at point `t` reads rows `5000 t + r`. -/
theorem iblk3_0_apply (c : Dev nD) (t : Fin cfg3.N) (r : Fin 5000) (k : Fin 128) (h : 5000 * t.val + r.val < 100000) :
    (iblk3 V c 0 t : Vec Ideal S5000x128 .f32) (ix2 r k)
      = (V c main_v53 : S100000x128.Idx → EReal) (ix2 ⟨5000 * t.val + r.val, h⟩ k) := by
  unfold iblk3
  rw [View.read_apply]
  show (V c main_v53 : S100000x128.Idx → EReal) _ = V c main_v53 _
  congr 1
  funext a
  apply Fin.ext
  match a with
  | ⟨0, _⟩ => show win3_0.index t 0 * 5000 + 1 * r.val = 5000 * t.val + r.val; rw [(idx3_0 t).1]; omega
  | ⟨1, _⟩ => show win3_0.index t 1 * 128 + 1 * k.val = k.val; rw [(idx3_0 t).2]; omega

/-- The weights column's block at point `t` reads rows `5000 t + r`. -/
theorem iblk3_2_apply (c : Dev nD) (t : Fin cfg3.N) (r : Fin 5000) (k : Fin 1) (h : 5000 * t.val + r.val < 100000) :
    (iblk3 V c 2 t : Vec Ideal S5000x1 .f32) (ix2 r k)
      = (V c main_v13 : S100000x1.Idx → EReal) (ix2 ⟨5000 * t.val + r.val, h⟩ k) := by
  unfold iblk3
  rw [View.read_apply]
  show (V c main_v13 : S100000x1.Idx → EReal) _ = V c main_v13 _
  congr 1
  funext a
  apply Fin.ext
  match a with
  | ⟨0, _⟩ => show win3_2.index t 0 * 5000 + 1 * r.val = 5000 * t.val + r.val; rw [(idx3_2 t).1]; omega
  | ⟨1, _⟩ => show win3_2.index t 1 * 1 + 1 * k.val = k.val; rw [(idx3_2 t).2]; omega

/-- The membership block at point `t` reads rows `5000 t + r`. -/
theorem iblk3_3_apply (c : Dev nD) (t : Fin cfg3.N) (r : Fin 5000) (g : Fin 64) (h : 5000 * t.val + r.val < 100000) :
    (iblk3 V c 3 t : Vec Ideal S5000x64 .f32) (ix2 r g)
      = (V c main_v60 : S100000x64.Idx → EReal) (ix2 ⟨5000 * t.val + r.val, h⟩ g) := by
  unfold iblk3
  rw [View.read_apply]
  show (V c main_v60 : S100000x64.Idx → EReal) _ = V c main_v60 _
  congr 1
  funext a
  apply Fin.ext
  match a with
  | ⟨0, _⟩ => show win3_3.index t 0 * 5000 + 1 * r.val = 5000 * t.val + r.val; rw [(idx3_3 t).1]; omega
  | ⟨1, _⟩ => show win3_3.index t 1 * 64 + 1 * g.val = g.val; rw [(idx3_3 t).2]; omega

/-! ## The whole windows -/

/-- The bias row's window reads the whole row at every point. -/
theorem iblk3_1_eq (c : Dev nD) (t : Fin cfg3.N) : (iblk3 V c 1 t : Vec Ideal S1x128 .f32) = V c main_v65 := by
  funext j
  unfold iblk3
  rw [View.read_apply]
  show (V c main_v65 : S1x128.Idx → EReal) _ = V c main_v65 _
  congr 1
  funext a
  apply Fin.ext
  match a with
  | ⟨0, _⟩ => show win3_1.index t 0 * 1 + 1 * (j 0).val = (j 0).val; rw [(idx3_1 t).1]; omega
  | ⟨1, _⟩ => show win3_1.index t 1 * 128 + 1 * (j 1).val = (j 1).val; rw [(idx3_1 t).2]; omega

/-- The graph sizes' window reads the whole column at every point. -/
theorem iblk3_4_eq (c : Dev nD) (t : Fin cfg3.N) : (iblk3 V c 4 t : Vec Ideal S64x1 .f32) = V c main_v64 := by
  funext j
  unfold iblk3
  rw [View.read_apply]
  show (V c main_v64 : S64x1.Idx → EReal) _ = V c main_v64 _
  congr 1
  funext a
  apply Fin.ext
  match a with
  | ⟨0, _⟩ => show win3_4.index t 0 * 64 + 1 * (j 0).val = (j 0).val; rw [(idx3_4 t).1]; omega
  | ⟨1, _⟩ => show win3_4.index t 1 * 1 + 1 * (j 1).val = (j 1).val; rw [(idx3_4 t).2]; omega

/-- The last weights' window reads the whole matrix at every point. -/
theorem iblk3_5_eq (c : Dev nD) (t : Fin cfg3.N) : (iblk3 V c 5 t : Vec Ideal S128x10 .f32) = V c main_arg9 := by
  funext j
  unfold iblk3
  rw [View.read_apply]
  show (V c main_arg9 : S128x10.Idx → EReal) _ = V c main_arg9 _
  congr 1
  funext a
  apply Fin.ext
  match a with
  | ⟨0, _⟩ => show win3_5.index t 0 * 128 + 1 * (j 0).val = (j 0).val; rw [(idx3_5 t).1]; omega
  | ⟨1, _⟩ => show win3_5.index t 1 * 10 + 1 * (j 1).val = (j 1).val; rw [(idx3_5 t).2]; omega

/-- The last bias' window reads the whole row at every point. -/
theorem iblk3_6_eq (c : Dev nD) (t : Fin cfg3.N) : (iblk3 V c 6 t : Vec Ideal S1x10 .f32) = V c main_v66 := by
  funext j
  unfold iblk3
  rw [View.read_apply]
  show (V c main_v66 : S1x10.Idx → EReal) _ = V c main_v66 _
  congr 1
  funext a
  apply Fin.ext
  match a with
  | ⟨0, _⟩ => show win3_6.index t 0 * 1 + 1 * (j 0).val = (j 0).val; rw [(idx3_6 t).1]; omega
  | ⟨1, _⟩ => show win3_6.index t 1 * 10 + 1 * (j 1).val = (j 1).val; rw [(idx3_6 t).2]; omega

end Cert.KernelIdeal.Hand

end
-- ==== Proof.Region3ValueSum.lean ====
/-
  Regrouping a sum by blocks: the sum over the first `n` blocks of `B` consecutive terms each is the sum of the first
  `B n` terms. Addition on the extended reals is a commutative monoid, so this is all the pooling kernel's
  accumulation across its grid needs.
-/
import Mathlib.Algebra.BigOperators.Group.Finset.Basic
import Mathlib.Algebra.BigOperators.Fin

namespace Cert.KernelIdeal.Hand

open scoped BigOperators

/-- Block by block is term by term. -/
theorem sum_range_blocks {M : Type*} [AddCommMonoid M] (f : ℕ → M) (B : ℕ) :
    ∀ n : ℕ, ∑ t ∈ Finset.range n, ∑ r : Fin B, f (B * t + r.val) = ∑ m ∈ Finset.range (B * n), f m
  | 0 => by simp
  | n + 1 => by
    rw [Finset.sum_range_succ, sum_range_blocks f B n, Nat.mul_succ, Finset.sum_range_add]
    exact congrArg (_ + ·) (Finset.sum_range fun x => f (B * n + x)).symm

/-- The sum of the first `N` terms as a sum over `Fin N`. -/
theorem sum_range_eq_sum_fin {M : Type*} [AddCommMonoid M] (f : ℕ → M) (N : ℕ) :
    ∑ m ∈ Finset.range N, f m = ∑ m : Fin N, f m.val := Finset.sum_range f

end Cert.KernelIdeal.Hand
-- ==== Proof.Region3ValueAcc.lean ====
/-
  The pooling kernel's accumulator across its grid: after point `n` it holds, at graph `g` and feature `k`, the sum
  over the rows below `5000 (n + 1)` of membership · (weight · aggregated + bias); after the last point, the sum over all
  100000 rows.
-/
import proofs.«421659_j20615843021630_2_alg».proof.Proof.Region3ValuePay
import proofs.«421659_j20615843021630_2_alg».proof.Proof.Region3ValueBlocks
import proofs.«421659_j20615843021630_2_alg».proof.Proof.Region3ValueSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- Row `m`'s contribution to graph `g`, feature `k`, of a membership array, a weights column, aggregated rows and a
    bias row (zero past the arrays' end, where nothing is read). -/
def rowTermOf (oh : S100000x64.Idx → EReal) (d : S100000x1.Idx → EReal) (agg : S100000x128.Idx → EReal)
    (b : S1x128.Idx → EReal) (g : Fin 64) (k : Fin 128) (m : ℕ) : EReal :=
  if h : m < 100000 then oh (ix2 ⟨m, h⟩ g) * (d (ix2 ⟨m, h⟩ 0) * agg (ix2 ⟨m, h⟩ k) + b (ix2 0 k)) else 0

/-- The sum of all rows' contributions. -/
def poolSum (oh : S100000x64.Idx → EReal) (d : S100000x1.Idx → EReal) (agg : S100000x128.Idx → EReal)
    (b : S1x128.Idx → EReal) (g : Fin 64) (k : Fin 128) : EReal :=
  ∑ m : Fin 100000, oh (ix2 m g) * (d (ix2 m 0) * agg (ix2 m k) + b (ix2 0 k))

/-- Row `m`'s contribution, of the arrays the region finds. -/
abbrev rowTerm (c : Dev nD) (g : Fin 64) (k : Fin 128) (m : ℕ) : EReal :=
  rowTermOf (V c main_v60) (V c main_v13) (V c main_v53) (V c main_v65) g k m

/-- The accumulation payload of point `t`'s blocks adds that point's 5000 rows' contributions. -/
theorem pay2_at (c : Dev nD) (t : Fin cfg3.N) (v15 : Vec Ideal S64x128 .f32) (g : Fin 64) (k : Fin 128) :
    k3_pay2 (iblk3 V c 2 t) (iblk3 V c 0 t) (iblk3 V c 1 t) (iblk3 V c 3 t) v15 (ix2 g k)
      = v15 (ix2 g k) + ∑ r : Fin 5000, rowTerm V c g k (5000 * t.val + r.val) := by
  refine (k3_pay2_apply (iblk3 V c 2 t) (iblk3 V c 0 t) (iblk3 V c 1 t) (iblk3 V c 3 t) v15 g k).trans ?_
  refine congrArg (v15 (ix2 g k) + ·) (Finset.sum_congr rfl fun r _ => ?_)
  have hN : cfg3.N = 20 := N_3
  have h : 5000 * t.val + r.val < 100000 := by have := t.isLt; have := r.isLt; omega
  have e3 := iblk3_3_apply V c t r g h
  have e2 := iblk3_2_apply V c t r 0 h
  have e0 := iblk3_0_apply V c t r k h
  have e1 := congrFun (iblk3_1_eq V c t) (ix2 0 k)
  unfold rowTerm rowTermOf
  rw [dif_pos h]
  exact congrArg₂ (· * ·) e3 (congrArg₂ (· + ·) (congrArg₂ (· * ·) e2 e0) e1)

/-- After point `n` the accumulator holds the contributions of the first `n + 1` blocks of rows. -/
theorem acc3_apply (c : Dev nD) (g : Fin 64) (k : Fin 128) : ∀ (n : ℕ) (h : n < cfg3.N),
    acc3 V c n h (ix2 g k) = ∑ t ∈ Finset.range (n + 1), ∑ r : Fin 5000, rowTerm V c g k (5000 * t + r.val)
  | 0, h => by
    show k3_pay2 (iblk3 V c 2 ⟨0, h⟩) (iblk3 V c 0 ⟨0, h⟩) (iblk3 V c 1 ⟨0, h⟩) (iblk3 V c 3 ⟨0, h⟩) (k3_pay1 (F := Ideal)) (ix2 g k) = _
    rw [pay2_at, k3_pay1_apply, zero_add]
    exact (Finset.sum_range_one fun t => ∑ r : Fin 5000, rowTerm V c g k (5000 * t + r.val)).symm
  | n + 1, h => by
    show k3_pay2 (iblk3 V c 2 ⟨n + 1, h⟩) (iblk3 V c 0 ⟨n + 1, h⟩) (iblk3 V c 1 ⟨n + 1, h⟩) (iblk3 V c 3 ⟨n + 1, h⟩)
      (acc3 V c n (Nat.lt_of_succ_lt h)) (ix2 g k) = _
    rw [pay2_at, acc3_apply c g k n]
    exact (Finset.sum_range_succ (fun t => ∑ r : Fin 5000, rowTerm V c g k (5000 * t + r.val)) (n + 1)).symm

/-- After the last point: the sum over all the rows. -/
theorem acc3_last (c : Dev nD) (g : Fin 64) (k : Fin 128) (h : 19 < cfg3.N) :
    acc3 V c 19 h (ix2 g k)
      = poolSum (V c main_v60) (V c main_v13) (V c main_v53) (V c main_v65) g k := by
  have e : ∑ t ∈ Finset.range 20, ∑ r : Fin 5000, rowTerm V c g k (5000 * t + r.val)
      = ∑ m ∈ Finset.range 100000, rowTerm V c g k m := sum_range_blocks (rowTerm V c g k) 5000 20
  refine (acc3_apply V c g k 19 h).trans (e.trans ?_)
  rw [sum_range_eq_sum_fin]
  unfold poolSum
  refine Finset.sum_congr rfl fun m _ => ?_
  unfold rowTerm rowTermOf
  rw [dif_pos m.isLt]

end Cert.KernelIdeal.Hand

end
-- ==== Proof.Region3ValueFinal.lean ====
/-
  The value of the pooling launch: its result array after the grid.

  The result window has one block, the whole `[64, 10]` array, and only the last point writes it back, from the
  finishing payload of the accumulator as that point leaves it. The accumulator then holds, at graph `g` and feature `k`,
  the sum over all rows of membership · (weight · aggregated + bias); the finishing payload divides by the graph's size,
  multiplies by the last weights and adds the last bias: the pooled result.
-/
import proofs.«421659_j20615843021630_2_alg».proof.Proof.Region3ValueAcc
import proofs.«421659_j20615843021630_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- What the last point stores in the result window: the pooled result of the arrays the region finds. -/
theorem out3_last (c : Dev nD) (h : 19 < cfg3.N) :
    (out3 V c ⟨19, h⟩ : S64x10.Idx → EReal)
      = Cert.Spec.pool (V c main_v53) (V c main_v65) (V c main_v13) (V c main_v60) (V c main_v64) (V c main_arg9) (V c main_v66) := by
  funext i
  obtain ⟨g, o, rfl⟩ : ∃ (g : Fin 64) (o : Fin 10), i = ix2 g o := ⟨i 0, i 1, eq_ix2 i⟩
  unfold out3
  refine (k3_pay3_apply (acc3 V c 19 h) (iblk3 V c 4 ⟨19, h⟩) (iblk3 V c 5 ⟨19, h⟩) (iblk3 V c 6 ⟨19, h⟩) g o).trans ?_
  have e4 := congrFun (iblk3_4_eq V c ⟨19, h⟩) (ix2 g 0)
  have e6 := congrFun (iblk3_6_eq V c ⟨19, h⟩) (ix2 0 o)
  unfold Cert.Spec.pool
  refine congrArg₂ (· + ·) (Finset.sum_congr rfl fun k _ => ?_) e6
  have e5 := congrFun (iblk3_5_eq V c ⟨19, h⟩) (ix2 k o)
  exact congrArg₂ (· * ·) (congrArg₂ Ideal.div (acc3_last V c g k h) e4) e5

/-- The result window's block index is `(0, 0)` at every point. -/
theorem idx3_7 : ∀ t : Fin cfg3.N, win3_7.index t 0 = 0 ∧ win3_7.index t 1 = 0 :=
  (by decide +kernel : ∀ t : Fin grid3.N, win3_7.index t 0 = 0 ∧ win3_7.index t 1 = 0)

/-- The last point of the grid. -/
abbrev tLast3 : Fin cfg3.N := ⟨19, by decide⟩

/-- The result array after the grid, for any pipeline data whose result window holds, after each point, what the
    point's finishing payload leaves there. -/
theorem final3_of (c : Dev nD) (dat : Dat τ (Elt Ideal) Unit ℕ (UR sig nD τ) ℕ cfg3 c)
    (h7 : ∀ t, dat.after 7 t = out3 V c t) :
    dat.arrAt 7 cfg3.N
      = Cert.Spec.pool (V c main_v53) (V c main_v65) (V c main_v13) (V c main_v60) (V c main_v64) (V c main_arg9) (V c main_v66) := by
  have hN : cfg3.N = 20 := N_3
  refine dat.arrAt_eq_of_cover 7 _ (fun t hf => ?_) fun i => ⟨tLast3, (flush3_7 tLast3).mpr rfl, ?_⟩
  · have ht : t.val = 19 := by have := (flush3_7 t).mp hf; have := t.isLt; omega
    obtain rfl : t = tLast3 := Fin.ext ht
    show (cfg3.win 7).cut (grid3.coords tLast3) (dat.after 7 tLast3) = _
    rw [h7, out3_last V c tLast3.isLt]
    have hz : (fun a => win3_7.index tLast3 a * main_v67.ty.shape.size a) = fun _ => 0 :=
      funext fun a => by
        match a with
        | ⟨0, _⟩ => show win3_7.index tLast3 0 * 64 = 0; rw [(idx3_7 tLast3).1]
        | ⟨1, _⟩ => show win3_7.index tLast3 1 * 10 = 0; rw [(idx3_7 tLast3).2]
    exact (Memref.read_access_unit_zero (Elt Ideal) main_v67 hz (fun a => by rw [congrFun hz a]; simp) _).symm
  · show i ∈ ((View.whole main_v67).slice (win3_7.rect tLast3)).set
    rw [View.set_slice_whole, Rect.mem_set_unit]
    intro a
    have h0 : (i 0 : Nat) < 64 := (i 0).isLt
    have h1 : (i 1 : Nat) < 10 := (i 1).isLt
    match a with
    | ⟨0, _⟩ =>
      show win3_7.index tLast3 0 * 64 ≤ (i 0 : Nat) ∧ (i 0 : Nat) < win3_7.index tLast3 0 * 64 + 64
      rw [(idx3_7 tLast3).1]; omega
    | ⟨1, _⟩ =>
      show win3_7.index tLast3 1 * 10 ≤ (i 1 : Nat) ∧ (i 1 : Nat) < win3_7.index tLast3 1 * 10 + 10
      rw [(idx3_7 tLast3).2]; omega

end Cert.KernelIdeal.Hand

end
-- ==== Proof.Region3Value.lean ====
/-
  The value of the pooling launch, for the launch's own pipeline data: the result array after the grid is the pooled
  result — per graph, the mean over its nodes of the finished last convolution, through the last affine map — of the
  arrays the region finds.
-/
import proofs.«421659_j20615843021630_2_alg».proof.Proof.Region3ValueFinal
import proofs.«421659_j20615843021630_2_alg».proof.Proof.Region3

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- The result array after the pooling launch's grid. -/
theorem final3 (c : Dev nD) :
    (dat3 V c).arrAt 7 cfg3.N
      = Cert.Spec.pool (V c main_v53) (V c main_v65) (V c main_v13) (V c main_v60) (V c main_v64) (V c main_arg9) (V c main_v66) :=
  final3_of V c (dat3 V c) (after3_7 V c)

end Cert.KernelIdeal.Hand

end
-- ==== Proof.LibScatter.lean ====
/-
  Three array operations of graph code read at an index, for any sizes.

  A ROW GATHER (`table[idx]` over a rank-2 table with a column of start indices): result row `e` is the table's row at
  start index `idx[e]`, read as a signed integer and clamped into the table's rows.

  The two SCATTER-ADDs of a segment sum, at the exact instance, where the scatter is each operand element plus the sum
  of the updates that land on it: rows of a rank-2 update array, or the entries of a rank-1 one, each added into the row
  its index names (read signed, NOT clamped); an index that names no row of the operand contributes nothing.
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.LibScatter

open Idealize.ShloMosaic Idealize.ShloMosaic.ValueIdx
open scoped Classical

/-- An entry of a list known to be a singleton is that singleton's element. -/
theorem getElem_of_eq_singleton {β : Type} (l : List β) (b : β) (hl : l = [b]) (k : Nat) (h : k < l.length) :
    l[k]'h = b := by
  subst hl
  have hk : k = 0 := by simpa using h
  subst hk
  rfl

/-- A scatter's update lands on operand element `i` exactly when, on every operand axis, its start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    constructor
    · intro he a
      have hf := Option.some.inj he
      have ha := congrArg (fun g : s.Idx => (g a).val) hf
      simp only at ha
      rw [← ha]
      exact (Int.toNat_of_nonneg (h a).1).symm
    · intro hall
      congr 1
      funext a
      apply Fin.ext
      show (d.start j idx a + (d.window j a : Int)).toNat = (i a).val
      rw [hall a]
      exact Int.toNat_natCast _
  · next h =>
    constructor
    · intro he
      cases he
    · intro hall
      exfalso
      apply h
      intro a
      rw [hall a]
      exact ⟨Int.natCast_nonneg _, by exact_mod_cast (i a).isLt⟩

/-- THE ROW GATHER. With the dimension numbers jnp's `table[idx]` prints for a rank-2 table (the row axis collapsed and
    start-indexed, the column axis the one offset axis, the index vector on axis 1 of an `[M, 1]` column of start indices),
    result element `(e, f)` is the table's element `(row, f)`, `row` the start index of `e` read signed and clamped into
    `[0, N − 1]`. -/
theorem gather_rows_apply {α : Type} {N C M w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (f : Fin C) (hN : 0 < N) :
    Host.gather d x idx (ix2 e f) = x (ix2 (⟨min (idx (ix2 e 0)).toInt.toNat (N - 1), by omega⟩ : Fin N) f) := by
  unfold Host.gather
  congr 1
  funext a
  apply Fin.ext
  have hb : ∀ a : Fin 2, a ∉ d.operandBatchingDims := fun a => by rw [hob]; exact List.not_mem_nil
  -- a result coordinate read at an axis that is a known literal
  have hj0 : ∀ X : Fin 2, X = 0 → ((ix2 e f : (⟨2, ![M, C]⟩ : Shape).Idx) X).val = e.val := fun X hX => by subst hX; rfl
  have hj1 : ∀ X : Fin 2, X = 1 → ((ix2 e f : (⟨2, ![M, C]⟩ : Shape).Idx) X).val = f.val := fun X hX => by subst hX; rfl
  revert a
  refine Fin.forall_fin_two.2 ⟨?_, ?_⟩
  · -- the row axis: collapsed (no offset coordinate), start-indexed and clamped into the rows
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      -- the batch coordinate: the result's axis 0 is its one batch axis, reading the start indices' axis 0
      unfold GatherDims.siIdx
      rw [dif_neg (by rw [hivd]; simp)]
      unfold GatherDims.siCoord
      apply Fin.ext
      simp only [Fin.val_cast]
      refine hj0 _ (getElem_of_eq_singleton _ _ ?_ _ _)
      show (⟨2, ![M, C]⟩ : Shape).kept d.offsetDims = [0]
      rw [hoff]; rfl
    | ⟨1, _⟩ =>
      unfold GatherDims.siIdx
      rw [dif_pos (by rw [hivd])]
      apply Fin.ext
      show List.idxOf (0 : Fin 2) d.startIndexMap = 0
      rw [hsim]; simp
  · -- the column axis: not start-indexed (start 0), the one offset axis
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start,
      dif_neg hm, Nat.zero_add, GatherDims.offCoord, dif_pos hk]
    exact hj1 _ (getElem_of_eq_singleton _ _ hoff _ _)

/-- THE ROW SCATTER-ADD at the exact instance. With the dimension numbers a segment sum of rows prints (the column axis
    the one window axis, the row axis inserted and scatter-indexed, the index vector on axis 1 of an `[M, 1]` column),
    element `(n, f)` of the result is the operand's plus the sum of `upd (e, f)` over the update rows `e` whose index,
    read signed, is `n`. -/
theorem scatterAdd_rows_apply {N C M w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![M, 1]⟩ w) (upd : (⟨2, ![M, C]⟩ : Shape).Idx → EReal)
    (n : Fin N) (f : Fin C) :
    Host.scatterAdd (F := Ideal) (φ := .f32) d x idx upd (ix2 n f)
      = x (ix2 n f) + ∑ e ∈ Finset.univ.filter (fun e : Fin M => (idx (ix2 e 0)).toInt = (n.val : Int)), upd (ix2 e f) := by
  -- where update element `j` lands, axis by axis
  have hstart0 : ∀ j : (⟨2, ![M, C]⟩ : Shape).Idx, d.start j idx 0 = (idx (ix2 (j 0) 0)).toInt := by
    intro j
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have hj0 : ∀ X : Fin 2, X = 0 → (j X).val = (j 0).val := fun X hX => by subst hX; rfl
      refine hj0 _ (getElem_of_eq_singleton _ _ ?_ _ _)
      show (⟨2, ![M, C]⟩ : Shape).kept d.updateWindowDims = [0]
      rw [huw]; rfl
    | ⟨1, _⟩ =>
      unfold ScatterDims.siIdx
      rw [dif_pos (by rw [hivd])]
      apply Fin.ext
      show List.idxOf (0 : Fin 2) d.scatterDimsToOperandDims = 0
      rw [hsd]; simp
  have hwin0 : ∀ j : (⟨2, ![M, C]⟩ : Shape).Idx, d.window j 0 = 0 := by
    intro j
    have hk : (0 : Fin 2) ∉ d.sKept := by
      show (0 : Fin 2) ∉ (⟨2, ![N, C]⟩ : Shape).kept d.insertedWindowDims
      rw [hiw]; simp [Shape.kept, List.finRange]
    unfold ScatterDims.window
    rw [dif_neg hk]
  have hstart1 : ∀ j : (⟨2, ![M, C]⟩ : Shape).Idx, d.start j idx 1 = 0 := by
    intro j
    have hm : (1 : Fin 2) ∉ d.scatterDimsToOperandDims := by rw [hsd]; simp
    unfold ScatterDims.start
    rw [dif_neg hm]
  have hwin1 : ∀ j : (⟨2, ![M, C]⟩ : Shape).Idx, d.window j 1 = (j 1).val := by
    intro j
    have hk : (1 : Fin 2) ∈ d.sKept := by
      show (1 : Fin 2) ∈ (⟨2, ![N, C]⟩ : Shape).kept d.insertedWindowDims
      rw [hiw]; simp [Shape.kept, List.finRange]
    unfold ScatterDims.window
    rw [dif_pos hk]
    have hj1 : ∀ X : Fin 2, X = 1 → (j X).val = (j 1).val := fun X hX => by subst hX; rfl
    exact hj1 _ (getElem_of_eq_singleton _ _ huw _ _)
  -- the index characterisation
  have hchar : ∀ j : (⟨2, ![M, C]⟩ : Shape).Idx,
      d.resultIdx? j idx = some (ix2 n f) ↔ (idx (ix2 (j 0) 0)).toInt = (n.val : Int) ∧ (j 1).val = f.val := by
    intro j
    rw [resultIdx?_eq_some_iff, Fin.forall_fin_two, hstart0, hwin0, hstart1, hwin1]
    show (idx (ix2 (j 0) 0)).toInt + ((0 : Nat) : Int) = (n.val : Int) ∧ (0 : Int) + ((j 1).val : Int) = (f.val : Int) ↔ _
    constructor
    · rintro ⟨h0, h1⟩
      exact ⟨by omega, by omega⟩
    · rintro ⟨h0, h1⟩
      exact ⟨by omega, by omega⟩
  simp only [Host.scatterAdd, Ideal.hostScatterAdd_def, Ideal.hostScatterAdd]
  congr 1
  refine Finset.sum_bij' (fun j _ => (j 0 : Fin M)) (fun e _ => ix2 e f) ?_ ?_ ?_ ?_ ?_
  · intro j hj
    exact Finset.mem_filter.2 ⟨Finset.mem_univ _, ((hchar j).1 (Finset.mem_filter.1 hj).2).1⟩
  · intro e he
    exact Finset.mem_filter.2 ⟨Finset.mem_univ _, (hchar (ix2 e f)).2 ⟨(Finset.mem_filter.1 he).2, rfl⟩⟩
  · intro j hj
    have h1 : j 1 = f := Fin.ext ((hchar j).1 (Finset.mem_filter.1 hj).2).2
    show ix2 (j 0) f = j
    rw [← h1]
    exact (eq_ix2 j).symm
  · intro e he
    rfl
  · intro j hj
    have h1 : j 1 = f := Fin.ext ((hchar j).1 (Finset.mem_filter.1 hj).2).2
    show upd j = upd (ix2 (j 0) f)
    rw [← h1]
    exact congrArg upd (eq_ix2 j)

/-- THE ENTRY SCATTER-ADD at the exact instance (a segment sum of a rank-1 array: no window axis). Element `n` of the
    result is the operand's plus the sum of `upd e` over the entries `e` whose index, read signed, is `n`. -/
theorem scatterAdd_vec_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ w) (upd : (⟨1, ![M]⟩ : Shape).Idx → EReal) (n : Fin N) :
    Host.scatterAdd (F := Ideal) (φ := .f32) d x idx upd (ix1 n)
      = x (ix1 n) + ∑ e ∈ Finset.univ.filter (fun e : Fin M => (idx (ix2 e 0)).toInt = (n.val : Int)), upd (ix1 e) := by
  -- where update entry `j` lands on the operand's one axis
  have hstart0 : ∀ j : (⟨1, ![M]⟩ : Shape).Idx, d.start j idx 0 = (idx (ix2 (j 0) 0)).toInt := by
    intro j
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have hj0 : ∀ X : Fin 1, (j X).val = (j 0).val := fun X => by
        have hX : X = 0 := Subsingleton.elim _ _
        subst hX; rfl
      exact hj0 _
    | ⟨1, _⟩ =>
      unfold ScatterDims.siIdx
      rw [dif_pos (by rw [hivd])]
      apply Fin.ext
      show List.idxOf (0 : Fin 1) d.scatterDimsToOperandDims = 0
      rw [hsd]; simp
  have hwin0 : ∀ j : (⟨1, ![M]⟩ : Shape).Idx, d.window j 0 = 0 := by
    intro j
    have hk : (0 : Fin 1) ∉ d.sKept := by
      show (0 : Fin 1) ∉ (⟨1, ![N]⟩ : Shape).kept d.insertedWindowDims
      rw [hiw]; simp [Shape.kept, List.finRange]
    unfold ScatterDims.window
    rw [dif_neg hk]
  -- the index characterisation
  have hchar : ∀ j : (⟨1, ![M]⟩ : Shape).Idx,
      d.resultIdx? j idx = some (ix1 n) ↔ (idx (ix2 (j 0) 0)).toInt = (n.val : Int) := by
    intro j
    rw [resultIdx?_eq_some_iff]
    constructor
    · intro h
      have h0 := h 0
      rw [hstart0, hwin0] at h0
      have h0' : (idx (ix2 (j 0) 0)).toInt + ((0 : Nat) : Int) = (n.val : Int) := h0
      omega
    · intro h a
      have ha : a = 0 := Subsingleton.elim _ _
      subst ha
      rw [hstart0, hwin0]
      show (idx (ix2 (j 0) 0)).toInt + ((0 : Nat) : Int) = (n.val : Int)
      omega
  simp only [Host.scatterAdd, Ideal.hostScatterAdd_def, Ideal.hostScatterAdd]
  congr 1
  refine Finset.sum_bij' (fun j _ => (j 0 : Fin M)) (fun e _ => ix1 e) ?_ ?_ ?_ ?_ ?_
  · intro j hj
    exact Finset.mem_filter.2 ⟨Finset.mem_univ _, (hchar j).1 (Finset.mem_filter.1 hj).2⟩
  · intro e he
    exact Finset.mem_filter.2 ⟨Finset.mem_univ _, (hchar (ix1 e)).2 (Finset.mem_filter.1 he).2⟩
  · intro j hj
    exact (eq_ix1 j).symm
  · intro e he
    rfl
  · intro j hj
    exact congrArg upd (eq_ix1 j)

end Cert.LibScatter

end
-- ==== Proof.Glue.lean ====
/-
  What the stretches of array operations between the kernel program's launches compute, at the exact instance, read off
  ANY buffer contents `W` the stretch is entered from: the edge endpoints split out of the edge list, the node weights
  (the inverse square root of the in-degree), between two launches the aggregation of the scaled rows along the edges
  plus each node's own row, the bias vectors and slopes laid out as the rows the launches read, the one-hot membership
  array and the graph sizes.
-/
import proofs.«421659_j20615843021630_2_alg».proof.Proof.Gen.KernelIdeal.Launch
import proofs.«421659_j20615843021630_2_alg».proof.Proof.Spec
import proofs.«421659_j20615843021630_2_alg».proof.Proof.LibScatter
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate

noncomputable section

namespace Cert.KernelIdeal.Glue

open Cert.KernelIdeal Cert.KernelIdeal.Gen
open Idealize.ShloMosaic Idealize.ShloMosaic.TcCoe Idealize.ShloMosaic.ValueIdx
open Idealize.SL.Sem

-- the buffer contents a stretch is entered from
variable (W : Valuation τ sig (Elt Ideal))

/-! ## Sums along the edges, at any sizes

The scatter-adds and the count are read here at ARBITRARY extents, against an arbitrary predicate and summand that
agree with the program's entry by entry; the stretches instantiate them at the program's extents. -/

section AnySize
open scoped BigOperators

/-- Rows added into an all-zero array at the rows their index words name, plus an array `Hs`: at `(n, f)` the sum of
    the summand `G` over the entries the predicate `Q` selects, plus `Hs (n, f)`. -/
theorem scatterRows_read {N C M w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (X : FVec Ideal ⟨2, ![N, C]⟩ .f32) (IDX : IVec ⟨2, ![M, 1]⟩ w) (UPD : FVec Ideal ⟨2, ![M, C]⟩ .f32)
    (Hs : FVec Ideal ⟨2, ![N, C]⟩ .f32) (n : Fin N) (f : Fin C)
    (Q : Fin M → Prop) {dQ : DecidablePred Q} (G : Fin M → EReal)
    (hX : X (ix2 n f) = 0) (hQ : ∀ e, (IDX (ix2 e 0)).toInt = (n.val : Int) ↔ Q e) (hG : ∀ e, UPD (ix2 e f) = G e) :
    addf (Host.scatterAdd (F := Ideal) (φ := .f32) d X IDX UPD) Hs (ix2 n f)
      = (∑ e ∈ Finset.univ.filter Q, G e) + Hs (ix2 n f) := by
  rw [addf_apply, Cert.LibScatter.scatterAdd_rows_apply d huw hiw hsd hivd X IDX UPD n f, hX, zero_add,
    Finset.sum_congr (Finset.filter_congr fun e _ => hQ e) (fun e _ => hG e)]

/-- Ones added into an all-zero vector at the entries their index words name: at `n` the number of entries the
    predicate `Q` selects. -/
theorem scatterOnes_read {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (X : FVec Ideal ⟨1, ![N]⟩ .f32) (IDX : IVec ⟨2, ![M, 1]⟩ w) (UPD : FVec Ideal ⟨1, ![M]⟩ .f32) (n : Fin N)
    (Q : Fin M → Prop) {dQ : DecidablePred Q}
    (hX : X (ix1 n) = 0) (hQ : ∀ e, (IDX (ix2 e 0)).toInt = (n.val : Int) ↔ Q e) (hU : ∀ e, UPD (ix1 e) = 1) :
    Host.scatterAdd (F := Ideal) (φ := .f32) d X IDX UPD (ix1 n) = ∑ _e ∈ Finset.univ.filter Q, (1 : EReal) := by
  rw [Cert.LibScatter.scatterAdd_vec_apply d huw hiw hsd hivd X IDX UPD n, hX, zero_add,
    Finset.sum_congr (Finset.filter_congr fun e _ => hQ e) (fun e _ => hU e)]

/-- The inverse square root of (a count plus one, never below one), elementwise. -/
theorem rsqrtDeg_apply {s : Shape} (S one₁ one₂ : s.Idx → EReal) (i : s.Idx) :
    Host.rsqrt (F := Ideal) (φ := .f32) (maximumf (F := Ideal) (φ := .f32) (addf (F := Ideal) (φ := .f32) S one₁) one₂) i = Ideal.rsqrt (max (S i + one₁ i) (one₂ i)) := rfl

/-- The host's float sum over the rows of a rectangle whose column `g` is the indicator of `Q`, from zero: the number
    of rows `Q` selects. -/
theorem countRows_read {n m : Nat} (h' : (⟨2, ![n, m]⟩ : Shape).ReducesTo [0] ⟨1, ![m]⟩)
    (h : (⟨2, ![n, m]⟩ : Shape).Reduces [0] ⟨1, ![m]⟩) (x : FVec Ideal ⟨2, ![n, m]⟩ .f32) (init : EReal) (g : Fin m)
    (Q : Fin n → Prop) {dQ : DecidablePred Q} (hinit : init = 0) (hx : ∀ k : Fin n, x (ix2 k g) = if Q k then 1 else 0) :
    Ideal.hostReduceAdd h' x init (ix1 g) = ∑ _k ∈ Finset.univ.filter Q, (1 : EReal) := by
  rw [Ideal.hostReduceAdd_single h' h x init (ix1 g), hinit, zero_add, Finset.sum_filter]
  refine Finset.sum_congr rfl fun k _ => ?_
  refine Eq.trans (congrArg x ?_) (hx k)
  funext a
  match a with
  | ⟨0, _⟩ => exact Fin.ext rfl
  | ⟨1, _⟩ => exact Fin.ext rfl

/-- A maximum at an index is the maximum of the elements. -/
theorem maxf_apply {s : Shape} (a b : s.Idx → EReal) (i : s.Idx) :
    maximumf (F := Ideal) (φ := .f32) a b i = max (a i) (b i) := rfl

/-- The host's float sum is the exact instance's, from the initial value's one element. -/
theorem reduceAdd_ideal {s t u : Shape} {axes : List (Fin s.rank)} (x : FVec Ideal s .f32) (init : u.Idx → Ideal .f32)
    (h : s.ReducesTo axes t) (hu : 0 < u.numel) :
    Host.reduceAdd x init h hu = Ideal.hostReduceAdd h x (init (Shape.Idx.first hu)) := rfl

end AnySize

/-! ## Layout operations of the stretches, read at an index -/

/-- Row `r` of a two-row array of words, sliced out and flattened, reads the array at `(r, i)`. -/
theorem edgeRow_apply (r : Nat) (hr : r < 2) (x : S2x1600000.Idx → BitVec 32)
    (hs : S2x1600000.Slices ![r, 0] S1x1600000) (hc : S1x1600000.ShapeCasts S1600000) (i : S1600000.Idx) :
    shapeCast S1600000 (extractStridedSlice S1x1600000 ![r, 0] x hs) hc i = x (ix2 ⟨r, hr⟩ (i 0)) := by
  refine (shapeCast_apply _ hc i (ix2 0 (i 0)) ?_).trans ?_
  · rewrite [Shape.rowMajor_val_two, Shape.rowMajor_val_one]
    show 0 * 1600000 + (i 0).val = (i 0).val
    omega
  · exact extractStridedSlice_apply ![r, 0] x hs (ix2 0 (i 0)) (ix2 ⟨r, hr⟩ (i 0)) (fun a => match a with
      | ⟨0, _⟩ => by show r = r + 0; omega
      | ⟨1, _⟩ => by show (i 0).val = 0 + (i 0).val; omega)

/-- A flat array laid out as one row reads its entry at the column. -/
theorem toRow_apply {α : Type} {n : Nat} (b : (⟨1, ![n]⟩ : Shape).Idx → α)
    (hc : (⟨1, ![n]⟩ : Shape).ShapeCasts ⟨2, ![1, n]⟩) (i : (⟨2, ![1, n]⟩ : Shape).Idx) :
    shapeCast ⟨2, ![1, n]⟩ b hc i = b (ix1 (i 1)) := by
  refine shapeCast_apply b hc i (ix1 (i 1)) ?_
  rewrite [Shape.rowMajor_val_two, Shape.rowMajor_val_one]
  have h0 : (i 0).val = 0 := by have h : (i 0).val < 1 := (i 0).isLt; omega
  show (i 1).val = (i 0).val * n + (i 1).val
  rw [h0]; omega

/-- A flat array laid out as one column reads its entry at the row. -/
theorem toCol_apply {α : Type} {n : Nat} (b : (⟨1, ![n]⟩ : Shape).Idx → α)
    (hc : (⟨1, ![n]⟩ : Shape).ShapeCasts ⟨2, ![n, 1]⟩) (i : (⟨2, ![n, 1]⟩ : Shape).Idx) :
    shapeCast ⟨2, ![n, 1]⟩ b hc i = b (ix1 (i 0)) := by
  refine shapeCast_apply b hc i (ix1 (i 0)) ?_
  rewrite [Shape.rowMajor_val_two, Shape.rowMajor_val_one]
  have h1 : (i 1).val = 0 := by have h : (i 1).val < 1 := (i 1).isLt; omega
  show (i 0).val = (i 0).val * 1 + (i 1).val
  rw [h1]; omega

/-! ## Aggregation along the edges -/

/-- A flat array of words as a column reads its entry at the row. -/
theorem wordCol_apply {α : Type} (h : S1600000.BroadcastsInDim S1600000x1 (![0] : Fin 1 → Fin S1600000x1.rank))
    (v : S1600000.Idx → α) (i : S1600000x1.Idx) :
    broadcastInDim S1600000x1 ![0] h v i = v (ix1 (i 0)) :=
  broadcastInDim_apply _ h v i (ix1 (i 0)) (fun a => match a with
    | ⟨0, _⟩ => by show (i 0).val = if (1600000 : Nat) = 1 then 0 else (i 0).val; rw [if_neg (by decide)])

/-- The all-zero array the rows are added into. -/
def zeroRows : S100000x128.Idx → EReal :=
  broadcastInDim S100000x128 ![] bcast_S_S100000x128 (constant (F := Ideal) S_ .f32 0x00000000#32)
theorem zeroRows_apply (i : S100000x128.Idx) : zeroRows i = 0 := Ideal.ofBits_zero_f32

/-- The destination words as the column of row indices of a scatter. -/
def dstCol (dst : S1600000.Idx → BitVec 32) : S1600000x1.Idx → BitVec 32 :=
  broadcastInDim S1600000x1 ![0] bcast_S1600000_S1600000x1_0 dst
theorem dstCol_apply (dst : S1600000.Idx → BitVec 32) (e : Fin 1600000) : dstCol dst (ix2 e 0) = dst (ix1 e) :=
  wordCol_apply _ dst (ix2 e 0)

/-- A destination word, read signed, is `n` exactly when the edge adds into node `n`. -/
theorem dstCol_iff (ei : Cert.Spec.Words2 2 1600000) (n : Fin 100000) (e : Fin 1600000) :
    (dstCol (fun i : S1600000.Idx => ei (ix2 1 (i 0))) (ix2 e 0)).toInt = (n.val : Int) ↔ Cert.Spec.dstTo ei e = some n :=
  (Iff.of_eq (congrArg (fun w : BitVec 32 => w.toInt = (n.val : Int))
    (dstCol_apply (fun i : S1600000.Idx => ei (ix2 1 (i 0))) e))).trans (Cert.Spec.rowOf?_eq_some (ei (ix2 1 e)) n).symm

/-- The source words, a negative one wrapped once by the number of nodes, as the column of start indices of the gather. -/
def srcCol (src : S1600000.Idx → BitVec 32) : S1600000x1.Idx → BitVec 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)
theorem srcCol_apply (src : S1600000.Idx → BitVec 32) (e : Fin 1600000) :
    srcCol src (ix2 e 0)
      = Scalar.select (IntOp.cmpi .slt (src (ix1 e)) 0#32) (IntOp.addi (src (ix1 e)) 100000#32) (src (ix1 e)) :=
  wordCol_apply _ _ (ix2 e 0)

/-- The gathered rows. -/
def gathered (Hs : S100000x128.Idx → EReal) (src : S1600000.Idx → BitVec 32) : S1600000x128.Idx → EReal :=
  Host.gather gather_S100000x128_S1600000x1_S1600000x128_1_0_n_n_0_1_1128 Hs (srcCol src)
theorem gathered_apply (Hs : S100000x128.Idx → EReal) (src : S1600000.Idx → BitVec 32) (e : Fin 1600000) (f : Fin 128) :
    gathered Hs src (ix2 e f)
      = Hs (ix2 (⟨min (srcCol src (ix2 e 0)).toInt.toNat (100000 - 1), by omega⟩ : Fin 100000) f) :=
  Cert.LibScatter.gather_rows_apply gather_S100000x128_S1600000x1_S1600000x128_1_0_n_n_0_1_1128
    rfl rfl rfl rfl rfl Hs (srcCol src) e f (by omega)

/-- The gathered row of edge `e` is the row its source word names: wrapped once if negative, then clamped. -/
theorem gathered_srcRow (ei : Cert.Spec.Words2 2 1600000) (Hs : S100000x128.Idx → EReal) (e : Fin 1600000) (f : Fin 128) :
    gathered Hs (fun i : S1600000.Idx => ei (ix2 0 (i 0))) (ix2 e f) = Hs (ix2 (Cert.Spec.srcRow ei e) f) := by
  refine (gathered_apply Hs _ e f).trans (congrArg (fun r : Fin 100000 => Hs (ix2 r f)) (Fin.ext ?_))
  show min (srcCol (fun i : S1600000.Idx => ei (ix2 0 (i 0))) (ix2 e 0)).toInt.toNat (100000 - 1)
    = min (Cert.Spec.srcWord ei e).toInt.toNat 99999
  rw [srcCol_apply]
  rfl

/-- The array operations between two launches, as one term over the rows `Hs` the launch left and the two word
    arrays of edge endpoints: wrap a negative source word once, gather the rows, add each into the row its
    destination word names, and add the node's own row. -/
def aggTerm (Hs : S100000x128.Idx → EReal) (src dst : S1600000.Idx → BitVec 32) : S100000x128.Idx → EReal :=
  addf (F := Ideal) (φ := .f32)
    (Host.scatterAdd (F := Ideal) (φ := .f32) scatter_S100000x128_S1600000x1_S1600000x128_1_0_0_1
      zeroRows (dstCol dst) (gathered Hs src))
    Hs

/-- That term is the aggregation: at node `n`, the sum of the rows its in-edges read, plus its own row. -/
theorem aggTerm_eq (ei : Cert.Spec.Words2 2 1600000) (Hs : S100000x128.Idx → EReal) :
    aggTerm Hs (fun i : S1600000.Idx => ei (ix2 0 (i 0))) (fun i : S1600000.Idx => ei (ix2 1 (i 0)))
      = Cert.Spec.aggK ei Hs := by
  funext i
  obtain ⟨n, f, rfl⟩ : ∃ n f, i = ix2 n f := ⟨i 0, i 1, eq_ix2 i⟩
  rw [Cert.Spec.aggK_eq]
  unfold aggTerm
  exact scatterRows_read scatter_S100000x128_S1600000x1_S1600000x128_1_0_0_1 rfl rfl rfl rfl
    zeroRows _ _ Hs n f (fun e => Cert.Spec.dstTo ei e = some n) (fun e => Hs (ix2 (Cert.Spec.srcRow ei e) f))
    (zeroRows_apply _) (dstCol_iff ei n) (fun e => gathered_srcRow ei Hs e f)

/-! ## Stretch 0: the node weights -/

/-- The all-zero vector the ones are added into, and the all-one vectors. -/
def zeroVec : S100000.Idx → EReal :=
  broadcastInDim S100000 ![] bcast_S_S100000 (constant (F := Ideal) S_ .f32 0x00000000#32)
theorem zeroVec_apply (i : S100000.Idx) : zeroVec i = 0 := Ideal.ofBits_zero_f32
def oneVec : S100000.Idx → EReal :=
  broadcastInDim S100000 ![] bcast_S_S100000 (constant (F := Ideal) S_ .f32 0x3F800000#32)
theorem oneVec_apply (i : S100000.Idx) : oneVec i = 1 := Cert.Spec.ofBits_one_f32
def oneEdges : S1600000.Idx → EReal :=
  broadcastInDim S1600000 ![] bcast_S_S1600000 (constant (F := Ideal) S_ .f32 0x3F800000#32)
theorem oneEdges_apply (i : S1600000.Idx) : oneEdges i = 1 := Cert.Spec.ofBits_one_f32

/-- The first stretch's weight column as one term over the destination words: count the edges into each node,
    add the node's own loop, keep it at least one, take the inverse square root, lay it out as a column. -/
def degTerm (dst : S1600000.Idx → BitVec 32) : S100000x1.Idx → EReal :=
  shapeCast S100000x1
    (Host.rsqrt (F := Ideal) (φ := .f32) (maximumf (F := Ideal) (φ := .f32) (addf (F := Ideal) (φ := .f32)
      (Host.scatterAdd (F := Ideal) (φ := .f32) scatter_S100000_S1600000x1_S1600000_n_0_0_1 zeroVec (dstCol dst) oneEdges)
      oneVec) oneVec))
    shapeCasts_S100000_S100000x1

theorem rsqrt_congr (a b o1 o2 : EReal) (hab : a = b) (h1 : o1 = 1) (h2 : o2 = 1) :
    Ideal.rsqrt (max (a + o1) o2) = Ideal.rsqrt (max (b + 1) 1) := by subst hab h1 h2; rfl

/-- That term is the weight column. -/
theorem degTerm_eq (ei : Cert.Spec.Words2 2 1600000) :
    degTerm (fun i : S1600000.Idx => ei (ix2 1 (i 0))) = Cert.Spec.dinvK ei := by
  funext i
  unfold degTerm
  refine (toCol_apply _ _ i).trans ?_
  refine (rsqrtDeg_apply _ _ _ (ix1 (i 0))).trans ?_
  unfold Cert.Spec.dinvK Cert.Spec.rOf
  exact rsqrt_congr _ _ _ _
    (scatterOnes_read scatter_S100000_S1600000x1_S1600000_n_0_0_1 rfl rfl rfl rfl zeroVec _ oneEdges (i 0)
      (fun e => Cert.Spec.dstTo ei e = some (i 0)) (zeroVec_apply _) (dstCol_iff ei (i 0)) (fun e => oneEdges_apply _))
    (oneVec_apply _) (oneVec_apply _)

theorem after0_v13 : StableHlo.after hostOps0 W (Proc.devRef .tc main_v13)
    = degTerm (shapeCast S1600000 (extractStridedSlice S1x1600000 ![1, 0]
        (W (Proc.devRef .tc main_arg11) : S2x1600000.Idx → BitVec 32) slices_S2x1600000_S1x1600000_1_0)
        shapeCasts_S1x1600000_S1600000) := by
  after_results; rfl

/-! ## What the aggregation stretches leave, as the aggregation term -/

theorem after1_v25 : StableHlo.after hostOps1 W (Proc.devRef .tc main_v25)
    = aggTerm (W (Proc.devRef .tc main_v14)) (W (Proc.devRef .tc main_v1)) (W (Proc.devRef .tc main_v3)) := by
  after_results; rfl
theorem after2_v39 : StableHlo.after hostOps2 W (Proc.devRef .tc main_v39)
    = aggTerm (W (Proc.devRef .tc main_v28)) (W (Proc.devRef .tc main_v1)) (W (Proc.devRef .tc main_v3)) := by
  after_results; rfl
theorem after3_v53 : StableHlo.after hostOps3 W (Proc.devRef .tc main_v53)
    = aggTerm (W (Proc.devRef .tc main_v42)) (W (Proc.devRef .tc main_v1)) (W (Proc.devRef .tc main_v3)) := by
  after_results; rfl

/-- The aggregation term over the two endpoint arrays the first stretch left. -/
theorem aggTerm_of (ei : Cert.Spec.Words2 2 1600000) (Hs : S100000x128.Idx → EReal) (src dst : S1600000.Idx → BitVec 32)
    (h1 : src = fun i : S1600000.Idx => ei (ix2 0 (i 0))) (h3 : dst = fun i : S1600000.Idx => ei (ix2 1 (i 0))) :
    aggTerm Hs src dst = Cert.Spec.aggK ei Hs := by
  subst h1 h3; exact aggTerm_eq ei Hs

/-! ## Stretch 3, second half: membership and graph sizes -/

/-- A one-bit word converted unsigned is `1` or `0`. -/
theorem uitofp_one : FloatOps.uitofp (F := Ideal) .f32 (1#1 : BitVec 1) = (1 : EReal) := by
  show (((1#1 : BitVec 1).toNat : ℝ) : EReal) = 1
  simp
theorem uitofp_zero : FloatOps.uitofp (F := Ideal) .f32 (0#1 : BitVec 1) = (0 : EReal) := by
  show (((0#1 : BitVec 1).toNat : ℝ) : EReal) = 0
  simp

/-- A word equals the word of a small natural exactly when its signed value is that natural. -/
theorem eq_ofNat_iff (w : BitVec 32) (g : Nat) (hg : g < 2 ^ 31) : w = BitVec.ofNat 32 g ↔ w.toInt = (g : Int) := by
  constructor
  · intro h; subst h; exact StableHlo.Predicate.toInt_ofNat_small g hg
  · intro h; exact BitVec.eq_of_toInt_eq (h.trans (StableHlo.Predicate.toInt_ofNat_small g hg).symm)

/-- The membership array as one term over the graph words: each node's word against each graph's number. -/
def onehotTerm (bt : S100000.Idx → BitVec 32) : S100000x64.Idx → EReal :=
  uitofp (F := Ideal) .f32
    (cmpi .eq
      (broadcastInDim S100000x64 ![0, 1] bcast_S100000x1_S100000x64_0_1
        (broadcastInDim S100000x1 ![0] bcast_S100000_S100000x1_0 bt))
      (broadcastInDim S100000x64 ![0, 1] bcast_S1x64_S100000x64_0_1
        (broadcastInDim S1x64 ![1] bcast_S64_S1x64_1 (iotaInDim S64 32 0))))

/-- At `(n, g)` it compares node `n`'s word with the word of `g`. -/
theorem onehotTerm_apply (bt : S100000.Idx → BitVec 32) (n : Fin 100000) (g : Fin 64) :
    onehotTerm bt (ix2 n g)
      = FloatOps.uitofp (F := Ideal) .f32 (IntOp.cmpi .eq (bt (ix1 n)) (BitVec.ofNat 32 g.val)) := by
  show FloatOps.uitofp (F := Ideal) .f32 (IntOp.cmpi .eq
      (broadcastInDim S100000x64 ![0, 1] bcast_S100000x1_S100000x64_0_1
        (broadcastInDim S100000x1 ![0] bcast_S100000_S100000x1_0 bt) (ix2 n g))
      (broadcastInDim S100000x64 ![0, 1] bcast_S1x64_S100000x64_0_1
        (broadcastInDim S1x64 ![1] bcast_S64_S1x64_1 (iotaInDim S64 32 0)) (ix2 n g))) = _
  have eL : broadcastInDim S100000x64 ![0, 1] bcast_S100000x1_S100000x64_0_1
        (broadcastInDim S100000x1 ![0] bcast_S100000_S100000x1_0 bt) (ix2 n g) = bt (ix1 n) := by
    refine (broadcastInDim_apply _ bcast_S100000x1_S100000x64_0_1 _ (ix2 n g) (ix2 n 0) (fun a => match a with
      | ⟨0, _⟩ => by show n.val = if (100000 : Nat) = 1 then 0 else n.val; rw [if_neg (by decide)]
      | ⟨1, _⟩ => by show (0 : Nat) = if (1 : Nat) = 1 then 0 else g.val; rw [if_pos rfl])).trans ?_
    exact broadcastInDim_apply _ bcast_S100000_S100000x1_0 bt (ix2 n 0) (ix1 n) (fun a => match a with
      | ⟨0, _⟩ => by show n.val = if (100000 : Nat) = 1 then 0 else n.val; rw [if_neg (by decide)])
  have eR : broadcastInDim S100000x64 ![0, 1] bcast_S1x64_S100000x64_0_1
        (broadcastInDim S1x64 ![1] bcast_S64_S1x64_1 (iotaInDim S64 32 0)) (ix2 n g) = BitVec.ofNat 32 g.val := by
    refine (broadcastInDim_apply _ bcast_S1x64_S100000x64_0_1 _ (ix2 n g) (ix2 0 g) (fun a => match a with
      | ⟨0, _⟩ => by show (0 : Nat) = if (1 : Nat) = 1 then 0 else n.val; rw [if_pos rfl]
      | ⟨1, _⟩ => by show g.val = if (64 : Nat) = 1 then 0 else g.val; rw [if_neg (by decide)])).trans ?_
    exact broadcastInDim_apply _ bcast_S64_S1x64_1 (iotaInDim S64 32 0) (ix2 0 g) (ix1 g) (fun a => match a with
      | ⟨0, _⟩ => by show g.val = if (64 : Nat) = 1 then 0 else g.val; rw [if_neg (by decide)])
  rw [eL, eR]

/-- It is `1` where node `n`'s word names graph `g`, else `0` (whatever decides the membership). -/
theorem onehotTerm_ite (bt : S100000.Idx → BitVec 32) (n : Fin 100000) (g : Fin 64)
    {d : Decidable (Cert.Spec.batTo bt n = some g)} :
    onehotTerm bt (ix2 n g) = @ite EReal (Cert.Spec.batTo bt n = some g) d 1 0 := by
  have hiff : Cert.Spec.batTo bt n = some g ↔ bt (ix1 n) = BitVec.ofNat 32 g.val :=
    (Cert.Spec.rowOf?_eq_some (bt (ix1 n)) g).trans (eq_ofNat_iff (bt (ix1 n)) g.val (by have := g.isLt; omega)).symm
  rw [onehotTerm_apply]
  by_cases h : bt (ix1 n) = BitVec.ofNat 32 g.val
  · rw [if_pos (hiff.mpr h), StableHlo.Predicate.cmpi_eq_iff.mpr h, uitofp_one]
  · rw [if_neg (fun hb => h (hiff.mp hb)), eq_zero_of_ne_one (fun hc => h (StableHlo.Predicate.cmpi_eq_iff.mp hc)), uitofp_zero]

theorem onehotTerm_eq (bt : S100000.Idx → BitVec 32) : onehotTerm bt = Cert.Spec.onehotK bt := by
  funext i
  obtain ⟨n, g, rfl⟩ : ∃ n g, i = ix2 n g := ⟨i 0, i 1, eq_ix2 i⟩
  unfold Cert.Spec.onehotK
  exact onehotTerm_ite bt n g

/-- The all-one vector over the graphs. -/
def oneGraphs : S64.Idx → EReal :=
  broadcastInDim S64 ![] bcast_S_S64 (constant (F := Ideal) S_ .f32 0x3F800000#32)
theorem oneGraphs_apply (i : S64.Idx) : oneGraphs i = 1 := Cert.Spec.ofBits_one_f32

/-- The graph sizes as one term over the graph words: sum the membership array down its rows from zero, keep each sum
    at least one, lay the sums out as a column. -/
def cntTerm (bt : S100000.Idx → BitVec 32) : S64x1.Idx → EReal :=
  shapeCast S64x1
    (maximumf (F := Ideal) (φ := .f32)
      (Host.reduceAdd (F := Ideal) (φ := .f32) (onehotTerm bt) (constant (F := Ideal) S_ .f32 0x00000000#32)
        reducesTo_S100000x64_S64_d0 h_S_)
      oneGraphs)
    shapeCasts_S64_S64x1

theorem max_congr' (a b o : EReal) (hab : a = b) (ho : o = 1) : max a o = max b 1 := by subst hab ho; rfl

theorem cntTerm_eq (bt : S100000.Idx → BitVec 32) : cntTerm bt = Cert.Spec.cntK bt := by
  funext i
  unfold cntTerm
  refine (toCol_apply _ _ i).trans ?_
  refine (maxf_apply _ _ (ix1 (i 0))).trans ?_
  unfold Cert.Spec.cntK Cert.Spec.cntOf
  refine max_congr' _ _ _ ?_ (oneGraphs_apply _)
  refine (congrFun (reduceAdd_ideal (onehotTerm bt) (constant (F := Ideal) S_ .f32 0x00000000#32)
    reducesTo_S100000x64_S64_d0 h_S_) (ix1 (i 0))).trans ?_
  exact countRows_read reducesTo_S100000x64_S64_d0 (by decide) (onehotTerm bt) _ (i 0)
    (fun n => Cert.Spec.batTo bt n = some (i 0)) Ideal.ofBits_zero_f32 (fun k => onehotTerm_ite bt k (i 0))

theorem after3_v60 : StableHlo.after hostOps3 W (Proc.devRef .tc main_v60) = onehotTerm (W (Proc.devRef .tc main_arg12)) := by
  after_results; rfl
theorem after3_v64 : StableHlo.after hostOps3 W (Proc.devRef .tc main_v64) = cntTerm (W (Proc.devRef .tc main_arg12)) := by
  after_results; rfl

/-! ## Stretch 0: the edge endpoints and the node weights -/

/-- The source words: row 0 of the edge list. -/
theorem glue0_v1 : StableHlo.after hostOps0 W (Proc.devRef .tc main_v1)
    = fun i : S1600000.Idx => (W (Proc.devRef .tc main_arg11) : S2x1600000.Idx → BitVec 32) (ix2 0 (i 0)) := by
  have e : StableHlo.after hostOps0 W (Proc.devRef .tc main_v1)
      = (shapeCast S1600000 (extractStridedSlice S1x1600000 ![0, 0]
          (W (Proc.devRef .tc main_arg11) : S2x1600000.Idx → BitVec 32) slices_S2x1600000_S1x1600000_0_0)
          shapeCasts_S1x1600000_S1600000 : S1600000.Idx → BitVec 32) := by
    after_results; rfl
  refine e.trans (funext fun i => ?_)
  exact edgeRow_apply 0 (by omega) _ _ _ i
/-- The destination words: row 1 of the edge list. -/
theorem glue0_v3 : StableHlo.after hostOps0 W (Proc.devRef .tc main_v3)
    = fun i : S1600000.Idx => (W (Proc.devRef .tc main_arg11) : S2x1600000.Idx → BitVec 32) (ix2 1 (i 0)) := by
  have e : StableHlo.after hostOps0 W (Proc.devRef .tc main_v3)
      = (shapeCast S1600000 (extractStridedSlice S1x1600000 ![1, 0]
          (W (Proc.devRef .tc main_arg11) : S2x1600000.Idx → BitVec 32) slices_S2x1600000_S1x1600000_1_0)
          shapeCasts_S1x1600000_S1600000 : S1600000.Idx → BitVec 32) := by
    after_results; rfl
  refine e.trans (funext fun i => ?_)
  exact edgeRow_apply 1 (by omega) _ _ _ i
/-- The node weights as a column. -/
theorem glue0_v13 : StableHlo.after hostOps0 W (Proc.devRef .tc main_v13)
    = Cert.Spec.dinvK (W (Proc.devRef .tc main_arg11)) := by
  refine (after0_v13 W).trans ?_
  refine (congrArg degTerm (funext fun i => edgeRow_apply 1 (by omega) _ _ _ i)).trans ?_
  exact degTerm_eq _

/-! ## Stretches 1, 2 and the first half of 3: aggregation along the edges, and the rows the next launch reads -/

section Agg
variable (ei : Cert.Spec.Words2 2 1600000)
variable (h1 : W (Proc.devRef .tc main_v1) = fun i : S1600000.Idx => ei (ix2 0 (i 0)))
variable (h3 : W (Proc.devRef .tc main_v3) = fun i : S1600000.Idx => ei (ix2 1 (i 0)))
include h1 h3

theorem glue1_v25 : StableHlo.after hostOps1 W (Proc.devRef .tc main_v25)
    = Cert.Spec.aggK ei (W (Proc.devRef .tc main_v14)) := by
  exact (after1_v25 W).trans (aggTerm_of ei _ _ _ h1 h3)
theorem glue2_v39 : StableHlo.after hostOps2 W (Proc.devRef .tc main_v39)
    = Cert.Spec.aggK ei (W (Proc.devRef .tc main_v28)) := by
  exact (after2_v39 W).trans (aggTerm_of ei _ _ _ h1 h3)
theorem glue3_v53 : StableHlo.after hostOps3 W (Proc.devRef .tc main_v53)
    = Cert.Spec.aggK ei (W (Proc.devRef .tc main_v42)) := by
  exact (after3_v53 W).trans (aggTerm_of ei _ _ _ h1 h3)
end Agg

theorem glue1_v26 : StableHlo.after hostOps1 W (Proc.devRef .tc main_v26) = Cert.Spec.rowOf (W (Proc.devRef .tc main_arg2)) := by
  have e : StableHlo.after hostOps1 W (Proc.devRef .tc main_v26)
      = (shapeCast S1x128 (W (Proc.devRef .tc main_arg2) : S128.Idx → EReal) shapeCasts_S128_S1x128 : S1x128.Idx → EReal) := by
    after_results; rfl
  refine e.trans (funext fun i => ?_)
  exact toRow_apply _ _ i
theorem glue1_v27 : StableHlo.after hostOps1 W (Proc.devRef .tc main_v27)
    = fun _ : S1x1.Idx => (W (Proc.devRef .tc main_arg3) : S1.Idx → EReal) (ix1 0) := by
  have e : StableHlo.after hostOps1 W (Proc.devRef .tc main_v27)
      = (shapeCast S1x1 (W (Proc.devRef .tc main_arg3) : S1.Idx → EReal) shapeCasts_S1_S1x1 : S1x1.Idx → EReal) := by
    after_results; rfl
  refine e.trans (funext fun i => ?_)
  refine (toRow_apply _ _ i).trans ?_
  exact congrArg _ (congrArg ix1 (Subsingleton.elim _ _))
theorem glue2_v40 : StableHlo.after hostOps2 W (Proc.devRef .tc main_v40) = Cert.Spec.rowOf (W (Proc.devRef .tc main_arg5)) := by
  have e : StableHlo.after hostOps2 W (Proc.devRef .tc main_v40)
      = (shapeCast S1x128 (W (Proc.devRef .tc main_arg5) : S128.Idx → EReal) shapeCasts_S128_S1x128 : S1x128.Idx → EReal) := by
    after_results; rfl
  refine e.trans (funext fun i => ?_)
  exact toRow_apply _ _ i
theorem glue2_v41 : StableHlo.after hostOps2 W (Proc.devRef .tc main_v41)
    = fun _ : S1x1.Idx => (W (Proc.devRef .tc main_arg6) : S1.Idx → EReal) (ix1 0) := by
  have e : StableHlo.after hostOps2 W (Proc.devRef .tc main_v41)
      = (shapeCast S1x1 (W (Proc.devRef .tc main_arg6) : S1.Idx → EReal) shapeCasts_S1_S1x1 : S1x1.Idx → EReal) := by
    after_results; rfl
  refine e.trans (funext fun i => ?_)
  refine (toRow_apply _ _ i).trans ?_
  exact congrArg _ (congrArg ix1 (Subsingleton.elim _ _))

/-! ## Stretch 3, second half: membership, graph sizes, the last bias rows -/

theorem glue3_v60 : StableHlo.after hostOps3 W (Proc.devRef .tc main_v60) = Cert.Spec.onehotK (W (Proc.devRef .tc main_arg12)) := by
  exact (after3_v60 W).trans (onehotTerm_eq _)
theorem glue3_v64 : StableHlo.after hostOps3 W (Proc.devRef .tc main_v64) = Cert.Spec.cntK (W (Proc.devRef .tc main_arg12)) := by
  exact (after3_v64 W).trans (cntTerm_eq _)
theorem glue3_v65 : StableHlo.after hostOps3 W (Proc.devRef .tc main_v65) = Cert.Spec.rowOf (W (Proc.devRef .tc main_arg8)) := by
  have e : StableHlo.after hostOps3 W (Proc.devRef .tc main_v65)
      = (shapeCast S1x128 (W (Proc.devRef .tc main_arg8) : S128.Idx → EReal) shapeCasts_S128_S1x128 : S1x128.Idx → EReal) := by
    after_results; rfl
  refine e.trans (funext fun i => ?_)
  exact toRow_apply _ _ i
theorem glue3_v66 : StableHlo.after hostOps3 W (Proc.devRef .tc main_v66) = Cert.Spec.rowOf (W (Proc.devRef .tc main_arg10)) := by
  have e : StableHlo.after hostOps3 W (Proc.devRef .tc main_v66)
      = (shapeCast S1x10 (W (Proc.devRef .tc main_arg10) : S10.Idx → EReal) shapeCasts_S10_S1x10 : S1x10.Idx → EReal) := by
    after_results; rfl
  refine e.trans (funext fun i => ?_)
  exact toRow_apply _ _ i

end Cert.KernelIdeal.Glue

end
-- ==== Proof.KernelValue.lean ====
/-
  The kernel program's result array, read off the run's last boundary: the last launch's value (`final3`) over the
  arrays the last stretch of array operations leaves (the aggregation of launch 2's scaled rows, the membership array,
  the graph sizes, the bias rows), those over launch 2's value, and so on back to the launch memory; composed, this is
  the kernel-shaped composition of the specification's stage functions, which is the normal form `Cert.Spec.out`
  (`Cert.Spec.kernelForm_eq_out`).
-/
import proofs.«421659_j20615843021630_2_alg».proof.Proof.Run
import proofs.«421659_j20615843021630_2_alg».proof.Proof.Region0Value
import proofs.«421659_j20615843021630_2_alg».proof.Proof.Region1Value
import proofs.«421659_j20615843021630_2_alg».proof.Proof.Region2Value
import proofs.«421659_j20615843021630_2_alg».proof.Proof.Region3Value
import proofs.«421659_j20615843021630_2_alg».proof.Proof.Glue

noncomputable section

namespace Cert.KernelIdeal.Hand

open Cert.KernelIdeal Cert.KernelIdeal.Gen Cert.KernelIdeal.Glue
open Idealize.ShloMosaic Idealize.ShloMosaic.TcCoe Idealize.ShloMosaic.ValueIdx
open Idealize.SL.Sem

variable (m : (ℓ : Loc nD τ sig) → Buf (Elt Ideal) ℓ) (c : Dev nD)

/-- The edge list as launched. -/
abbrev eiOf : Cert.Spec.Words2 2 1600000 := W0 m c (Proc.devRef .tc main_arg11)

/-! ## The edge endpoints and the node weights reach every stretch as the first stretch leaves them -/

theorem src1 : W1 m c (Proc.devRef .tc main_v1) = fun i : S1600000.Idx => (eiOf m c) (ix2 0 (i 0)) := glue0_v1 (W0 m c)
theorem dst1 : W1 m c (Proc.devRef .tc main_v3) = fun i : S1600000.Idx => (eiOf m c) (ix2 1 (i 0)) := glue0_v3 (W0 m c)
theorem wts1 : W1 m c (Proc.devRef .tc main_v13) = Cert.Spec.dinvK (eiOf m c) := glue0_v13 (W0 m c)

theorem src2 : W2 m c (Proc.devRef .tc main_v1) = fun i : S1600000.Idx => (eiOf m c) (ix2 0 (i 0)) := (W2_step m c main_v1 (by decide)).trans (src1 m c)
theorem dst2 : W2 m c (Proc.devRef .tc main_v3) = fun i : S1600000.Idx => (eiOf m c) (ix2 1 (i 0)) := (W2_step m c main_v3 (by decide)).trans (dst1 m c)
theorem wts2 : W2 m c (Proc.devRef .tc main_v13) = Cert.Spec.dinvK (eiOf m c) := (W2_step m c main_v13 (by decide)).trans (wts1 m c)
theorem wts3 : W3 m c (Proc.devRef .tc main_v13) = Cert.Spec.dinvK (eiOf m c) := (W3_step m c main_v13 (by decide)).trans (wts2 m c)
theorem src4 : W4 m c (Proc.devRef .tc main_v1) = fun i : S1600000.Idx => (eiOf m c) (ix2 0 (i 0)) :=
  (W4_step m c main_v1 (by decide)).trans <| (W3_step m c main_v1 (by decide)).trans (src2 m c)
theorem dst4 : W4 m c (Proc.devRef .tc main_v3) = fun i : S1600000.Idx => (eiOf m c) (ix2 1 (i 0)) :=
  (W4_step m c main_v3 (by decide)).trans <| (W3_step m c main_v3 (by decide)).trans (dst2 m c)
theorem wts4 : W4 m c (Proc.devRef .tc main_v13) = Cert.Spec.dinvK (eiOf m c) := (W4_step m c main_v13 (by decide)).trans (wts3 m c)
theorem wts5 : W5 m c (Proc.devRef .tc main_v13) = Cert.Spec.dinvK (eiOf m c) := (W5_step m c main_v13 (by decide)).trans (wts4 m c)
theorem src6 : W6 m c (Proc.devRef .tc main_v1) = fun i : S1600000.Idx => (eiOf m c) (ix2 0 (i 0)) :=
  (W6_step m c main_v1 (by decide)).trans <| (W5_step m c main_v1 (by decide)).trans (src4 m c)
theorem dst6 : W6 m c (Proc.devRef .tc main_v3) = fun i : S1600000.Idx => (eiOf m c) (ix2 1 (i 0)) :=
  (W6_step m c main_v3 (by decide)).trans <| (W5_step m c main_v3 (by decide)).trans (dst4 m c)
theorem wts6 : W6 m c (Proc.devRef .tc main_v13) = Cert.Spec.dinvK (eiOf m c) := (W6_step m c main_v13 (by decide)).trans (wts5 m c)
theorem wts7 : W7 m c (Proc.devRef .tc main_v13) = Cert.Spec.dinvK (eiOf m c) := (W7_step m c main_v13 (by decide)).trans (wts6 m c)

/-! ## An argument array at each boundary is the launch memory's -/

theorem arg_at1 (r : Ref sig .tc) (h0 : r ∉ hostOps0_W) : W1 m c (Proc.devRef .tc r) = W0 m c (Proc.devRef .tc r) := W1_step m c r h0
theorem arg_at2 (r : Ref sig .tc) (h0 : r ∉ hostOps0_W) (o0 : r ≠ main_v14) : W2 m c (Proc.devRef .tc r) = W0 m c (Proc.devRef .tc r) :=
  (W2_step m c r o0).trans (arg_at1 m c r h0)
theorem arg_at3 (r : Ref sig .tc) (h0 : r ∉ hostOps0_W) (o0 : r ≠ main_v14) (h1 : r ∉ hostOps1_W) : W3 m c (Proc.devRef .tc r) = W0 m c (Proc.devRef .tc r) :=
  (W3_step m c r h1).trans (arg_at2 m c r h0 o0)
theorem arg_at4 (r : Ref sig .tc) (h0 : r ∉ hostOps0_W) (o0 : r ≠ main_v14) (h1 : r ∉ hostOps1_W) (o1 : r ≠ main_v28) :
    W4 m c (Proc.devRef .tc r) = W0 m c (Proc.devRef .tc r) := (W4_step m c r o1).trans (arg_at3 m c r h0 o0 h1)
theorem arg_at5 (r : Ref sig .tc) (h0 : r ∉ hostOps0_W) (o0 : r ≠ main_v14) (h1 : r ∉ hostOps1_W) (o1 : r ≠ main_v28) (h2 : r ∉ hostOps2_W) :
    W5 m c (Proc.devRef .tc r) = W0 m c (Proc.devRef .tc r) := (W5_step m c r h2).trans (arg_at4 m c r h0 o0 h1 o1)
theorem arg_at6 (r : Ref sig .tc) (h0 : r ∉ hostOps0_W) (o0 : r ≠ main_v14) (h1 : r ∉ hostOps1_W) (o1 : r ≠ main_v28) (h2 : r ∉ hostOps2_W)
    (o2 : r ≠ main_v42) : W6 m c (Proc.devRef .tc r) = W0 m c (Proc.devRef .tc r) := (W6_step m c r o2).trans (arg_at5 m c r h0 o0 h1 o1 h2)
theorem arg_at7 (r : Ref sig .tc) (h0 : r ∉ hostOps0_W) (o0 : r ≠ main_v14) (h1 : r ∉ hostOps1_W) (o1 : r ≠ main_v28) (h2 : r ∉ hostOps2_W)
    (o2 : r ≠ main_v42) (h3 : r ∉ hostOps3_W) : W7 m c (Proc.devRef .tc r) = W0 m c (Proc.devRef .tc r) := (W7_step m c r h3).trans (arg_at6 m c r h0 o0 h1 o1 h2 o2)

/-! ## The launches' outputs -/

/-- Launch 0 leaves every row of `x · W0` scaled by its node's weight. -/
theorem out0 : W2 m c (Proc.devRef .tc main_v14)
    = Cert.Spec.scaleMM (Cert.Spec.dinvK (eiOf m c)) (W0 m c (Proc.devRef .tc main_arg0)) (W0 m c (Proc.devRef .tc main_arg1)) := by
  refine (W2_arr m c 3).trans ((final0 (V1 m) c).trans ?_)
  rw [show V1 m c main_v13 = Cert.Spec.dinvK (eiOf m c) from wts1 m c,
    show V1 m c main_arg0 = W0 m c (Proc.devRef .tc main_arg0) from arg_at1 m c main_arg0 (by decide),
    show V1 m c main_arg1 = W0 m c (Proc.devRef .tc main_arg1) from arg_at1 m c main_arg1 (by decide)]

/-- Launch 1 leaves the scaled rows of the second layer's product. -/
theorem out1 : W4 m c (Proc.devRef .tc main_v28)
    = Cert.Spec.fused (Cert.Spec.aggK (eiOf m c) (W2 m c (Proc.devRef .tc main_v14))) (Cert.Spec.rowOf (W0 m c (Proc.devRef .tc main_arg2)))
        (fun _ => (W0 m c (Proc.devRef .tc main_arg3) : S1.Idx → EReal) (ix1 0)) (Cert.Spec.dinvK (eiOf m c)) (W0 m c (Proc.devRef .tc main_arg4)) := by
  refine (W4_arr m c 5).trans ((final1 (V3 m) c).trans ?_)
  rw [show V3 m c main_v25 = Cert.Spec.aggK (eiOf m c) (W2 m c (Proc.devRef .tc main_v14)) from glue1_v25 (W2 m c) (eiOf m c) (src2 m c) (dst2 m c),
    show V3 m c main_v26 = Cert.Spec.rowOf (W2 m c (Proc.devRef .tc main_arg2)) from glue1_v26 (W2 m c),
    show V3 m c main_v27 = (fun _ : S1x1.Idx => (W2 m c (Proc.devRef .tc main_arg3) : S1.Idx → EReal) (ix1 0)) from glue1_v27 (W2 m c),
    show V3 m c main_v13 = Cert.Spec.dinvK (eiOf m c) from wts3 m c,
    show V3 m c main_arg4 = W0 m c (Proc.devRef .tc main_arg4) from arg_at3 m c main_arg4 (by decide) (by decide) (by decide),
    arg_at2 m c main_arg2 (by decide) (by decide), arg_at2 m c main_arg3 (by decide) (by decide)]

/-- Launch 2 leaves the scaled rows of the third layer's product. -/
theorem out2 : W6 m c (Proc.devRef .tc main_v42)
    = Cert.Spec.fused (Cert.Spec.aggK (eiOf m c) (W4 m c (Proc.devRef .tc main_v28))) (Cert.Spec.rowOf (W0 m c (Proc.devRef .tc main_arg5)))
        (fun _ => (W0 m c (Proc.devRef .tc main_arg6) : S1.Idx → EReal) (ix1 0)) (Cert.Spec.dinvK (eiOf m c)) (W0 m c (Proc.devRef .tc main_arg7)) := by
  refine (W6_arr m c 5).trans ((final2 (V5 m) c).trans ?_)
  rw [show V5 m c main_v39 = Cert.Spec.aggK (eiOf m c) (W4 m c (Proc.devRef .tc main_v28)) from glue2_v39 (W4 m c) (eiOf m c) (src4 m c) (dst4 m c),
    show V5 m c main_v40 = Cert.Spec.rowOf (W4 m c (Proc.devRef .tc main_arg5)) from glue2_v40 (W4 m c),
    show V5 m c main_v41 = (fun _ : S1x1.Idx => (W4 m c (Proc.devRef .tc main_arg6) : S1.Idx → EReal) (ix1 0)) from glue2_v41 (W4 m c),
    show V5 m c main_v13 = Cert.Spec.dinvK (eiOf m c) from wts5 m c,
    show V5 m c main_arg7 = W0 m c (Proc.devRef .tc main_arg7) from arg_at5 m c main_arg7 (by decide) (by decide) (by decide) (by decide) (by decide),
    arg_at4 m c main_arg5 (by decide) (by decide) (by decide) (by decide), arg_at4 m c main_arg6 (by decide) (by decide) (by decide) (by decide)]

/-- Launch 3 leaves the pooled, affinely mapped result. -/
theorem out3_eq : W8 m c (Proc.devRef .tc main_v67)
    = Cert.Spec.pool (Cert.Spec.aggK (eiOf m c) (W6 m c (Proc.devRef .tc main_v42))) (Cert.Spec.rowOf (W0 m c (Proc.devRef .tc main_arg8)))
        (Cert.Spec.dinvK (eiOf m c)) (Cert.Spec.onehotK (W0 m c (Proc.devRef .tc main_arg12))) (Cert.Spec.cntK (W0 m c (Proc.devRef .tc main_arg12)))
        (W0 m c (Proc.devRef .tc main_arg9)) (Cert.Spec.rowOf (W0 m c (Proc.devRef .tc main_arg10))) := by
  refine (W8_arr m c 7).trans ((final3 (V7 m) c).trans ?_)
  rw [show V7 m c main_v53 = Cert.Spec.aggK (eiOf m c) (W6 m c (Proc.devRef .tc main_v42)) from glue3_v53 (W6 m c) (eiOf m c) (src6 m c) (dst6 m c),
    show V7 m c main_v65 = Cert.Spec.rowOf (W6 m c (Proc.devRef .tc main_arg8)) from glue3_v65 (W6 m c),
    show V7 m c main_v13 = Cert.Spec.dinvK (eiOf m c) from wts7 m c,
    show V7 m c main_v60 = Cert.Spec.onehotK (W6 m c (Proc.devRef .tc main_arg12)) from glue3_v60 (W6 m c),
    show V7 m c main_v64 = Cert.Spec.cntK (W6 m c (Proc.devRef .tc main_arg12)) from glue3_v64 (W6 m c),
    show V7 m c main_v66 = Cert.Spec.rowOf (W6 m c (Proc.devRef .tc main_arg10)) from glue3_v66 (W6 m c),
    show V7 m c main_arg9 = W0 m c (Proc.devRef .tc main_arg9) from arg_at7 m c main_arg9 (by decide) (by decide) (by decide) (by decide) (by decide) (by decide) (by decide),
    arg_at6 m c main_arg8 (by decide) (by decide) (by decide) (by decide) (by decide) (by decide),
    arg_at6 m c main_arg12 (by decide) (by decide) (by decide) (by decide) (by decide) (by decide),
    arg_at6 m c main_arg10 (by decide) (by decide) (by decide) (by decide) (by decide) (by decide)]

/-! ## The result -/

/-- THE KERNEL PROGRAM'S VALUE: the result array at the end of the run is the normal form of the launch memory's
    argument arrays. -/
theorem kernel_value : W8 m c (Proc.devRef .tc main_v67)
    = Cert.Spec.out (W0 m c (Proc.devRef .tc main_arg0)) (W0 m c (Proc.devRef .tc main_arg1)) (W0 m c (Proc.devRef .tc main_arg2)) (W0 m c (Proc.devRef .tc main_arg3))
        (W0 m c (Proc.devRef .tc main_arg4)) (W0 m c (Proc.devRef .tc main_arg5)) (W0 m c (Proc.devRef .tc main_arg6)) (W0 m c (Proc.devRef .tc main_arg7))
        (W0 m c (Proc.devRef .tc main_arg8)) (W0 m c (Proc.devRef .tc main_arg9)) (W0 m c (Proc.devRef .tc main_arg10)) (W0 m c (Proc.devRef .tc main_arg11))
        (W0 m c (Proc.devRef .tc main_arg12)) := by
  rw [out3_eq m c, out2 m c, out1 m c, out0 m c]
  exact Cert.Spec.kernelForm_eq_out _ _ _ _ _ _ _ _ _ _ _ _ _

/-- THE RUN WITH ITS VALUE: every weakly fair execution terminates, nothing faulting, the result array ends at the
    normal form of the launch memory's argument arrays, and every argument array ends as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v67)
        = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v67 (by decide))).trans (kernel_value m c),
     (h c _ (mem_uc main_arg0 (by decide))).trans (W8_kept m c main_arg0 (by decide) (by decide) (by decide) (by decide) (by decide) (by decide) (by decide) (by decide)),
     (h c _ (mem_uc main_arg1 (by decide))).trans (W8_kept m c main_arg1 (by decide) (by decide) (by decide) (by decide) (by decide) (by decide) (by decide) (by decide)),
     (h c _ (mem_uc main_arg2 (by decide))).trans (W8_kept m c main_arg2 (by decide) (by decide) (by decide) (by decide) (by decide) (by decide) (by decide) (by decide)),
     (h c _ (mem_uc main_arg3 (by decide))).trans (W8_kept m c main_arg3 (by decide) (by decide) (by decide) (by decide) (by decide) (by decide) (by decide) (by decide)),
     (h c _ (mem_uc main_arg4 (by decide))).trans (W8_kept m c main_arg4 (by decide) (by decide) (by decide) (by decide) (by decide) (by decide) (by decide) (by decide)),
     (h c _ (mem_uc main_arg5 (by decide))).trans (W8_kept m c main_arg5 (by decide) (by decide) (by decide) (by decide) (by decide) (by decide) (by decide) (by decide)),
     (h c _ (mem_uc main_arg6 (by decide))).trans (W8_kept m c main_arg6 (by decide) (by decide) (by decide) (by decide) (by decide) (by decide) (by decide) (by decide)),
     (h c _ (mem_uc main_arg7 (by decide))).trans (W8_kept m c main_arg7 (by decide) (by decide) (by decide) (by decide) (by decide) (by decide) (by decide) (by decide)),
     (h c _ (mem_uc main_arg8 (by decide))).trans (W8_kept m c main_arg8 (by decide) (by decide) (by decide) (by decide) (by decide) (by decide) (by decide) (by decide)),
     (h c _ (mem_uc main_arg9 (by decide))).trans (W8_kept m c main_arg9 (by decide) (by decide) (by decide) (by decide) (by decide) (by decide) (by decide) (by decide)),
     (h c _ (mem_uc main_arg10 (by decide))).trans (W8_kept m c main_arg10 (by decide) (by decide) (by decide) (by decide) (by decide) (by decide) (by decide) (by decide)),
     (h c _ (mem_uc main_arg11 (by decide))).trans (W8_kept m c main_arg11 (by decide) (by decide) (by decide) (by decide) (by decide) (by decide) (by decide) (by decide)),
     (h c _ (mem_uc main_arg12 (by decide))).trans (W8_kept m c main_arg12 (by decide) (by decide) (by decide) (by decide) (by decide) (by decide) (by decide) (by decide))⟩)
    (run_all m ρ)

end Cert.KernelIdeal.Hand

end
-- ==== Proof.RefLayerSum.lean ====
/-
  Word and sum facts for reading one graph-convolution layer of the reference at a node.

  The reference's edge list is the 1600000 given edges followed by one loop per node, 1700000 entries in all. A sum
  over the entries whose destination word, read signed, is the node `n` splits into the sum over the given edges whose
  destination word names `n`, plus the one term of the loop at `n`: the loop at `k` carries the word `k`, whose signed
  value is `k` itself. A word whose signed value is a node's number is its own wrap, and clamps to that node.
-/
import proofs.«421659_j20615843021630_2_alg».proof.Proof.Spec
import Idealize.ShloMosaic.Lib.StableHlo.Predicate

noncomputable section

open scoped BigOperators

namespace Cert.ReferenceIdeal.RefLayer

open Idealize.ShloMosaic Idealize.ShloMosaic.ValueIdx

/-- Python's wrap of a negative index word: `w + 100000` when `w` is negative as a signed word, else `w`. -/
def wrap (w : BitVec 32) : BitVec 32 :=
  Scalar.select (IntOp.cmpi .slt w 0#32) (IntOp.addi w 100000#32) w

/-- A word that is not negative is its own wrap. -/
theorem wrap_of_nonneg (w : BitVec 32) (h : 0 ≤ w.toInt) : wrap w = w := by
  unfold wrap
  have hb : ¬ IntOp.cmpi .slt w 0#32 = 1#1 := by
    show ¬ BitVec.ofBool (w.slt 0#32) = 1#1
    rw [StableHlo.Predicate.ofBool_eq_one_iff]
    simp only [BitVec.slt, BitVec.toInt_zero, decide_eq_true_eq]
    omega
  rw [eq_zero_of_ne_one hb, select_zero]

/-- A word whose signed value is the node `n` clamps to `n`. -/
theorem clampRow_of_toInt (w : BitVec 32) (n : Fin 100000) (h : w.toInt = (n.val : Int)) :
    Cert.Spec.clampRow w = n := by
  apply Fin.ext
  show min w.toInt.toNat 99999 = n.val
  rw [h, Int.toNat_natCast]
  have := n.isLt
  omega

/-- The word of the loop at node `k` has signed value `k`. -/
theorem toInt_loop (k : Fin 100000) : (BitVec.ofNat 32 k.val).toInt = (k.val : Int) :=
  StableHlo.Predicate.toInt_ofNat_small k.val (by have := k.isLt; omega)

/-- A sum over `Fin c` with `c = a + b` is the sum over the first `a` positions plus the sum over the last `b`. -/
theorem sum_fin_split {M : Type*} [AddCommMonoid M] {a b c : Nat} (h : a + b = c) (f : Fin c → M) :
    ∑ j, f j = ∑ e : Fin a, f ⟨e.val, by omega⟩ + ∑ k : Fin b, f ⟨a + k.val, by omega⟩ := by
  subst h
  exact Fin.sum_univ_add f

/-- THE SPLIT. `W` is the destination word of each of the 1700000 entries: entry `e` below 1600000 carries edge `e`'s word
    `dst e`, entry `1600000 + k` the loop word `k`. The sum of `g` over the entries whose word reads `n` is the sum over the
    edges whose word names `n`, plus `g` at the loop of `n`. -/
theorem sum_filter_split {M : Type*} [AddCommMonoid M] (W : Fin 1700000 → BitVec 32) (dst : Fin 1600000 → BitVec 32)
    (n : Fin 100000)
    (hE : ∀ e : Fin 1600000, W ⟨e.val, by omega⟩ = dst e)
    (hL : ∀ k : Fin 100000, W ⟨1600000 + k.val, by omega⟩ = BitVec.ofNat 32 k.val)
    (g : Fin 1700000 → M)
    [DecidablePred fun j : Fin 1700000 => (W j).toInt = (n.val : Int)]
    [DecidablePred fun e : Fin 1600000 => Cert.Spec.rowOf? 100000 (dst e) = some n] :
    ∑ j ∈ Finset.univ.filter (fun j : Fin 1700000 => (W j).toInt = (n.val : Int)), g j
      = ∑ e ∈ Finset.univ.filter (fun e : Fin 1600000 => Cert.Spec.rowOf? 100000 (dst e) = some n), g ⟨e.val, by omega⟩
        + g ⟨1600000 + n.val, by omega⟩ := by
  simp only [Finset.sum_filter]
  rw [sum_fin_split (a := 1600000) (b := 100000) rfl]
  refine congrArg₂ (· + ·) ?_ ?_
  · refine Finset.sum_congr rfl fun e _ => ?_
    exact if_congr (by rw [hE e]; exact (Cert.Spec.rowOf?_eq_some (dst e) n).symm) rfl rfl
  · rw [Finset.sum_eq_single n]
    · rw [if_pos]
      rw [hL n]
      exact toInt_loop n
    · intro k _ hk
      rw [if_neg]
      rw [hL k, toInt_loop k]
      intro h
      exact hk (Fin.ext (by exact_mod_cast h))
    · intro h
      exact absurd (Finset.mem_univ n) h

end Cert.ReferenceIdeal.RefLayer

end
-- ==== Proof.RefLayerStages.lean ====
/-
  The reference's index stages read at an entry of the extended edge list (the 1600000 given edges, then one loop per
  node), and its two gathers read at an entry: the source and destination words of an entry, their wraps, the node
  weights taken at the clamped wrapped words, and the rows of the layer's input gathered at the clamped wrapped source.
-/
import proofs.«421659_j20615843021630_2_alg».proof.Proof.Gen.ReferenceIdeal.Read
import proofs.«421659_j20615843021630_2_alg».proof.Proof.Spec
import proofs.«421659_j20615843021630_2_alg».proof.Proof.LibScatter
import proofs.«421659_j20615843021630_2_alg».proof.Proof.RefLayerSum
import Idealize.ShloMosaic.Lib.StableHlo.Predicate
import Idealize.ShloMosaic.Lib.Pipeline.Value

noncomputable section

namespace Cert.ReferenceIdeal.RefLayer

open Cert.ReferenceIdeal Cert.ReferenceIdeal.Gen Cert.ReferenceIdeal.Read
open Idealize.ShloMosaic Idealize.ShloMosaic.TcCoe Idealize.ShloMosaic.ValueIdx
open Idealize.SL.Sem

/-! ## Two gathers over variables -/

/-- The rank-1 take at entry `j`: the table at the entry's start word, clamped into the nodes. -/
theorem take_at {α : Type} (d : GatherDims S100000 S1700000x1 S1700000)
    (hcoll : d.collapsedSliceDims = [0]) (hob : d.operandBatchingDims = [])
    (hsim : d.startIndexMap = [0]) (hivd : d.indexVectorDim = 1)
    (x : S100000.Idx → α) (idx : IVec S1700000x1 32) (j : Fin 1700000) :
    Host.gather d x idx (ix1 j) = x (ix1 (Cert.Spec.clampRow (idx (ix2 j 0)))) := by
  have e1 : (ix1 j : S1700000.Idx) = Shape.Idx.ofFin j := by
    funext a; match a with | ⟨0, _⟩ => rfl
  have e2 : (StableHlo.Predicate.ixP j : S1700000x1.Idx) = ix2 j 0 := by
    funext a; match a with | ⟨0, _⟩ => rfl | ⟨1, _⟩ => rfl
  rw [e1, StableHlo.Predicate.gather_take d hcoll hob hsim hivd x idx j (by decide)]
  congr 1
  funext a
  match a with
  | ⟨0, _⟩ => exact Fin.ext (congrArg (fun i => min (idx i).toInt.toNat 99999) e2)

/-- The row gather at entry `j`, column `f`: the table's row at the entry's start word, clamped into the nodes. -/
theorem rows_at {α : Type} (d : GatherDims S100000x128 S1700000x1 S1700000x128)
    (hoff : d.offsetDims = [1]) (hcoll : d.collapsedSliceDims = [0]) (hob : d.operandBatchingDims = [])
    (hsim : d.startIndexMap = [0]) (hivd : d.indexVectorDim = 1)
    (x : S100000x128.Idx → α) (idx : IVec S1700000x1 32) (j : Fin 1700000) (f : Fin 128) :
    Host.gather d x idx (ix2 j f) = x (ix2 (Cert.Spec.clampRow (idx (ix2 j 0))) f) :=
  Cert.LibScatter.gather_rows_apply d hoff hcoll hob hsim hivd x idx j f (by decide)

variable {F : FTy → Type} [FloatOps F]

/-! ## The words of an entry -/

/-- The source word of edge `e`. -/
theorem v1_at (x11 : (⟨S2x1600000, .i32⟩ : BufTy).Contents (Elt F)) (e : Fin 1600000) :
    val_main_v1 (F := F) x11 (ix1 e) = x11 (ix2 0 e) := by
  rw [val_main_v1_apply, val_main_v0_apply]
  congr 1
  funext a
  match a with
  | ⟨0, _⟩ => rfl
  | ⟨1, _⟩ => exact Fin.ext (Nat.mod_eq_of_lt e.isLt)

/-- The destination word of edge `e`. -/
theorem v3_at (x11 : (⟨S2x1600000, .i32⟩ : BufTy).Contents (Elt F)) (e : Fin 1600000) :
    val_main_v3 (F := F) x11 (ix1 e) = x11 (ix2 1 e) := by
  rw [val_main_v3_apply, val_main_v2_apply]
  congr 1
  funext a
  match a with
  | ⟨0, _⟩ => rfl
  | ⟨1, _⟩ => exact Fin.ext (Nat.mod_eq_of_lt e.isLt)

/-- Entry `e` below 1600000 carries edge `e`'s source word. -/
theorem v5_edge (x11 : (⟨S2x1600000, .i32⟩ : BufTy).Contents (Elt F)) (e : Fin 1600000) :
    val_main_v5 (F := F) x11 (ix1 (⟨e.val, by omega⟩ : Fin 1700000)) = x11 (ix2 0 e) := by
  unfold val_main_v5
  refine (concatenate_pair_apply_left (0 : Fin S1700000.rank) _ _ concatenates_S1600000_S100000_S1700000_d0 _ rfl
    (ix1 e) (fun b => ?_)).trans (v1_at x11 e)
  match b with
  | ⟨0, _⟩ => rfl

/-- Entry `1600000 + k` carries the loop word `k` as its source. -/
theorem v5_loop (x11 : (⟨S2x1600000, .i32⟩ : BufTy).Contents (Elt F)) (k : Fin 100000) :
    val_main_v5 (F := F) x11 (ix1 (⟨1600000 + k.val, by omega⟩ : Fin 1700000)) = BitVec.ofNat 32 k.val := by
  unfold val_main_v5
  refine (concatenate_pair_apply_right (0 : Fin S1700000.rank) _ _ concatenates_S1600000_S100000_S1700000_d0 _ rfl rfl
    (ix1 k) (fun b hb => ?_) ?_).trans ?_
  · match b with
    | ⟨0, _⟩ => exact absurd rfl hb
  · exact Nat.add_comm _ _
  · rfl

/-- Entry `e` below 1600000 carries edge `e`'s destination word. -/
theorem v6_edge (x11 : (⟨S2x1600000, .i32⟩ : BufTy).Contents (Elt F)) (e : Fin 1600000) :
    val_main_v6 (F := F) x11 (ix1 (⟨e.val, by omega⟩ : Fin 1700000)) = x11 (ix2 1 e) := by
  unfold val_main_v6
  refine (concatenate_pair_apply_left (0 : Fin S1700000.rank) _ _ concatenates_S1600000_S100000_S1700000_d0 _ rfl
    (ix1 e) (fun b => ?_)).trans (v3_at x11 e)
  match b with
  | ⟨0, _⟩ => rfl

/-- Entry `1600000 + k` carries the loop word `k` as its destination. -/
theorem v6_loop (x11 : (⟨S2x1600000, .i32⟩ : BufTy).Contents (Elt F)) (k : Fin 100000) :
    val_main_v6 (F := F) x11 (ix1 (⟨1600000 + k.val, by omega⟩ : Fin 1700000)) = BitVec.ofNat 32 k.val := by
  unfold val_main_v6
  refine (concatenate_pair_apply_right (0 : Fin S1700000.rank) _ _ concatenates_S1600000_S100000_S1700000_d0 _ rfl rfl
    (ix1 k) (fun b hb => ?_) ?_).trans ?_
  · match b with
    | ⟨0, _⟩ => exact absurd rfl hb
  · exact Nat.add_comm _ _
  · rfl

/-! ## The wrapped words, as columns of start indices -/

/-- A rank-1 array laid as a column, read at row `j`. -/
theorem col_idx (j : Fin 1700000) : idx_main_v9 (ix2 j (0 : Fin 1)) = ix1 j := by
  funext a; match a with | ⟨0, _⟩ => rfl

theorem v9_at (x11 : (⟨S2x1600000, .i32⟩ : BufTy).Contents (Elt F)) (j : Fin 1700000) :
    val_main_v9 (F := F) x11 (ix2 j 0) = val_main_v6 (F := F) x11 (ix1 j) := by
  rw [val_main_v9_apply]; exact congrArg _ (col_idx j)

theorem v41_at (x11 : (⟨S2x1600000, .i32⟩ : BufTy).Contents (Elt F)) (j : Fin 1700000) :
    val_main_v41 (F := F) x11 (ix2 j 0) = val_main_v6 (F := F) x11 (ix1 j) := by
  rw [val_main_v41_apply]; exact congrArg _ (col_idx j)

theorem v19_at (x11 : (⟨S2x1600000, .i32⟩ : BufTy).Contents (Elt F)) (j : Fin 1700000) :
    val_main_v19 (F := F) x11 (ix2 j 0) = wrap (val_main_v5 (F := F) x11 (ix1 j)) := by
  rw [val_main_v19_apply, val_main_v18_apply, val_main_v15_apply, val_main_v17_apply, val_main_v14_apply,
    val_main_v16_apply]
  exact congrArg wrap (congrArg _ (col_idx j))

theorem v26_at (x11 : (⟨S2x1600000, .i32⟩ : BufTy).Contents (Elt F)) (j : Fin 1700000) :
    val_main_v26 (F := F) x11 (ix2 j 0) = wrap (val_main_v6 (F := F) x11 (ix1 j)) := by
  rw [val_main_v26_apply, val_main_v25_apply, val_main_v22_apply, val_main_v24_apply, val_main_v21_apply,
    val_main_v23_apply]
  exact congrArg wrap (congrArg _ (col_idx j))

theorem v36_at (x11 : (⟨S2x1600000, .i32⟩ : BufTy).Contents (Elt F)) (j : Fin 1700000) :
    val_main_v36 (F := F) x11 (ix2 j 0) = wrap (val_main_v5 (F := F) x11 (ix1 j)) := by
  rw [val_main_v36_apply, val_main_v35_apply, val_main_v32_apply, val_main_v34_apply, val_main_v31_apply,
    val_main_v33_apply]
  exact congrArg wrap (congrArg _ (col_idx j))

end Cert.ReferenceIdeal.RefLayer

end
-- ==== Proof.RefLayer.lean ====
/-
  One graph-convolution layer of the reference program, as a function of the layer's input array `H` and bias `b`, at
  the exact instance: the reference appends one self-loop per node to the edge list, weights every edge by the product
  of its endpoints' node weights, gathers the rows `H[src]`, scales them, adds them into the rows their destinations
  name, and adds the bias. Read at a node `n`: the appended loops contribute exactly the node's own row with weight
  `r n · r n`, a real edge `e` into `n` contributes `(r (row e) · r n) · H (row e)`, and an edge whose destination word
  names no node contributes nothing: the normal form `Cert.Spec.conv`.
-/
import proofs.«421659_j20615843021630_2_alg».proof.Proof.Gen.ReferenceIdeal.Read
import proofs.«421659_j20615843021630_2_alg».proof.Proof.Spec
import proofs.«421659_j20615843021630_2_alg».proof.Proof.LibScatter
import proofs.«421659_j20615843021630_2_alg».proof.Proof.RefLayerSum
import proofs.«421659_j20615843021630_2_alg».proof.Proof.RefLayerStages
import Idealize.ShloMosaic.Lib.StableHlo.Predicate

noncomputable section

namespace Cert.ReferenceIdeal.RefLayer

open Cert.ReferenceIdeal Cert.ReferenceIdeal.Gen Cert.ReferenceIdeal.Read
open Idealize.ShloMosaic Idealize.ShloMosaic.TcCoe Idealize.ShloMosaic.ValueIdx
open Idealize.SL.Sem

/-! ## The degree count -/

/-- Every entry of the scattered ones is `1`. -/
theorem v7_at (i : S1700000.Idx) : val_main_v7 (F := Ideal) i = 1 := by
  rw [val_main_v7_apply, val_main_cst_apply]
  exact Cert.Spec.ofBits_one_f32

/-- The count starts from `0`. -/
theorem v8_at (i : S100000.Idx) : val_main_v8 (F := Ideal) i = 0 := by
  rw [val_main_v8_apply, val_main_cst_0_apply]
  exact Ideal.ofBits_zero_f32

/-- The floor of the degree is `1`. -/
theorem v11_at (i : S100000.Idx) : val_main_v11 (F := Ideal) i = 1 := by
  rw [val_main_v11_apply, val_main_cst_1_apply]
  exact Cert.Spec.ofBits_one_f32

/-- The in-degree of node `n` over the extended edge list: the given edges whose destination word names `n`, and its loop. -/
theorem v10_at (x11 : (⟨S2x1600000, .i32⟩ : BufTy).Contents (Elt Ideal)) (n : Fin 100000) :
    val_main_v10 (F := Ideal) x11 (ix1 n)
      = (∑ _e ∈ Finset.univ.filter (fun e => Cert.Spec.dstTo x11 e = some n), (1 : EReal)) + 1 := by
  unfold val_main_v10
  rw [Cert.LibScatter.scatterAdd_vec_apply _ rfl rfl rfl rfl, v8_at, zero_add]
  refine (sum_filter_split (fun j => val_main_v9 (F := Ideal) x11 (ix2 j 0)) (fun e => x11 (ix2 1 e)) n
    (fun e => (v9_at x11 _).trans (v6_edge x11 e)) (fun k => (v9_at x11 _).trans (v6_loop x11 k))
    (fun j => val_main_v7 (F := Ideal) (ix1 j))).trans ?_
  simp only [v7_at]
  refine congrArg₂ (· + ·) ?_ rfl
  exact Finset.sum_congr (Finset.filter_congr (fun e _ => Iff.rfl)) (fun _ _ => rfl)

/-- The reference's node weights are the specification's. -/
theorem ref_dinv (x11 : (⟨S2x1600000, .i32⟩ : BufTy).Contents (Elt Ideal)) (n : Fin 100000) :
    val_main_v13 (F := Ideal) x11 (ix1 n) = Cert.Spec.rOf x11 n := by
  rw [val_main_v13_apply, val_main_v12_apply, v10_at, v11_at, Ideal.hostUnary_rsqrt_def, Ideal.maximumf_def]
  unfold Cert.Spec.rOf
  rfl

/-! ## The weighted gathered rows at an entry -/

/-- The weight taken at an entry's wrapped source word. -/
theorem v20_at (x11 : (⟨S2x1600000, .i32⟩ : BufTy).Contents (Elt Ideal)) (j : Fin 1700000) :
    val_main_v20 (F := Ideal) x11 (ix1 j)
      = Cert.Spec.rOf x11 (Cert.Spec.clampRow (wrap (val_main_v5 (F := Ideal) x11 (ix1 j)))) := by
  unfold val_main_v20
  rw [take_at _ rfl rfl rfl rfl, v19_at, ref_dinv]

/-- The weight taken at an entry's wrapped destination word. -/
theorem v27_at (x11 : (⟨S2x1600000, .i32⟩ : BufTy).Contents (Elt Ideal)) (j : Fin 1700000) :
    val_main_v27 (F := Ideal) x11 (ix1 j)
      = Cert.Spec.rOf x11 (Cert.Spec.clampRow (wrap (val_main_v6 (F := Ideal) x11 (ix1 j)))) := by
  unfold val_main_v27
  rw [take_at _ rfl rfl rfl rfl, v26_at, ref_dinv]

/-- An entry's weight, laid along the columns. -/
theorem v38_at (x11 : (⟨S2x1600000, .i32⟩ : BufTy).Contents (Elt Ideal)) (j : Fin 1700000) (f : Fin 128) :
    val_main_v38 (F := Ideal) x11 (ix2 j f)
      = Cert.Spec.rOf x11 (Cert.Spec.clampRow (wrap (val_main_v5 (F := Ideal) x11 (ix1 j))))
        * Cert.Spec.rOf x11 (Cert.Spec.clampRow (wrap (val_main_v6 (F := Ideal) x11 (ix1 j)))) := by
  have e : idx_main_v30 (idx_main_v38 (ix2 j f)) = ix1 j := by
    funext a; match a with | ⟨0, _⟩ => rfl
  rw [val_main_v38_apply, val_main_v30_apply, e, val_main_v28_apply, v20_at, v27_at]
  rfl

/-- An entry's update row at column `f`: its weight times the input's row at its wrapped, clamped source. -/
theorem upd_at (x11 : (⟨S2x1600000, .i32⟩ : BufTy).Contents (Elt Ideal))
    (H : (⟨S100000x128, .f32⟩ : BufTy).Contents (Elt Ideal)) (j : Fin 1700000) (f : Fin 128) :
    (mulf (F := Ideal) (φ := .f32) (val_main_v38 (F := Ideal) x11)
        (Host.gather gather_S100000x128_S1700000x1_S1700000x128_1_0_n_n_0_1_1128 H (val_main_v36 (F := Ideal) x11))) (ix2 j f)
      = (Cert.Spec.rOf x11 (Cert.Spec.clampRow (wrap (val_main_v5 (F := Ideal) x11 (ix1 j))))
          * Cert.Spec.rOf x11 (Cert.Spec.clampRow (wrap (val_main_v6 (F := Ideal) x11 (ix1 j)))))
        * H (ix2 (Cert.Spec.clampRow (wrap (val_main_v5 (F := Ideal) x11 (ix1 j)))) f) := by
  rw [mulf_apply, v38_at, rows_at _ rfl rfl rfl rfl rfl, v36_at]

/-- The sum starts from `0`. -/
theorem v40_at (i : S100000x128.Idx) : val_main_v40 (F := Ideal) i = 0 := by
  rw [val_main_v40_apply, val_main_cst_7_apply]
  exact Ideal.ofBits_zero_f32

/-- The bias laid along the rows. -/
theorem v44_at (b : (⟨S128, .f32⟩ : BufTy).Contents (Elt Ideal)) (n : Fin 100000) (f : Fin 128) :
    val_main_v44 (F := Ideal) b (ix2 n f) = b (ix1 f) := by
  have e : idx_main_v43 (idx_main_v44 (ix2 n f)) = ix1 f := by
    funext a; match a with | ⟨0, _⟩ => rfl
  rw [val_main_v44_apply, val_main_v43_apply, e]

/-! ## The layer -/

/-- A sum over a filtered set does not depend on how the predicate is decided, nor on which of two equivalent predicates
    filters it. -/
theorem sum_filter_inst {ι M : Type*} [AddCommMonoid M] (s : Finset ι) (p q : ι → Prop) (hp : DecidablePred p)
    (hq : DecidablePred q) (h : ∀ x, p x ↔ q x) (g : ι → M) :
    ∑ x ∈ @Finset.filter ι p hp s, g x = ∑ x ∈ @Finset.filter ι q hq s, g x := by
  have hpq : p = q := funext fun x => propext (h x)
  subst hpq
  have hi : hp = hq := Subsingleton.elim _ _
  subst hi
  rfl

/-- The normal form read at the index with coordinates `n`, `f`. -/
theorem conv_at (x11 : (⟨S2x1600000, .i32⟩ : BufTy).Contents (Elt Ideal))
    (H : (⟨S100000x128, .f32⟩ : BufTy).Contents (Elt Ideal)) (b : (⟨S128, .f32⟩ : BufTy).Contents (Elt Ideal))
    (i : S100000x128.Idx) (n : Fin 100000) (f : Fin 128) (hn : i 0 = n) (hf : i 1 = f) :
    Cert.Spec.conv x11 H b i
      = ((∑ e ∈ Finset.univ.filter (fun e => Cert.Spec.dstTo x11 e = some n),
            (Cert.Spec.rOf x11 (Cert.Spec.srcRow x11 e) * Cert.Spec.rOf x11 n) * H (ix2 (Cert.Spec.srcRow x11 e) f))
          + (Cert.Spec.rOf x11 n * Cert.Spec.rOf x11 n) * H i) + b (ix1 f) := by
  rw [Cert.Spec.conv_eq, hn, hf]
  refine congrArg₂ (· + ·) (congrArg₂ (· + ·) ?_ rfl) rfl
  exact sum_filter_inst _ _ _ _ _ (fun e => Iff.rfl) _

/-- The layer read at the index with coordinates `n`, `f`: the scatter-add's sum over the entries whose destination
    word reads `n` splits into the given edges into `n` and the loop at `n`; on both, wrapping and clamping the
    destination word change nothing. -/
theorem layer_at (x11 : (⟨S2x1600000, .i32⟩ : BufTy).Contents (Elt Ideal))
    (H : (⟨S100000x128, .f32⟩ : BufTy).Contents (Elt Ideal)) (b : (⟨S128, .f32⟩ : BufTy).Contents (Elt Ideal))
    (i : S100000x128.Idx) (n : Fin 100000) (f : Fin 128) (hi : i = ix2 n f) :
    addf (F := Ideal) (φ := .f32) (Host.scatterAdd (F := Ideal) (φ := .f32) scatter_S100000x128_S1700000x1_S1700000x128_1_0_0_1 (val_main_v40 (F := Ideal)) (val_main_v41 (F := Ideal) x11)
        (mulf (F := Ideal) (φ := .f32) (val_main_v38 (F := Ideal) x11)
          (Host.gather gather_S100000x128_S1700000x1_S1700000x128_1_0_n_n_0_1_1128 H (val_main_v36 (F := Ideal) x11))))
      (val_main_v44 (F := Ideal) b) i
      = ((∑ e ∈ Finset.univ.filter (fun e => Cert.Spec.dstTo x11 e = some n),
            (Cert.Spec.rOf x11 (Cert.Spec.srcRow x11 e) * Cert.Spec.rOf x11 n) * H (ix2 (Cert.Spec.srcRow x11 e) f))
          + (Cert.Spec.rOf x11 n * Cert.Spec.rOf x11 n) * H i) + b (ix1 f) := by
  subst hi
  rw [addf_apply, v44_at, Cert.LibScatter.scatterAdd_rows_apply _ rfl rfl rfl rfl, v40_at, zero_add]
  refine congrArg₂ (· + ·) ?_ rfl
  refine (sum_filter_split (fun j => val_main_v41 (F := Ideal) x11 (ix2 j 0)) (fun e => x11 (ix2 1 e)) n
    (fun e => (v41_at x11 _).trans (v6_edge x11 e)) (fun k => (v41_at x11 _).trans (v6_loop x11 k))
    (fun j => (mulf (F := Ideal) (φ := .f32) (val_main_v38 (F := Ideal) x11)
      (Host.gather gather_S100000x128_S1700000x1_S1700000x128_1_0_n_n_0_1_1128 H (val_main_v36 (F := Ideal) x11))) (ix2 j f))).trans ?_
  refine congrArg₂ (· + ·) ?_ ?_
  · refine Finset.sum_congr (Finset.filter_congr fun e _ => Iff.rfl) fun e he => ?_
    have ht : (x11 (ix2 1 e)).toInt = (n.val : Int) :=
      (Cert.Spec.rowOf?_eq_some _ _).1 (Finset.mem_filter.1 he).2
    rw [upd_at, v5_edge, v6_edge, wrap_of_nonneg (x11 (ix2 1 e)) (by rw [ht]; exact Int.natCast_nonneg _),
      clampRow_of_toInt _ n ht]
    rfl
  · rw [upd_at, v5_loop, v6_loop, wrap_of_nonneg _ (by rw [toInt_loop]; exact Int.natCast_nonneg _),
      clampRow_of_toInt _ n (toInt_loop n)]

/-- ONE LAYER: scatter-add of the weighted gathered rows over the edge list with the appended loops, plus the bias, is
    the normal-form convolution. -/
theorem ref_layer (x11 : (⟨S2x1600000, .i32⟩ : BufTy).Contents (Elt Ideal))
    (H : (⟨S100000x128, .f32⟩ : BufTy).Contents (Elt Ideal)) (b : (⟨S128, .f32⟩ : BufTy).Contents (Elt Ideal)) :
    addf (F := Ideal) (φ := .f32) (Host.scatterAdd (F := Ideal) (φ := .f32) scatter_S100000x128_S1700000x1_S1700000x128_1_0_0_1 (val_main_v40 (F := Ideal)) (val_main_v41 (F := Ideal) x11)
        (mulf (F := Ideal) (φ := .f32) (val_main_v38 (F := Ideal) x11)
          (Host.gather gather_S100000x128_S1700000x1_S1700000x128_1_0_n_n_0_1_1128 H (val_main_v36 (F := Ideal) x11))))
      (val_main_v44 (F := Ideal) b)
    = Cert.Spec.conv x11 H b := by
  funext i
  rw [conv_at x11 H b i (i 0) (i 1) rfl rfl]
  exact layer_at x11 H b i (i 0) (i 1) (eq_ix2 i)

end Cert.ReferenceIdeal.RefLayer

end
-- ==== Proof.RefValue.lean ====
/-
  The reference program's result, stage by stage at the exact instance, IS the normal form `Cert.Spec.out`: each of its
  three convolution layers is the normal-form convolution of the layer's input (the layer lemma), the rectifier between
  layers is the specification's, the three matrix products are plain sums over the contracted axis, and the mean over
  each graph is the segment sum of the node rows divided by the graph's size (never below 1).
-/
import proofs.«421659_j20615843021630_2_alg».proof.Proof.RefLayer

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Idealize.SL.Sem
open scoped BigOperators

/-- A `[100000, 128] · [128, 128]` contraction of the second axis with the first is the plain matrix product. -/
theorem dot_eq_mm (X : (⟨S100000x128, .f32⟩ : BufTy).Contents (Elt Ideal)) (W : (⟨S128x128, .f32⟩ : BufTy).Contents (Elt Ideal)) :
    val_main_v29 (F := Ideal) X W = Cert.Spec.mm X W := by
  funext i
  rw [val_main_v29_apply]
  unfold Cert.Spec.mm
  refine Finset.sum_congr rfl fun k _ => ?_
  have el : lidx_main_v29 i k = ix2 (i 0) k := funext fun a => match a with | ⟨0, _⟩ => rfl | ⟨1, _⟩ => rfl
  have er : ridx_main_v29 i k = ix2 k (i 1) := funext fun a => match a with | ⟨0, _⟩ => rfl | ⟨1, _⟩ => rfl
  exact congrArg₂ (· * ·) (congrArg X el) (congrArg W er)

/-- Layer 0 is the normal-form convolution of the first product. -/
theorem layer0 (x0 : (⟨S100000x128, .f32⟩ : BufTy).Contents (Elt Ideal)) (x1 : (⟨S128x128, .f32⟩ : BufTy).Contents (Elt Ideal)) (x2 : (⟨S128, .f32⟩ : BufTy).Contents (Elt Ideal))
    (x11 : (⟨S2x1600000, .i32⟩ : BufTy).Contents (Elt Ideal)) :
    val_main_v45 (F := Ideal) x0 x1 x2 x11 = Cert.Spec.conv x11 (val_main_v29 (F := Ideal) x0 x1) x2 := by
  unfold val_main_v45 val_main_v42 val_main_v39 val_main_v37
  exact RefLayer.ref_layer x11 _ x2

/-- The rectifier stage: select on `v > 0` between `v` and the broadcast slope times `v`. -/
theorem prelu_stage (a : (⟨S1, .f32⟩ : BufTy).Contents (Elt Ideal)) (V : (⟨S100000x128, .f32⟩ : BufTy).Contents (Elt Ideal)) :
    select (cmpf (F := Ideal) (φ := .f32) .ogt V (val_main_v46 (F := Ideal))) V (mulf (F := Ideal) (φ := .f32) (val_main_v49 (F := Ideal) a) V)
      = fun i => Cert.Spec.prelu (a (ix1 0)) (V i) := by
  funext i
  rw [select_apply, cmpf_apply, mulf_apply, val_main_v46_apply, val_main_cst_8_apply, val_main_v49_apply, val_main_v48_apply]
  unfold Cert.Spec.prelu
  rw [Ideal.ofBits_def, Ideal.ofBits_zero_f32, Ideal.cmpf_def]
  have e : idx_main_v48 (idx_main_v49 i) = ix1 0 := funext fun d => match d with | ⟨0, _⟩ => rfl
  rw [e]

/-- The rectifier after layer 0. -/
theorem relu0 (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S1, .f32⟩ : BufTy).Contents (Elt Ideal)) (x11 : (⟨S2x1600000, .i32⟩ : BufTy).Contents (Elt Ideal)) :
    val_main_v51 (F := Ideal) x0 x1 x2 x3 x11 = fun i => Cert.Spec.prelu (x3 (ix1 0)) (val_main_v45 (F := Ideal) x0 x1 x2 x11 i) := by
  unfold val_main_v51 val_main_v50 val_main_v47
  exact prelu_stage x3 _

/-- Layer 1 is the normal-form convolution of the second product (its index-side stages are the same functions of the edge list as layer 0's). -/
theorem layer1 (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S1, .f32⟩ : BufTy).Contents (Elt Ideal)) (x4 : (⟨S128x128, .f32⟩ : BufTy).Contents (Elt Ideal)) (x5 : (⟨S128, .f32⟩ : BufTy).Contents (Elt Ideal))
    (x11 : (⟨S2x1600000, .i32⟩ : BufTy).Contents (Elt Ideal)) :
    val_main_v68 (F := Ideal) x0 x1 x2 x3 x4 x5 x11 = Cert.Spec.conv x11 (val_main_v52 (F := Ideal) x0 x1 x2 x3 x4 x11) x5 := by
  unfold val_main_v68 val_main_v65 val_main_v62 val_main_v60
  exact RefLayer.ref_layer x11 _ x5

/-- The rectifier after layer 1. -/
theorem relu1 (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S1, .f32⟩ : BufTy).Contents (Elt Ideal)) (x4 : (⟨S128x128, .f32⟩ : BufTy).Contents (Elt Ideal)) (x5 : (⟨S128, .f32⟩ : BufTy).Contents (Elt Ideal))
    (x6 : (⟨S1, .f32⟩ : BufTy).Contents (Elt Ideal)) (x11 : (⟨S2x1600000, .i32⟩ : BufTy).Contents (Elt Ideal)) :
    val_main_v74 (F := Ideal) x0 x1 x2 x3 x4 x5 x6 x11 = fun i => Cert.Spec.prelu (x6 (ix1 0)) (val_main_v68 (F := Ideal) x0 x1 x2 x3 x4 x5 x11 i) := by
  unfold val_main_v74 val_main_v73 val_main_v70
  exact prelu_stage x6 _

/-- Layer 2 is the normal-form convolution of the third product. -/
theorem layer2 (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S1, .f32⟩ : BufTy).Contents (Elt Ideal)) (x4 : (⟨S128x128, .f32⟩ : BufTy).Contents (Elt Ideal)) (x5 : (⟨S128, .f32⟩ : BufTy).Contents (Elt Ideal))
    (x6 : (⟨S1, .f32⟩ : BufTy).Contents (Elt Ideal)) (x7 : (⟨S128x128, .f32⟩ : BufTy).Contents (Elt Ideal)) (x8 : (⟨S128, .f32⟩ : BufTy).Contents (Elt Ideal))
    (x11 : (⟨S2x1600000, .i32⟩ : BufTy).Contents (Elt Ideal)) :
    val_main_v91 (F := Ideal) x0 x1 x2 x3 x4 x5 x6 x7 x8 x11 = Cert.Spec.conv x11 (val_main_v75 (F := Ideal) x0 x1 x2 x3 x4 x5 x6 x7 x11) x8 := by
  unfold val_main_v91 val_main_v88 val_main_v85 val_main_v83
  exact RefLayer.ref_layer x11 _ x8

/-- The batch column read at a node is the node's batch word. -/
theorem bat_col (x12 : (⟨S100000, .i32⟩ : BufTy).Contents (Elt Ideal)) (n : Fin 100000) :
    val_main_v93 (F := Ideal) x12 (ix2 n 0) = x12 (ix1 n) := by
  rw [val_main_v93_apply]
  exact congrArg x12 (funext fun d => match d with | ⟨0, _⟩ => rfl)

/-- A node's batch word, read signed, is `g` exactly when the node belongs to graph `g`. -/
theorem bat_iff (x12 : (⟨S100000, .i32⟩ : BufTy).Contents (Elt Ideal)) (n : Fin 100000) (g : Fin 64) :
    (val_main_v93 (F := Ideal) x12 (ix2 n 0)).toInt = (g.val : Int) ↔ Cert.Spec.batTo x12 n = some g := by
  rw [bat_col]
  unfold Cert.Spec.batTo
  exact (Cert.Spec.rowOf?_eq_some _ g).symm

/-- The segment sum of the node rows: at graph `g` and feature `k`, the sum over the graph's nodes (whichever way
    membership is decided). -/
theorem seg_value (C : (⟨S100000x128, .f32⟩ : BufTy).Contents (Elt Ideal)) (x12 : (⟨S100000, .i32⟩ : BufTy).Contents (Elt Ideal))
    (g : Fin 64) (k : Fin 128) (inst : DecidablePred (fun n => Cert.Spec.batTo x12 n = some g)) :
    Host.scatterAdd (F := Ideal) (φ := .f32) scatter_S64x128_S100000x1_S100000x128_1_0_0_1 (val_main_v92 (F := Ideal)) (val_main_v93 (F := Ideal) x12) C (ix2 g k)
      = ∑ n ∈ @Finset.filter (Fin 100000) (fun n => Cert.Spec.batTo x12 n = some g) inst Finset.univ, C (ix2 n k) := by
  rw [Cert.LibScatter.scatterAdd_rows_apply scatter_S64x128_S100000x1_S100000x128_1_0_0_1 rfl rfl rfl rfl]
  rw [val_main_v92_apply, val_main_cst_16_apply, Ideal.ofBits_def, Ideal.ofBits_zero_f32, zero_add]
  refine Finset.sum_congr (Finset.filter_congr fun n _ => ?_) fun _ _ => rfl
  exact bat_iff x12 n g

/-- The graph sizes: the segment sum of ones, never below 1. -/
theorem count_value (x12 : (⟨S100000, .i32⟩ : BufTy).Contents (Elt Ideal)) (g : Fin 64) :
    val_main_v100 (F := Ideal) x12 (ix1 g) = Cert.Spec.cntOf x12 g := by
  rw [val_main_v100_apply, val_main_v99_apply, val_main_cst_19_apply]
  unfold val_main_v98
  rw [Cert.LibScatter.scatterAdd_vec_apply scatter_S64_S100000x1_S100000_n_0_0_1 rfl rfl rfl rfl]
  rw [val_main_v96_apply, val_main_cst_18_apply, Ideal.ofBits_def, Ideal.ofBits_def, Ideal.ofBits_zero_f32, zero_add,
    Cert.Spec.ofBits_one_f32, Ideal.maximumf_def]
  unfold Cert.Spec.cntOf
  refine congrArg (fun t : EReal => max t 1) ?_
  refine Finset.sum_congr (Finset.filter_congr fun n _ => ?_) fun n _ => ?_
  · exact bat_iff x12 n g
  · rw [val_main_v95_apply, val_main_cst_17_apply, Ideal.ofBits_def, Cert.Spec.ofBits_one_f32]

/-- The mean over each graph and the last affine map, in terms of the last layer's output (whichever way membership in a
    graph is decided). -/
theorem pool_value (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S1, .f32⟩ : BufTy).Contents (Elt Ideal)) (x4 : (⟨S128x128, .f32⟩ : BufTy).Contents (Elt Ideal)) (x5 : (⟨S128, .f32⟩ : BufTy).Contents (Elt Ideal)) (x6 : (⟨S1, .f32⟩ : BufTy).Contents (Elt Ideal))
    (x7 : (⟨S128x128, .f32⟩ : BufTy).Contents (Elt Ideal)) (x8 : (⟨S128, .f32⟩ : BufTy).Contents (Elt Ideal)) (x9 : (⟨S128x10, .f32⟩ : BufTy).Contents (Elt Ideal)) (x10 : (⟨S10, .f32⟩ : BufTy).Contents (Elt Ideal))
    (x11 : (⟨S2x1600000, .i32⟩ : BufTy).Contents (Elt Ideal)) (x12 : (⟨S100000, .i32⟩ : BufTy).Contents (Elt Ideal)) (g : Fin 64) (c : Fin 10)
    (inst : DecidablePred (fun n => Cert.Spec.batTo x12 n = some g)) :
    val_main_v107 (F := Ideal) x0 x1 x2 x3 x4 x5 x6 x7 x8 x9 x10 x11 x12 (ix2 g c)
      = (∑ k : Fin 128,
          Ideal.div (∑ n ∈ @Finset.filter (Fin 100000) (fun n => Cert.Spec.batTo x12 n = some g) inst Finset.univ,
              val_main_v91 (F := Ideal) x0 x1 x2 x3 x4 x5 x6 x7 x8 x11 (ix2 n k)) (Cert.Spec.cntOf x12 g)
            * x9 (ix2 k c)) + x10 (ix1 c) := by
  rw [val_main_v107_apply, val_main_v104_apply, val_main_v106_apply, val_main_v105_apply, Ideal.addf_def]
  refine congrArg₂ (· + ·) (Finset.sum_congr rfl fun k _ => ?_) ?_
  · have el : lidx_main_v104 (ix2 g c) k = ix2 g k := funext fun a => match a with | ⟨0, _⟩ => rfl | ⟨1, _⟩ => rfl
    have er : ridx_main_v104 (ix2 g c) k = ix2 k c := funext fun a => match a with | ⟨0, _⟩ => rfl | ⟨1, _⟩ => rfl
    have ec : idx_main_v101 (idx_main_v102 (ix2 g k)) = ix1 g := funext fun d => match d with | ⟨0, _⟩ => rfl
    rw [el, er, val_main_v103_apply, Ideal.hostDivf_def, val_main_v102_apply, val_main_v101_apply, ec, count_value]
    unfold val_main_v94
    exact congrArg (fun t : EReal => Ideal.div t (Cert.Spec.cntOf x12 g) * x9 (ix2 k c)) (seg_value _ x12 g k inst)
  · exact congrArg x10 (funext fun d => match d with | ⟨0, _⟩ => rfl)

/-- The second product is the plain matrix product of the rectified first layer. -/
theorem mm1 (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S1, .f32⟩ : BufTy).Contents (Elt Ideal)) (x4 : (⟨S128x128, .f32⟩ : BufTy).Contents (Elt Ideal)) (x11 : (⟨S2x1600000, .i32⟩ : BufTy).Contents (Elt Ideal)) :
    val_main_v52 (F := Ideal) x0 x1 x2 x3 x4 x11 = Cert.Spec.mm (val_main_v51 (F := Ideal) x0 x1 x2 x3 x11) x4 :=
  dot_eq_mm _ x4

/-- The third product is the plain matrix product of the rectified second layer. -/
theorem mm2 (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S1, .f32⟩ : BufTy).Contents (Elt Ideal)) (x4 : (⟨S128x128, .f32⟩ : BufTy).Contents (Elt Ideal)) (x5 : (⟨S128, .f32⟩ : BufTy).Contents (Elt Ideal))
    (x6 : (⟨S1, .f32⟩ : BufTy).Contents (Elt Ideal)) (x7 : (⟨S128x128, .f32⟩ : BufTy).Contents (Elt Ideal)) (x11 : (⟨S2x1600000, .i32⟩ : BufTy).Contents (Elt Ideal)) :
    val_main_v75 (F := Ideal) x0 x1 x2 x3 x4 x5 x6 x7 x11 = Cert.Spec.mm (val_main_v74 (F := Ideal) x0 x1 x2 x3 x4 x5 x6 x11) x7 :=
  dot_eq_mm _ x7

/-- THE REFERENCE'S VALUE: its last stage, as a function of the thirteen argument arrays, is the normal form. -/
theorem ref_value (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S1, .f32⟩ : BufTy).Contents (Elt Ideal)) (x4 : (⟨S128x128, .f32⟩ : BufTy).Contents (Elt Ideal)) (x5 : (⟨S128, .f32⟩ : BufTy).Contents (Elt Ideal)) (x6 : (⟨S1, .f32⟩ : BufTy).Contents (Elt Ideal))
    (x7 : (⟨S128x128, .f32⟩ : BufTy).Contents (Elt Ideal)) (x8 : (⟨S128, .f32⟩ : BufTy).Contents (Elt Ideal)) (x9 : (⟨S128x10, .f32⟩ : BufTy).Contents (Elt Ideal)) (x10 : (⟨S10, .f32⟩ : BufTy).Contents (Elt Ideal))
    (x11 : (⟨S2x1600000, .i32⟩ : BufTy).Contents (Elt Ideal)) (x12 : (⟨S100000, .i32⟩ : BufTy).Contents (Elt Ideal)) :
    val_main_v107 (F := Ideal) x0 x1 x2 x3 x4 x5 x6 x7 x8 x9 x10 x11 x12
      = Cert.Spec.out x0 x1 x2 x3 x4 x5 x6 x7 x8 x9 x10 x11 x12 := by
  funext i
  obtain ⟨g, c, rfl⟩ : ∃ (g : Fin 64) (c : Fin 10), i = ix2 g c := ⟨i 0, i 1, eq_ix2 i⟩
  exact (pool_value x0 x1 x2 x3 x4 x5 x6 x7 x8 x9 x10 x11 x12 g c _).trans (by
    rw [layer2, mm2, relu1, layer1, mm1, relu0, layer0, dot_eq_mm]
    rfl)

end Cert.ReferenceIdeal.RefValue

end
-- ==== Proof.lean ====
/-
  The certificate: the graph network of the kernel program (three scaled matrix products fused with the
  graph-convolution finishing steps, and a pooling launch) computes, on the extended reals, what the reference's plain
  array program computes.

  Both programs' results are shown equal to ONE normal form, `Cert.Spec.out` (Proof/Spec.lean): per layer, at node n,
  the sum over the edges e into n of (r (row e) · r n) · H (row e), plus (r n · r n) · H n, plus the bias, with r the
  inverse square root of the in-degree counted with the node's own loop; then the mean over each graph's nodes and
  the last affine map. The kernel program reaches it because a node's weight, a nonnegative REAL, moves inside the sum
  over its in-edges on the extended reals (the only law needed; no finiteness of the inputs is used); the reference
  reaches it because the self-loops it appends to the edge list contribute exactly the node's own row. Out-of-range
  edge words read the same clamped row in both programs and are dropped by both scatters.

  The frames: the kernel program's run is assembled launch by launch (Proof/Run.lean for the idealized program,
  Proof/Bits/Run.lean for the word-level one); the reference's is its generated run.
-/
import proofs.«421659_j20615843021630_2_alg».proof.Defs
import proofs.«421659_j20615843021630_2_alg».proof.Proof.Gen.Kernel
import proofs.«421659_j20615843021630_2_alg».proof.Proof.Gen.KernelIdeal
import proofs.«421659_j20615843021630_2_alg».proof.Proof.Gen.ReferenceIdeal
import proofs.«421659_j20615843021630_2_alg».proof.Proof.Gen.Pre_finite_inputs
import proofs.«421659_j20615843021630_2_alg».proof.Proof.Gen.ReferenceIdeal.Run
import proofs.«421659_j20615843021630_2_alg».proof.Proof.Gen.ReferenceIdeal.Read
import proofs.«421659_j20615843021630_2_alg».proof.Proof.Run
import proofs.«421659_j20615843021630_2_alg».proof.Proof.Bits.Run
import proofs.«421659_j20615843021630_2_alg».proof.Proof.KernelValue
import proofs.«421659_j20615843021630_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : @Cert.frame_Kernel Cert.Kernel.Gen.facts Cert.Pre_finite_inputs.Gen.facts :=
  fun m ρ _ => Cert.Kernel.Hand.frame (F := Bits) m ρ

/-- The idealized kernel program runs and leaves its arguments as launched. -/
theorem frame_ki : @Cert.frame_KernelIdeal Cert.KernelIdeal.Gen.facts Cert.Pre_finite_inputs.Gen.facts :=
  fun m ρ _ => Cert.KernelIdeal.Hand.frame (F := Ideal) m ρ

/-- The reference runs and leaves its arguments as launched: its generated run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Run from memories that agree on the arguments, the two idealized programs end with the same result array: both
    are the normal form of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v107_eq, Cert.ReferenceIdeal.RefValue.ref_value,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
